-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x360x640 : Shape := ⟨3, ![32, 360, 640]⟩
abbrev S32x4x360x640 : Shape := ⟨4, ![32, 4, 360, 640]⟩
abbrev S_ : Shape := ⟨0, ![]⟩

class Facts : Prop where
  bcast_S_S32x4x360x640 : S_.BroadcastsInDim S32x4x360x640 (![] : Fin 0 → Fin S32x4x360x640.rank)
  reducesTo_S32x4x360x640_S_d0_1_2_3 : S32x4x360x640.ReducesTo [0, 1, 2, 3] S_
  h_S_ : 0 < S_.numel
  bcast_S_S32x360x640 : S_.BroadcastsInDim S32x360x640 (![] : Fin 0 → Fin S32x360x640.rank)
  reducesTo_S32x360x640_S_d0_1_2 : S32x360x640.ReducesTo [0, 1, 2] S_

variable [Facts]

def fn {F : FTy → Type} [FloatOps F] (main_arg0 : IVec S32x360x640 32) (main_arg1 : FVec F S32x4x360x640 .f32) : IVec S_ 1 :=
  let main_v0 : FVec F S32x4x360x640 .f32 := Host.absf main_arg1
  let main_cst : FVec F S_ .f32 := constant S_ .f32 0x7F800000#32
  let main_v1 : FVec F S32x4x360x640 .f32 := broadcastInDim S32x4x360x640 ![] bcast_S_S32x4x360x640 main_cst
  let main_v2 : IVec S32x4x360x640 1 := cmpf .olt main_v0 main_v1
  let main_c : IVec S_ 1 := constantI S_ 1 1#1
  let main_v3 : IVec S_ 1 := (fun x v => Host.reduce IntOp.andi x v reducesTo_S32x4x360x640_S_d0_1_2_3 h_S_) main_v2 main_c
  let main_c_0 : IVec S_ 32 := constantI S_ 32 0#32
  let main_v4 : IVec S32x360x640 32 := broadcastInDim S32x360x640 ![] bcast_S_S32x360x640 main_c_0
  let main_v5 : IVec S32x360x640 1 := cmpi .sge main_arg0 main_v4
  let main_c_1 : IVec S_ 32 := constantI S_ 32 5#32
  let main_v6 : IVec S32x360x640 32 := broadcastInDim S32x360x640 ![] bcast_S_S32x360x640 main_c_1
  let main_v7 : IVec S32x360x640 1 := cmpi .sle main_arg0 main_v6
  let main_v8 : IVec S32x360x640 1 := andi main_v5 main_v7
  let main_c_2 : IVec S_ 1 := constantI S_ 1 1#1
  let main_v9 : IVec S_ 1 := (fun x v => Host.reduce IntOp.andi x v reducesTo_S32x360x640_S_d0_1_2 h_S_) main_v8 main_c_2
  let main_v10 : IVec S_ 1 := andi main_v3 main_v9
  main_v10
-- ==== Kernel.lean ====
abbrev S32x360x640 : Shape := ⟨3, ![32, 360, 640]⟩
abbrev S32x4x360x640 : Shape := ⟨4, ![32, 4, 360, 640]⟩
abbrev S32x1x5 : Shape := ⟨3, ![32, 1, 5]⟩
abbrev S32x4x5 : Shape := ⟨3, ![32, 4, 5]⟩
abbrev S32x1x128 : Shape := ⟨3, ![32, 1, 128]⟩
abbrev S1x360x640 : Shape := ⟨3, ![1, 360, 640]⟩
abbrev S1x4x360x640 : Shape := ⟨4, ![1, 4, 360, 640]⟩
abbrev S1x1x5 : Shape := ⟨3, ![1, 1, 5]⟩
abbrev S1x4x5 : Shape := ⟨3, ![1, 4, 5]⟩
abbrev S1x1x128 : Shape := ⟨3, ![1, 1, 128]⟩
abbrev S360x640 : Shape := ⟨2, ![360, 640]⟩
abbrev S4x360x640 : Shape := ⟨3, ![4, 360, 640]⟩
abbrev S6x360x640 : Shape := ⟨3, ![6, 360, 640]⟩
abbrev S6x1x1 : Shape := ⟨3, ![6, 1, 1]⟩
abbrev S6 : Shape := ⟨1, ![6]⟩
abbrev S6x360 : Shape := ⟨2, ![6, 360]⟩
abbrev S5 : Shape := ⟨1, ![5]⟩
abbrev S1 : Shape := ⟨1, ![1]⟩
abbrev S1x1x1 : Shape := ⟨3, ![1, 1, 1]⟩
abbrev S1x1 : Shape := ⟨2, ![1, 1]⟩
abbrev S1x128 : Shape := ⟨2, ![1, 128]⟩
abbrev S32x5 : Shape := ⟨2, ![32, 5]⟩
abbrev S32x5x4 : Shape := ⟨3, ![32, 5, 4]⟩
abbrev S32x1x1 : Shape := ⟨3, ![32, 1, 1]⟩
abbrev S32 : Shape := ⟨1, ![32]⟩
abbrev S_ : Shape := ⟨0, ![]⟩
abbrev S32x5x1 : Shape := ⟨3, ![32, 5, 1]⟩
abbrev S32x5x1x4 : Shape := ⟨4, ![32, 5, 1, 4]⟩
abbrev S32x1x5x4 : Shape := ⟨4, ![32, 1, 5, 4]⟩
abbrev S32x5x5x4 : Shape := ⟨4, ![32, 5, 5, 4]⟩
abbrev S32x5x5 : Shape := ⟨3, ![32, 5, 5]⟩
abbrev S5x1 : Shape := ⟨2, ![5, 1]⟩
abbrev S1x5 : Shape := ⟨2, ![1, 5]⟩
abbrev S5x5 : Shape := ⟨2, ![5, 5]⟩
abbrev S1x5x5 : Shape := ⟨3, ![1, 5, 5]⟩

abbrev nBuf : Space → Nat
  | .hbm => 103
  | .vmem => 10
  | .smem => 0
  | _ => 0

abbrev bufTy : (tb : Table) → Fin (tcTables nBuf tb) → BufTy
  | .hbm, ⟨0, _⟩ => ⟨S32x360x640, .i32⟩
  | .hbm, ⟨1, _⟩ => ⟨S32x4x360x640, .f32⟩
  | .hbm, ⟨2, _⟩ => ⟨S32x1x5, .f32⟩
  | .hbm, ⟨3, _⟩ => ⟨S32x4x5, .f32⟩
  | .hbm, ⟨4, _⟩ => ⟨S32x1x128, .f32⟩
  | .hbm, ⟨5, _⟩ => ⟨S32x5, .f32⟩
  | .hbm, ⟨6, _⟩ => ⟨S32x5x4, .f32⟩
  | .hbm, ⟨7, _⟩ => ⟨S32x1x1, .f32⟩
  | .hbm, ⟨8, _⟩ => ⟨S32, .f32⟩
  | .hbm, ⟨9, _⟩ => ⟨S_, .f32⟩
  | .hbm, ⟨10, _⟩ => ⟨S32x5, .f32⟩
  | .hbm, ⟨11, _⟩ => ⟨S32x5, .f32⟩
  | .hbm, ⟨12, _⟩ => ⟨S32x5x1, .f32⟩
  | .hbm, ⟨13, _⟩ => ⟨S32x5x4, .f32⟩
  | .hbm, ⟨14, _⟩ => ⟨S32x5x4, .f32⟩
  | .hbm, ⟨15, _⟩ => ⟨S_, .f32⟩
  | .hbm, ⟨16, _⟩ => ⟨S32x5, .f32⟩
  | .hbm, ⟨17, _⟩ => ⟨S32x5, .i1⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S32x5, .f32⟩
  | .hbm, ⟨23, _⟩ => ⟨S32x5, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S32x5x1x4, .f32⟩
  | .hbm, ⟨35, _⟩ => ⟨S32x1x5x4, .f32⟩
  | .hbm, ⟨36, _⟩ => ⟨S32x5x5x4, .f32⟩
  | .hbm, ⟨37, _⟩ => ⟨S32x5x5x4, .f32⟩
  | .hbm, ⟨38, _⟩ => ⟨S32x5x5x4, .f32⟩
  | .hbm, ⟨39, _⟩ => ⟨S32x5x5x4, .f32⟩
  | .hbm, ⟨40, _⟩ => ⟨S_, .f32⟩
  | .hbm, ⟨41, _⟩ => ⟨S32x5x5, .f32⟩
  | .hbm, ⟨42, _⟩ => ⟨S_, .f32⟩
  | .hbm, ⟨43, _⟩ => ⟨S32x5x5, .f32⟩
  | .hbm, ⟨44, _⟩ => ⟨S32x5x5, .f32⟩
  | .hbm, ⟨45, _⟩ => ⟨S32x5x5, .f32⟩
  | .hbm, ⟨46, _⟩ => ⟨S5, .i32⟩
  | .hbm, ⟨47, _⟩ => ⟨S32x5x1, .i1⟩
  | .hbm, ⟨48, _⟩ => ⟨S32x1x5, .i1⟩
  | .hbm, ⟨49, _⟩ => ⟨S32x5x5, .i1⟩
  | .hbm, ⟨50, _⟩ => ⟨S32x5x5, .i1⟩
  | .hbm, ⟨51, _⟩ => ⟨S32x5x5, .i1⟩
  | .hbm, ⟨52, _⟩ => ⟨S5x1, .i32⟩
  | .hbm, ⟨53, _⟩ => ⟨S1x5, .i32⟩
  | .hbm, ⟨54, _⟩ => ⟨S5x5, .i32⟩
  | .hbm, ⟨55, _⟩ => ⟨S5x5, .i32⟩
  | .hbm, ⟨56, _⟩ => ⟨S5x5, .i1⟩
  | .hbm, ⟨57, _⟩ => ⟨S1x5x5, .i1⟩
  | .hbm, ⟨58, _⟩ => ⟨S32x5x5, .i1⟩
  | .hbm, ⟨59, _⟩ => ⟨S32x5x5, .i1⟩
  | .hbm, ⟨60, _⟩ => ⟨S_, .f32⟩
  | .hbm, ⟨61, _⟩ => ⟨S32x5x5, .f32⟩
  | .hbm, ⟨62, _⟩ => ⟨S32x5x5, .f32⟩
  | .hbm, ⟨63, _⟩ => ⟨S_, .f32⟩
  | .hbm, ⟨64, _⟩ => ⟨S32x5x5, .f32⟩
  | .hbm, ⟨65, _⟩ => ⟨S32x5x5, .f32⟩
  | .hbm, ⟨66, _⟩ => ⟨S32x5x5, .f32⟩
  | .hbm, ⟨67, _⟩ => ⟨S_, .f32⟩
  | .hbm, ⟨68, _⟩ => ⟨S_, .f32⟩
  | .hbm, ⟨69, _⟩ => ⟨S32x5x5, .f32⟩
  | .hbm, ⟨70, _⟩ => ⟨S32x5x5, .f32⟩
  | .hbm, ⟨71, _⟩ => ⟨S_, .f32⟩
  | .hbm, ⟨72, _⟩ => ⟨S32, .f32⟩
  | .hbm, ⟨73, _⟩ => ⟨S32x5x5, .i32⟩
  | .hbm, ⟨74, _⟩ => ⟨S_, .i32⟩
  | .hbm, ⟨75, _⟩ => ⟨S32, .i32⟩
  | .hbm, ⟨76, _⟩ => ⟨S32, .f32⟩
  | .hbm, ⟨77, _⟩ => ⟨S_, .f32⟩
  | .hbm, ⟨78, _⟩ => ⟨S32, .f32⟩
  | .hbm, ⟨79, _⟩ => ⟨S32, .i1⟩
  | .hbm, ⟨80, _⟩ => ⟨S_, .f32⟩
  | .hbm, ⟨81, _⟩ => ⟨S32, .f32⟩
  | .hbm, ⟨82, _⟩ => ⟨S32, .f32⟩
  | .hbm, ⟨83, _⟩ => ⟨S32, .f32⟩
  | .hbm, ⟨84, _⟩ => ⟨S_, .f32⟩
  | .hbm, ⟨85, _⟩ => ⟨S_, .f32⟩
  | .hbm, ⟨86, _⟩ => ⟨S32, .f32⟩
  | .hbm, ⟨87, _⟩ => ⟨S32, .f32⟩
  | .hbm, ⟨88, _⟩ => ⟨S32, .i32⟩
  | .hbm, ⟨89, _⟩ => ⟨S_, .i32⟩
  | .hbm, ⟨90, _⟩ => ⟨S_, .i32⟩
  | .hbm, ⟨91, _⟩ => ⟨S_, .f32⟩
  | .hbm, ⟨92, _⟩ => ⟨S_, .f32⟩
  | .hbm, ⟨93, _⟩ => ⟨S_, .i1⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .local _ .vmem, ⟨0, _⟩ => ⟨S1x360x640, .i32⟩
  | .local _ .vmem, ⟨1, _⟩ => ⟨S1x360x640, .i32⟩
  | .local _ .vmem, ⟨2, _⟩ => ⟨S1x4x360x640, .f32⟩
  | .local _ .vmem, ⟨3, _⟩ => ⟨S1x4x360x640, .f32⟩
  | .local _ .vmem, ⟨4, _⟩ => ⟨S1x1x5, .f32⟩
  | .local _ .vmem, ⟨5, _⟩ => ⟨S1x1x5, .f32⟩
  | .local _ .vmem, ⟨6, _⟩ => ⟨S1x4x5, .f32⟩
  | .local _ .vmem, ⟨7, _⟩ => ⟨S1x4x5, .f32⟩
  | .local _ .vmem, ⟨8, _⟩ => ⟨S1x1x128, .f32⟩
  | .local _ .vmem, ⟨9, _⟩ => ⟨S1x1x128, .f32⟩
  | _, _ => ⟨S32x360x640, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_call1_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_call2_v0 : Ref sig .tc := ⟨.hbm, 68, rfl⟩
abbrev main_call2_v1 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_c : Ref sig .tc := ⟨.hbm, 74, rfl⟩
abbrev main_v51 : Ref sig .tc := ⟨.hbm, 75, rfl⟩
abbrev main_v52 : Ref sig .tc := ⟨.hbm, 76, rfl⟩
abbrev main_cst_13 : Ref sig .tc := ⟨.hbm, 77, rfl⟩
abbrev main_v53 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_15 : Ref sig .tc := ⟨.hbm, 84, rfl⟩
abbrev main_call3_v0 : Ref sig .tc := ⟨.hbm, 85, rfl⟩
abbrev main_call3_v1 : Ref sig .tc := ⟨.hbm, 86, rfl⟩
abbrev main_v58 : Ref sig .tc := ⟨.hbm, 87, rfl⟩
abbrev main_v59 : Ref sig .tc := ⟨.hbm, 88, rfl⟩
abbrev main_c_16 : Ref sig .tc := ⟨.hbm, 89, rfl⟩
abbrev main_v60 : Ref sig .tc := ⟨.hbm, 90, rfl⟩
abbrev main_v61 : Ref sig .tc := ⟨.hbm, 91, rfl⟩
abbrev main_cst_17 : Ref sig .tc := ⟨.hbm, 92, rfl⟩
abbrev main_v62 : Ref sig .tc := ⟨.hbm, 93, rfl⟩
abbrev main_cst_18 : Ref sig .tc := ⟨.hbm, 94, rfl⟩
abbrev main_v63 : Ref sig .tc := ⟨.hbm, 95, rfl⟩
abbrev main_cst_19 : Ref sig .tc := ⟨.hbm, 96, rfl⟩
abbrev main_v64 : Ref sig .tc := ⟨.hbm, 97, rfl⟩
abbrev main_v65 : Ref sig .tc := ⟨.hbm, 98, rfl⟩
abbrev main_cst_20 : Ref sig .tc := ⟨.hbm, 99, rfl⟩
abbrev main_call4_v0 : Ref sig .tc := ⟨.hbm, 100, rfl⟩
abbrev main_v66 : Ref sig .tc := ⟨.hbm, 101, rfl⟩
abbrev main_v67 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x360x640 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x360x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x360x640_S1x360x640_0_0_0 : ∀ a, (![0, 0, 0] : Fin 3 → Nat) a + S1x360x640.size a ≤ S1x360x640.size a
  h_S1x360x640 : 0 < S1x360x640.numel
  shapeCasts_S1x360x640_S360x640 : S1x360x640.ShapeCasts S360x640
  inb_S1x4x360x640_S1x4x360x640_0_0_0_0 : ∀ a, (![0, 0, 0, 0] : Fin 4 → Nat) a + S1x4x360x640.size a ≤ S1x4x360x640.size a
  h_S1x4x360x640 : 0 < S1x4x360x640.numel
  shapeCasts_S1x4x360x640_S4x360x640 : S1x4x360x640.ShapeCasts S4x360x640
  iota_S6x360x640_d0_w32 : S6x360x640.Iotas .tc 32 [0]
  shapeCasts_S360x640_S1x360x640 : S360x640.ShapeCasts S1x360x640
  broadcasts_S1x360x640_S6x360x640 : S1x360x640.Broadcasts S6x360x640
  natLt_1_32 : 1 < 32
  slices_S6x360x640_o0_0_0_S6x1x1 : S6x360x640.Slices ![0, 0, 0] S6x1x1
  shapeCasts_S6x1x1_S6 : S6x1x1.ShapeCasts S6
  reduces_S6x360x640_S6x360 : S6x360x640.Reduces [2] S6x360
  reduces_S6x360_S6 : S6x360.Reduces [1] S6
  slices_S6_o1_S5 : S6.Slices ![1] S5
  inb_S1x1x5_S1x1x5_0_0_0 : ∀ a, (![0, 0, 0] : Fin 3 → Nat) a + S1x1x5.size a ≤ S1x1x5.size a
  h_S1x1x5 : 0 < S1x1x5.numel
  shapeCasts_S1x1x5_S5 : S1x1x5.ShapeCasts S5
  shapeCasts_S5_S1x1x5 : S5.ShapeCasts S1x1x5
  shapeCasts_S6_S6x1x1 : S6.ShapeCasts S6x1x1
  broadcasts_S6x1x1_S6x360x640 : S6x1x1.Broadcasts S6x360x640
  reduces_S6x360x640_S360x640 : S6x360x640.Reduces [0] S360x640
  slices_S4x360x640_o0_0_0_S1x360x640 : S4x360x640.Slices ![0, 0, 0] S1x360x640
  inb_S1x4x5_S1x1x5_0_0_0 : ∀ a, (![0, 0, 0] : Fin 3 → Nat) a + S1x1x5.size a ≤ S1x4x5.size a
  slices_S4x360x640_o1_0_0_S1x360x640 : S4x360x640.Slices ![1, 0, 0] S1x360x640
  inb_S1x4x5_S1x1x5_0_1_0 : ∀ a, (![0, 1, 0] : Fin 3 → Nat) a + S1x1x5.size a ≤ S1x4x5.size a
  slices_S4x360x640_o2_0_0_S1x360x640 : S4x360x640.Slices ![2, 0, 0] S1x360x640
  inb_S1x4x5_S1x1x5_0_2_0 : ∀ a, (![0, 2, 0] : Fin 3 → Nat) a + S1x1x5.size a ≤ S1x4x5.size a
  slices_S4x360x640_o3_0_0_S1x360x640 : S4x360x640.Slices ![3, 0, 0] S1x360x640
  inb_S1x4x5_S1x1x5_0_3_0 : ∀ a, (![0, 3, 0] : Fin 3 → Nat) a + S1x1x5.size a ≤ S1x4x5.size a
  reduces_S1x360x640_S1 : S1x360x640.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S32x1x5_S32x5 : S32x1x5.ShapeCasts S32x5
  transposes_S32x4x5_S32x5x4_0_2_1 : S32x4x5.Transposes [0, 2, 1] S32x5x4
  slices_S32x1x128_S32x1x1_0_0_0 : S32x1x128.Slices ![0, 0, 0] S32x1x1
  shapeCasts_S32x1x1_S32 : S32x1x1.ShapeCasts S32
  bcast_S_S32x5 : S_.BroadcastsInDim S32x5 (![] : Fin 0 → Fin S32x5.rank)
  bcast_S32x5_S32x5x1_0_1 : S32x5.BroadcastsInDim S32x5x1 (![0, 1] : Fin 2 → Fin S32x5x1.rank)
  bcast_S32x5x1_S32x5x4_0_1_2 : S32x5x1.BroadcastsInDim S32x5x4 (![0, 1, 2] : Fin 3 → Fin S32x5x4.rank)
  reducesTo_S32_S_d0 : S32.ReducesTo [0] S_
  h_S_ : 0 < S_.numel
  reducesTo_S32x5_S_d0_1 : S32x5.ReducesTo [0, 1] S_
  bcast_S32x5x4_S32x5x1x4_0_1_3 : S32x5x4.BroadcastsInDim S32x5x1x4 (![0, 1, 3] : Fin 3 → Fin S32x5x1x4.rank)
  bcast_S32x5x4_S32x1x5x4_0_2_3 : S32x5x4.BroadcastsInDim S32x1x5x4 (![0, 2, 3] : Fin 3 → Fin S32x1x5x4.rank)
  bcast_S32x5x1x4_S32x5x5x4_0_1_2_3 : S32x5x1x4.BroadcastsInDim S32x5x5x4 (![0, 1, 2, 3] : Fin 4 → Fin S32x5x5x4.rank)
  bcast_S32x1x5x4_S32x5x5x4_0_1_2_3 : S32x1x5x4.BroadcastsInDim S32x5x5x4 (![0, 1, 2, 3] : Fin 4 → Fin S32x5x5x4.rank)
  reducesTo_S32x5x5x4_S32x5x5_d3 : S32x5x5x4.ReducesTo [3] S32x5x5
  bcast_S_S32x5x5 : S_.BroadcastsInDim S32x5x5 (![] : Fin 0 → Fin S32x5x5.rank)
  bcast_S32x5_S32x1x5_0_2 : S32x5.BroadcastsInDim S32x1x5 (![0, 2] : Fin 2 → Fin S32x1x5.rank)
  bcast_S32x5x1_S32x5x5_0_1_2 : S32x5x1.BroadcastsInDim S32x5x5 (![0, 1, 2] : Fin 3 → Fin S32x5x5.rank)
  bcast_S32x1x5_S32x5x5_0_1_2 : S32x1x5.BroadcastsInDim S32x5x5 (![0, 1, 2] : Fin 3 → Fin S32x5x5.rank)
  bcast_S5_S5x1_0 : S5.BroadcastsInDim S5x1 (![0] : Fin 1 → Fin S5x1.rank)
  bcast_S5_S1x5_1 : S5.BroadcastsInDim S1x5 (![1] : Fin 1 → Fin S1x5.rank)
  bcast_S5x1_S5x5_0_1 : S5x1.BroadcastsInDim S5x5 (![0, 1] : Fin 2 → Fin S5x5.rank)
  bcast_S1x5_S5x5_0_1 : S1x5.BroadcastsInDim S5x5 (![0, 1] : Fin 2 → Fin S5x5.rank)
  bcast_S5x5_S1x5x5_1_2 : S5x5.BroadcastsInDim S1x5x5 (![1, 2] : Fin 2 → Fin S1x5x5.rank)
  bcast_S1x5x5_S32x5x5_0_1_2 : S1x5x5.BroadcastsInDim S32x5x5 (![0, 1, 2] : Fin 3 → Fin S32x5x5.rank)
  reducesTo_S32x5x5_S32_d1_2 : S32x5x5.ReducesTo [1, 2] S32
  bcast_S_S32 : S_.BroadcastsInDim S32 (![] : Fin 0 → Fin S32.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x360x640.size a ≤ S32x360x640.size a
  hwx0_0 : ∀ i : grid0.Coords, EltTy.bits .i32 = 32 ∨ (Rect.block (s := S32x360x640) S1x360x640.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x360x640.size a ≤ S32x4x360x640.size a
  hwx0_1 : ∀ i : grid0.Coords, EltTy.bits .f32 = 32 ∨ (Rect.block (s := S32x4x360x640) S1x4x360x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x5.size a ≤ S32x1x5.size a
  hwx0_2 : ∀ i : grid0.Coords, EltTy.bits .f32 = 32 ∨ (Rect.block (s := S32x1x5) S1x1x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x5.size a ≤ S32x4x5.size a
  hwx0_3 : ∀ i : grid0.Coords, EltTy.bits .f32 = 32 ∨ (Rect.block (s := S32x4x5) S1x4x5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S32x1x128.size a
  hwx0_4 : ∀ i : grid0.Coords, EltTy.bits .f32 = 32 ∨ (Rect.block (s := S32x1x128) S1x1x128.size (cc0_transform_4 i) (hinb0_4 i)).WholeWords (EltTy.packing .f32)

variable [Facts₀]

abbrev win0_0 : Pipeline.Window sig grid0 :=
  Pipeline.Window.ofSpec (Memref.whole main_arg0) S1x360x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4x360x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x5.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x4x5.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x360x640 : Shape := ⟨3, ![32, 360, 640]⟩
abbrev S32x4x360x640 : Shape := ⟨4, ![32, 4, 360, 640]⟩
abbrev S32x230400 : Shape := ⟨2, ![32, 230400]⟩
abbrev S32x4x230400 : Shape := ⟨3, ![32, 4, 230400]⟩
abbrev S32x1x230400 : Shape := ⟨3, ![32, 1, 230400]⟩
abbrev S5 : Shape := ⟨1, ![5]⟩
abbrev S_ : Shape := ⟨0, ![]⟩
abbrev S1x5x1 : Shape := ⟨3, ![1, 5, 1]⟩
abbrev S32x5x230400 : Shape := ⟨3, ![32, 5, 230400]⟩
abbrev S32x5 : Shape := ⟨2, ![32, 5]⟩
abbrev S32x5x4 : Shape := ⟨3, ![32, 5, 4]⟩
abbrev S32x5x1 : Shape := ⟨3, ![32, 5, 1]⟩
abbrev S32x1x4 : Shape := ⟨3, ![32, 1, 4]⟩
abbrev S32x6x4 : Shape := ⟨3, ![32, 6, 4]⟩
abbrev S32x230400x1 : Shape := ⟨3, ![32, 230400, 1]⟩
abbrev S1 : Shape := ⟨1, ![1]⟩
abbrev S1x1x1 : Shape := ⟨3, ![1, 1, 1]⟩
abbrev S32x230400x4 : Shape := ⟨3, ![32, 230400, 4]⟩
abbrev S32x1 : Shape := ⟨2, ![32, 1]⟩
abbrev S32x6 : Shape := ⟨2, ![32, 6]⟩
abbrev S32x5x1x4 : Shape := ⟨4, ![32, 5, 1, 4]⟩
abbrev S32x1x5x4 : Shape := ⟨4, ![32, 1, 5, 4]⟩
abbrev S32x5x5x4 : Shape := ⟨4, ![32, 5, 5, 4]⟩
abbrev S32x5x5 : Shape := ⟨3, ![32, 5, 5]⟩
abbrev S32x1x5 : Shape := ⟨3, ![32, 1, 5]⟩
abbrev S5x1 : Shape := ⟨2, ![5, 1]⟩
abbrev S1x5 : Shape := ⟨2, ![1, 5]⟩
abbrev S5x5 : Shape := ⟨2, ![5, 5]⟩
abbrev S1x5x5 : Shape := ⟨3, ![1, 5, 5]⟩
abbrev S32 : Shape := ⟨1, ![32]⟩

abbrev nBuf : Space → Nat
  | .hbm => 185
  | .vmem => 0
  | .smem => 0
  | _ => 0

abbrev hbmTy0_0 (i : Nat) : BufTy := match i % 128 with
  | 0 => ⟨S32x360x640, .i32⟩
  | 1 => ⟨S32x4x360x640, .f32⟩
  | 2 => ⟨S32x230400, .i32⟩
  | 3 => ⟨S32x4x230400, .f32⟩
  | 4 => ⟨S32x1x230400, .i32⟩
  | 5 => ⟨S5, .i32⟩
  | 6 => ⟨S_, .i32⟩
  | 7 => ⟨S5, .i32⟩
  | 8 => ⟨S5, .i32⟩
  | 9 => ⟨S1x5x1, .i32⟩
  | 10 => ⟨S32x5x230400, .i32⟩
  | 11 => ⟨S32x5x230400, .i32⟩
  | 12 => ⟨S32x5x230400, .i1⟩
  | 13 => ⟨S32x5x230400, .i32⟩
  | 14 => ⟨S_, .i32⟩
  | 15 => ⟨S32x5, .i32⟩
  | 16 => ⟨S_, .i32⟩
  | 17 => ⟨S32x5, .i32⟩
  | 18 => ⟨S32x5, .i1⟩
  | 19 => ⟨S32x5x230400, .f32⟩
  | 20 => ⟨S32x5x4, .f32⟩
  | 21 => ⟨S_, .i32⟩
  | 22 => ⟨S32x5, .i32⟩
  | 23 => ⟨S32x5, .i32⟩
  | 24 => ⟨S32x5x1, .i32⟩
  | 25 => ⟨S32x5x1, .f32⟩
  | 26 => ⟨S32x5x4, .f32⟩
  | 27 => ⟨S32x5x4, .f32⟩
  | 28 => ⟨S_, .f32⟩
  | 29 => ⟨S32x1x4, .f32⟩
  | 30 => ⟨S32x6x4, .f32⟩
  | 31 => ⟨S32x230400x1, .i32⟩
  | 32 => ⟨S_, .i32⟩
  | 33 => ⟨S32x230400x1, .i32⟩
  | 34 => ⟨S32x230400x1, .i1⟩
  | 35 => ⟨S_, .i32⟩
  | 36 => ⟨S32x230400x1, .i32⟩
  | 37 => ⟨S32x230400x1, .i32⟩
  | 38 => ⟨S32x230400x1, .i32⟩
  | 39 => ⟨S1, .i32⟩
  | 40 => ⟨S_, .i32⟩
  | 41 => ⟨S32x230400x1, .i32⟩
  | 42 => ⟨S32x230400x1, .i1⟩
  | 43 => ⟨S1x1x1, .i32⟩
  | 44 => ⟨S32x230400x1, .i32⟩
  | 45 => ⟨S32x230400x1, .i1⟩
  | 46 => ⟨S32x230400x1, .i1⟩
  | 47 => ⟨S_, .i1⟩
  | 48 => ⟨S32x230400, .i1⟩
  | 49 => ⟨S32x230400x4, .f32⟩
  | 50 => ⟨S32x230400x4, .i1⟩
  | 51 => ⟨S_, .f32⟩
  | 52 => ⟨S32x230400x4, .f32⟩
  | 53 => ⟨S32x230400x4, .f32⟩
  | 54 => ⟨S32x230400x4, .f32⟩
  | 55 => ⟨S32x230400x4, .f32⟩
  | 56 => ⟨S32x230400x4, .f32⟩
  | 57 => ⟨S_, .f32⟩
  | 58 => ⟨S32x230400, .f32⟩
  | 59 => ⟨S_, .f32⟩
  | 60 => ⟨S32x230400, .f32⟩
  | 61 => ⟨S32x230400, .f32⟩
  | 62 => ⟨S32x230400, .f32⟩
  | 63 => ⟨S_, .i1⟩
  | 64 => ⟨S32x1, .i1⟩
  | 65 => ⟨S32x6, .i1⟩
  | 66 => ⟨S_, .i32⟩
  | 67 => ⟨S32x230400, .i32⟩
  | 68 => ⟨S32x230400, .i1⟩
  | 69 => ⟨S_, .i32⟩
  | 70 => ⟨S32x230400, .i32⟩
  | 71 => ⟨S32x230400, .i32⟩
  | 72 => ⟨S32x230400, .i32⟩
  | 73 => ⟨S32x230400x1, .i32⟩
  | 74 => ⟨S1, .i32⟩
  | 75 => ⟨S_, .i32⟩
  | 76 => ⟨S32x230400x1, .i32⟩
  | 77 => ⟨S32x230400x1, .i1⟩
  | 78 => ⟨S1x1x1, .i32⟩
  | 79 => ⟨S32x230400x1, .i32⟩
  | 80 => ⟨S32x230400x1, .i1⟩
  | 81 => ⟨S32x230400x1, .i1⟩
  | 82 => ⟨S_, .i1⟩
  | 83 => ⟨S32x230400, .i1⟩
  | 84 => ⟨S32x230400, .i1⟩
  | 85 => ⟨S_, .i1⟩
  | 86 => ⟨S32x230400, .i1⟩
  | 87 => ⟨S32x230400, .i1⟩
  | 88 => ⟨S_, .f32⟩
  | 89 => ⟨S32x230400, .f32⟩
  | 90 => ⟨S32x230400, .f32⟩
  | 91 => ⟨S_, .f32⟩
  | 92 => ⟨S32x230400, .f32⟩
  | 93 => ⟨S32x230400, .f32⟩
  | 94 => ⟨S32x230400, .f32⟩
  | 95 => ⟨S_, .f32⟩
  | 96 => ⟨S_, .f32⟩
  | 97 => ⟨S32x230400, .f32⟩
  | 98 => ⟨S32x230400, .f32⟩
  | 99 => ⟨S_, .f32⟩
  | 100 => ⟨S_, .f32⟩
  | 101 => ⟨S_, .i32⟩
  | 102 => ⟨S_, .i32⟩
  | 103 => ⟨S32x5, .i32⟩
  | 104 => ⟨S32x5, .i32⟩
  | 105 => ⟨S_, .i32⟩
  | 106 => ⟨S_, .i32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S32x5x1x4, .f32⟩
  | 117 => ⟨S32x1x5x4, .f32⟩
  | 118 => ⟨S32x5x5x4, .f32⟩
  | 119 => ⟨S32x5x5x4, .f32⟩
  | 120 => ⟨S32x5x5x4, .f32⟩
  | 121 => ⟨S32x5x5x4, .f32⟩
  | 122 => ⟨S_, .f32⟩
  | 123 => ⟨S32x5x5, .f32⟩
  | 124 => ⟨S_, .f32⟩
  | 125 => ⟨S32x5x5, .f32⟩
  | 126 => ⟨S32x5x5, .f32⟩
  | 127 => ⟨S32x5x5, .f32⟩
  | _ => ⟨S32x360x640, .i32⟩

abbrev hbmTy0_1 (i : Nat) : BufTy := match i % 128 with
  | 0 => ⟨S5, .i32⟩
  | 1 => ⟨S32x5x1, .i1⟩
  | 2 => ⟨S32x1x5, .i1⟩
  | 3 => ⟨S32x5x5, .i1⟩
  | 4 => ⟨S32x5x5, .i1⟩
  | 5 => ⟨S32x5x5, .i1⟩
  | 6 => ⟨S5x1, .i32⟩
  | 7 => ⟨S1x5, .i32⟩
  | 8 => ⟨S5x5, .i32⟩
  | 9 => ⟨S5x5, .i32⟩
  | 10 => ⟨S5x5, .i1⟩
  | 11 => ⟨S1x5x5, .i1⟩
  | 12 => ⟨S32x5x5, .i1⟩
  | 13 => ⟨S32x5x5, .i1⟩
  | 14 => ⟨S_, .f32⟩
  | 15 => ⟨S32x5x5, .f32⟩
  | 16 => ⟨S32x5x5, .f32⟩
  | 17 => ⟨S_, .f32⟩
  | 18 => ⟨S32x5x5, .f32⟩
  | 19 => ⟨S32x5x5, .f32⟩
  | 20 => ⟨S32x5x5, .f32⟩
  | 21 => ⟨S_, .f32⟩
  | 22 => ⟨S_, .f32⟩
  | 23 => ⟨S32x5x5, .f32⟩
  | 24 => ⟨S32x5x5, .f32⟩
  | 25 => ⟨S_, .f32⟩
  | 26 => ⟨S32, .f32⟩
  | 27 => ⟨S32x5x5, .i32⟩
  | 28 => ⟨S_, .i32⟩
  | 29 => ⟨S32, .i32⟩
  | 30 => ⟨S32, .f32⟩
  | 31 => ⟨S_, .f32⟩
  | 32 => ⟨S32, .f32⟩
  | 33 => ⟨S32, .i1⟩
  | 34 => ⟨S_, .f32⟩
  | 35 => ⟨S32, .f32⟩
  | 36 => ⟨S32, .f32⟩
  | 37 => ⟨S32, .f32⟩
  | 38 => ⟨S_, .f32⟩
  | 39 => ⟨S_, .f32⟩
  | 40 => ⟨S32, .f32⟩
  | 41 => ⟨S32, .f32⟩
  | 42 => ⟨S32, .i32⟩
  | 43 => ⟨S_, .i32⟩
  | 44 => ⟨S_, .i32⟩
  | 45 => ⟨S_, .f32⟩
  | 46 => ⟨S_, .f32⟩
  | 47 => ⟨S_, .i1⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | _ => ⟨S32x360x640, .i32⟩

abbrev hbmTy (i : Nat) : BufTy := match i / 128 with
  | 0 => hbmTy0_0 i
  | 1 => hbmTy0_1 i
  | _ => ⟨S32x360x640, .i32⟩

abbrev bufTy : (tb : Table) → Fin (tcTables nBuf tb) → BufTy
  | .hbm, ⟨i, _⟩ => hbmTy i
  | _, _ => ⟨S32x360x640, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_1 : Ref sig .tc := ⟨.hbm, 39, rfl⟩
abbrev main_call0_c_2 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_c_3 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_cst : Ref sig .tc := ⟨.hbm, 51, rfl⟩
abbrev main_call0_v14 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_3 : Ref sig .tc := ⟨.hbm, 57, rfl⟩
abbrev main_v29 : Ref sig .tc := ⟨.hbm, 58, rfl⟩
abbrev main_cst_4 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_5 : Ref sig .tc := ⟨.hbm, 63, rfl⟩
abbrev main_v33 : Ref sig .tc := ⟨.hbm, 64, rfl⟩
abbrev main_v34 : Ref sig .tc := ⟨.hbm, 65, rfl⟩
abbrev main_call1_c : Ref sig .tc := ⟨.hbm, 66, rfl⟩
abbrev main_call1_v0 : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_c_1 : Ref sig .tc := ⟨.hbm, 74, rfl⟩
abbrev main_call1_c_2 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_3 : Ref sig .tc := ⟨.hbm, 82, rfl⟩
abbrev main_call1_v12 : Ref sig .tc := ⟨.hbm, 83, rfl⟩
abbrev main_call1_v13 : Ref sig .tc := ⟨.hbm, 84, rfl⟩
abbrev main_call1_c_4 : Ref sig .tc := ⟨.hbm, 85, rfl⟩
abbrev main_call1_v14 : Ref sig .tc := ⟨.hbm, 86, rfl⟩
abbrev main_v35 : Ref sig .tc := ⟨.hbm, 87, rfl⟩
abbrev main_cst_6 : Ref sig .tc := ⟨.hbm, 88, rfl⟩
abbrev main_v36 : Ref sig .tc := ⟨.hbm, 89, rfl⟩
abbrev main_v37 : Ref sig .tc := ⟨.hbm, 90, rfl⟩
abbrev main_call2_cst : Ref sig .tc := ⟨.hbm, 91, rfl⟩
abbrev main_call2_v0 : Ref sig .tc := ⟨.hbm, 92, rfl⟩
abbrev main_v38 : Ref sig .tc := ⟨.hbm, 93, rfl⟩
abbrev main_v39 : Ref sig .tc := ⟨.hbm, 94, rfl⟩
abbrev main_cst_7 : Ref sig .tc := ⟨.hbm, 95, rfl⟩
abbrev main_call3_v0 : Ref sig .tc := ⟨.hbm, 96, rfl⟩
abbrev main_call3_v1 : Ref sig .tc := ⟨.hbm, 97, rfl⟩
abbrev main_v40 : Ref sig .tc := ⟨.hbm, 98, rfl⟩
abbrev main_cst_8 : Ref sig .tc := ⟨.hbm, 99, rfl⟩
abbrev main_v41 : Ref sig .tc := ⟨.hbm, 100, rfl⟩
abbrev main_c_9 : Ref sig .tc := ⟨.hbm, 101, rfl⟩
abbrev main_call4_v0 : Ref sig .tc := ⟨.hbm, 102, rfl⟩
abbrev main_call4_v1 : Ref sig .tc := ⟨.hbm, 103, rfl⟩
abbrev main_v42 : Ref sig .tc := ⟨.hbm, 104, rfl⟩
abbrev main_c_10 : Ref sig .tc := ⟨.hbm, 105, rfl⟩
abbrev main_v43 : Ref sig .tc := ⟨.hbm, 106, rfl⟩
abbrev main_v44 : Ref sig .tc := ⟨.hbm, 107, rfl⟩
abbrev main_cst_11 : Ref sig .tc := ⟨.hbm, 108, rfl⟩
abbrev main_v45 : Ref sig .tc := ⟨.hbm, 109, rfl⟩
abbrev main_cst_12 : Ref sig .tc := ⟨.hbm, 110, rfl⟩
abbrev main_v46 : Ref sig .tc := ⟨.hbm, 111, rfl⟩
abbrev main_v47 : Ref sig .tc := ⟨.hbm, 112, rfl⟩
abbrev main_cst_13 : Ref sig .tc := ⟨.hbm, 113, rfl⟩
abbrev main_call5_v0 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_cst_14 : Ref sig .tc := ⟨.hbm, 122, rfl⟩
abbrev main_v55 : Ref sig .tc := ⟨.hbm, 123, rfl⟩
abbrev main_cst_15 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_cst_16 : Ref sig .tc := ⟨.hbm, 142, rfl⟩
abbrev main_v73 : Ref sig .tc := ⟨.hbm, 143, rfl⟩
abbrev main_v74 : Ref sig .tc := ⟨.hbm, 144, rfl⟩
abbrev main_call6_cst : Ref sig .tc := ⟨.hbm, 145, rfl⟩
abbrev main_call6_v0 : Ref sig .tc := ⟨.hbm, 146, rfl⟩
abbrev main_v75 : Ref sig .tc := ⟨.hbm, 147, rfl⟩
abbrev main_v76 : Ref sig .tc := ⟨.hbm, 148, rfl⟩
abbrev main_cst_17 : Ref sig .tc := ⟨.hbm, 149, rfl⟩
abbrev main_call7_v0 : Ref sig .tc := ⟨.hbm, 150, rfl⟩
abbrev main_call7_v1 : Ref sig .tc := ⟨.hbm, 151, rfl⟩
abbrev main_v77 : Ref sig .tc := ⟨.hbm, 152, rfl⟩
abbrev main_cst_18 : Ref sig .tc := ⟨.hbm, 153, rfl⟩
abbrev main_v78 : Ref sig .tc := ⟨.hbm, 154, rfl⟩
abbrev main_v79 : Ref sig .tc := ⟨.hbm, 155, rfl⟩
abbrev main_c_19 : Ref sig .tc := ⟨.hbm, 156, rfl⟩
abbrev main_v80 : Ref sig .tc := ⟨.hbm, 157, rfl⟩
abbrev main_v81 : Ref sig .tc := ⟨.hbm, 158, rfl⟩
abbrev main_cst_20 : Ref sig .tc := ⟨.hbm, 159, rfl⟩
abbrev main_v82 : Ref sig .tc := ⟨.hbm, 160, rfl⟩
abbrev main_v83 : Ref sig .tc := ⟨.hbm, 161, rfl⟩
abbrev main_cst_21 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_cst_22 : Ref sig .tc := ⟨.hbm, 166, rfl⟩
abbrev main_call8_v0 : Ref sig .tc := ⟨.hbm, 167, rfl⟩
abbrev main_call8_v1 : Ref sig .tc := ⟨.hbm, 168, rfl⟩
abbrev main_v87 : Ref sig .tc := ⟨.hbm, 169, rfl⟩
abbrev main_v88 : Ref sig .tc := ⟨.hbm, 170, rfl⟩
abbrev main_c_23 : Ref sig .tc := ⟨.hbm, 171, rfl⟩
abbrev main_v89 : Ref sig .tc := ⟨.hbm, 172, rfl⟩
abbrev main_v90 : Ref sig .tc := ⟨.hbm, 173, rfl⟩
abbrev main_cst_24 : Ref sig .tc := ⟨.hbm, 174, rfl⟩
abbrev main_v91 : Ref sig .tc := ⟨.hbm, 175, rfl⟩
abbrev main_cst_25 : Ref sig .tc := ⟨.hbm, 176, rfl⟩
abbrev main_v92 : Ref sig .tc := ⟨.hbm, 177, rfl⟩
abbrev main_cst_26 : Ref sig .tc := ⟨.hbm, 178, rfl⟩
abbrev main_v93 : Ref sig .tc := ⟨.hbm, 179, rfl⟩
abbrev main_v94 : Ref sig .tc := ⟨.hbm, 180, rfl⟩
abbrev main_cst_27 : Ref sig .tc := ⟨.hbm, 181, rfl⟩
abbrev main_call9_v0 : Ref sig .tc := ⟨.hbm, 182, rfl⟩
abbrev main_v95 : Ref sig .tc := ⟨.hbm, 183, rfl⟩
abbrev main_v96 : Ref sig .tc := ⟨.hbm, 184, rfl⟩

abbrev nD : Nat := 1
abbrev τ : Topo := Topo.v7x

variable {F : FTy → Type} [FloatOps F]

class Facts₀ : Prop where
  shapeCasts_S32x360x640_S32x230400 : S32x360x640.ShapeCasts S32x230400
  shapeCasts_S32x4x360x640_S32x4x230400 : S32x4x360x640.ShapeCasts S32x4x230400
  bcast_S32x230400_S32x1x230400_0_2 : S32x230400.BroadcastsInDim S32x1x230400 (![0, 2] : Fin 2 → Fin S32x1x230400.rank)
  bcast_S_S5 : S_.BroadcastsInDim S5 (![] : Fin 0 → Fin S5.rank)
  bcast_S5_S1x5x1_1 : S5.BroadcastsInDim S1x5x1 (![1] : Fin 1 → Fin S1x5x1.rank)
  bcast_S32x1x230400_S32x5x230400_0_1_2 : S32x1x230400.BroadcastsInDim S32x5x230400 (![0, 1, 2] : Fin 3 → Fin S32x5x230400.rank)
  bcast_S1x5x1_S32x5x230400_0_1_2 : S1x5x1.BroadcastsInDim S32x5x230400 (![0, 1, 2] : Fin 3 → Fin S32x5x230400.rank)
  natLt_1_32 : 1 < 32
  reducesTo_S32x5x230400_S32x5_d2 : S32x5x230400.ReducesTo [2] S32x5
  h_S_ : 0 < S_.numel
  bcast_S_S32x5 : S_.BroadcastsInDim S32x5 (![] : Fin 0 → Fin S32x5.rank)
  bcast_S32x5_S32x5x1_0_1 : S32x5.BroadcastsInDim S32x5x1 (![0, 1] : Fin 2 → Fin S32x5x1.rank)
  bcast_S32x5x1_S32x5x4_0_1_2 : S32x5x1.BroadcastsInDim S32x5x4 (![0, 1, 2] : Fin 3 → Fin S32x5x4.rank)
  bcast_S_S32x1x4 : S_.BroadcastsInDim S32x1x4 (![] : Fin 0 → Fin S32x1x4.rank)
  concatenates_S32x1x4_S32x5x4_S32x6x4_d1 : Shape.Concatenates [S32x1x4, S32x5x4] S32x6x4 1
  bcast_S32x230400_S32x230400x1_0_1 : S32x230400.BroadcastsInDim S32x230400x1 (![0, 1] : Fin 2 → Fin S32x230400x1.rank)
  bcast_S_S32x230400x1 : S_.BroadcastsInDim S32x230400x1 (![] : Fin 0 → Fin S32x230400x1.rank)
  bcast_S1_S1x1x1_2 : S1.BroadcastsInDim S1x1x1 (![2] : Fin 1 → Fin S1x1x1.rank)
  bcast_S1x1x1_S32x230400x1_0_1_2 : S1x1x1.BroadcastsInDim S32x230400x1 (![0, 1, 2] : Fin 3 → Fin S32x230400x1.rank)
  reducesTo_S32x230400x1_S32x230400_d2 : S32x230400x1.ReducesTo [2] S32x230400
  bcast_S32x230400_S32x230400x4_0_1 : S32x230400.BroadcastsInDim S32x230400x4 (![0, 1] : Fin 2 → Fin S32x230400x4.rank)
  bcast_S_S32x230400x4 : S_.BroadcastsInDim S32x230400x4 (![] : Fin 0 → Fin S32x230400x4.rank)
  transposes_S32x4x230400_S32x230400x4_0_2_1 : S32x4x230400.Transposes [0, 2, 1] S32x230400x4
  reducesTo_S32x230400x4_S32x230400_d2 : S32x230400x4.ReducesTo [2] S32x230400
  bcast_S_S32x230400 : S_.BroadcastsInDim S32x230400 (![] : Fin 0 → Fin S32x230400.rank)
  bcast_S_S32x1 : S_.BroadcastsInDim S32x1 (![] : Fin 0 → Fin S32x1.rank)
  concatenates_S32x1_S32x5_S32x6_d1 : Shape.Concatenates [S32x1, S32x5] S32x6 1
  shapeCasts_S32x230400_S32x230400x1 : S32x230400.ShapeCasts S32x230400x1
  reducesTo_S32x230400_S_d0_1 : S32x230400.ReducesTo [0, 1] S_
  reducesTo_S32x5_S_d0_1 : S32x5.ReducesTo [0, 1] S_
  bcast_S32x5x4_S32x5x1x4_0_1_3 : S32x5x4.BroadcastsInDim S32x5x1x4 (![0, 1, 3] : Fin 3 → Fin S32x5x1x4.rank)
  bcast_S32x5x4_S32x1x5x4_0_2_3 : S32x5x4.BroadcastsInDim S32x1x5x4 (![0, 2, 3] : Fin 3 → Fin S32x1x5x4.rank)
  bcast_S32x5x1x4_S32x5x5x4_0_1_2_3 : S32x5x1x4.BroadcastsInDim S32x5x5x4 (![0, 1, 2, 3] : Fin 4 → Fin S32x5x5x4.rank)
  bcast_S32x1x5x4_S32x5x5x4_0_1_2_3 : S32x1x5x4.BroadcastsInDim S32x5x5x4 (![0, 1, 2, 3] : Fin 4 → Fin S32x5x5x4.rank)
  reducesTo_S32x5x5x4_S32x5x5_d3 : S32x5x5x4.ReducesTo [3] S32x5x5
  bcast_S_S32x5x5 : S_.BroadcastsInDim S32x5x5 (![] : Fin 0 → Fin S32x5x5.rank)
  bcast_S32x5_S32x1x5_0_2 : S32x5.BroadcastsInDim S32x1x5 (![0, 2] : Fin 2 → Fin S32x1x5.rank)
  bcast_S32x5x1_S32x5x5_0_1_2 : S32x5x1.BroadcastsInDim S32x5x5 (![0, 1, 2] : Fin 3 → Fin S32x5x5.rank)
  bcast_S32x1x5_S32x5x5_0_1_2 : S32x1x5.BroadcastsInDim S32x5x5 (![0, 1, 2] : Fin 3 → Fin S32x5x5.rank)
  bcast_S5_S5x1_0 : S5.BroadcastsInDim S5x1 (![0] : Fin 1 → Fin S5x1.rank)
  bcast_S5_S1x5_1 : S5.BroadcastsInDim S1x5 (![1] : Fin 1 → Fin S1x5.rank)
  bcast_S5x1_S5x5_0_1 : S5x1.BroadcastsInDim S5x5 (![0, 1] : Fin 2 → Fin S5x5.rank)
  bcast_S1x5_S5x5_0_1 : S1x5.BroadcastsInDim S5x5 (![0, 1] : Fin 2 → Fin S5x5.rank)
  bcast_S5x5_S1x5x5_1_2 : S5x5.BroadcastsInDim S1x5x5 (![1, 2] : Fin 2 → Fin S1x5x5.rank)
  bcast_S1x5x5_S32x5x5_0_1_2 : S1x5x5.BroadcastsInDim S32x5x5 (![0, 1, 2] : Fin 3 → Fin S32x5x5.rank)
  reducesTo_S32x5x5_S32_d1_2 : S32x5x5.ReducesTo [1, 2] S32
  bcast_S_S32 : S_.BroadcastsInDim S32 (![] : Fin 0 → Fin S32.rank)
  reducesTo_S32_S_d0 : S32.ReducesTo [0] S_
  dot_S32x5x230400_S32x4x230400_S32x5x4_2_2_1_1_0_0_wf : DotDims.WF S32x5x230400 S32x4x230400 S32x5x4 [2] [2] [1] [1] [0] [0]
  gather_S32x6x4_S32x230400x1_S32x230400x4_2_1_0_0_1_2_114_wf : GatherDims.WF S32x6x4 S32x230400x1 S32x230400x4 [2] [1] [0] [1] [0] 2 ![1, 1, 4]
  gather_S32x6_S32x230400x1_S32x230400_n_1_0_0_1_2_11_wf : GatherDims.WF S32x6 S32x230400x1 S32x230400 [] [1] [0] [1] [0] 2 ![1, 1]

variable [Facts₀]

def dot_S32x5x230400_S32x4x230400_S32x5x4_2_2_1_1_0_0 : DotDims S32x5x230400 S32x4x230400 S32x5x4 where
  lhsContracting := [2]
  rhsContracting := [2]
  lhsNonContracting := [1]
  rhsNonContracting := [1]
  lhsBatch := [0]
  rhsBatch := [0]
  wf := dot_S32x5x230400_S32x4x230400_S32x5x4_2_2_1_1_0_0_wf
def gather_S32x6x4_S32x230400x1_S32x230400x4_2_1_0_0_1_2_114 : GatherDims S32x6x4 S32x230400x1 S32x230400x4 where
  offsetDims := [2]
  collapsedSliceDims := [1]
  operandBatchingDims := [0]
  startIndicesBatchingDims := [0]
  startIndexMap := [1]
  indexVectorDim := 2
  sliceSizes := ![1, 1, 4]
  wf := gather_S32x6x4_S32x230400x1_S32x230400x4_2_1_0_0_1_2_114_wf
def gather_S32x6_S32x230400x1_S32x230400_n_1_0_0_1_2_11 : GatherDims S32x6 S32x230400x1 S32x230400 where
  offsetDims := []
  collapsedSliceDims := [1]
  operandBatchingDims := [0]
  startIndicesBatchingDims := [0]
  startIndexMap := [1]
  indexVectorDim := 2
  sliceSizes := ![1, 1]
  wf := gather_S32x6_S32x230400x1_S32x230400_n_1_0_0_1_2_11_wf

class Facts : Prop extends Facts₀ where

variable [Facts]
-- ==== Proof.KFrame.lean ====
/-
  The frame of `Kernel`: its @main is ONE pipelined region (grid of 32 points, one per batch element) followed by
  host operations only. Per point the body loads the label block (1×360×640 words) and the embedding block
  (1×4×360×640), and stores three blocks whole: the five lane counts (one store), the 4×5 lane sums (four row
  stores that tile the block) and the 128 copies of the point's hinge sum (one store). So what each output's
  staging buffer holds after the body is the canon of those stores over the two input blocks (`out0_2`,
  `out0_3`, `out0_4`), the body's triple is one symbolic run, the proof data name every buffer after every
  point, and the launch theorem for a region continued by host lines gives the run: every array of the pipeline
  ends at what the proof data compute, every other buffer at what the later lines leave, and in particular both
  argument arrays end as launched. Generic in the float family: read at the word-level instance and at the ideal one.
-/
import proofs.«402451_j17145509446225_3_alg».proof.Proof.Gen.Kernel.Launch
import proofs.«402451_j17145509446225_3_alg».proof.Proof.Gen.Kernel.Skeleton
import proofs.«402451_j17145509446225_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The stretches of host operations that follow the region, in program order. -/
local notation "tailOps" => ([hostOps1, hostOps1_1, hostOps1_2, hostOps1_3, hostOps1_4, hostOps1_5, hostOps1_6, hostOps1_7, hostOps1_8, hostOps1_9, hostOps1_10] : List (List (HloOp τ sig (Elt F))))

variable (m : (ℓ : Loc nD τ sig) → Buf (Elt F) ℓ) (ρ : Dev nD → PrngReg)

/-! ## @main around the region -/

/-- Core `c`'s buffer contents when the region is entered: no host operation precedes it, so the launch memory. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

/-- @main is the region continued by the later host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (List.map StableHlo.seq tailOps)) :=
  Pipeline.hmain_around cfgs 0 defs₀ 𝒱₀ m main [] tailOps (by simp only [List.Forall]) (by simp only [List.Forall]) main_chain

/-- The later lines touch the pipeline's arrays and the buffers that bypass the region only. -/
theorem sfx_sub : ∀ ops ∈ tailOps, ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)

/-- They allocate nothing. -/
theorem sfx_fresh : ∀ ops ∈ tailOps, ∀ op ∈ ops, op.fresh = ∅ := by
  intro ops hops op hop
  simp only [List.mem_cons, List.mem_nil_iff, or_false] at hops
  rcases hops with rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop

set_option maxHeartbeats 1000000 in
/-- No operation of this stretch writes an array of the pipeline: each writes its own result buffer only. -/
theorem hostOps1_keeps : (hostOps1 : List (HloOp τ sig (Elt F))).Forall fun op => ∀ w : Fin 5, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
/-- No operation of this stretch writes an array of the pipeline: each writes its own result buffer only. -/
theorem hostOps1_1_keeps : (hostOps1_1 : List (HloOp τ sig (Elt F))).Forall fun op => ∀ w : Fin 5, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
/-- No operation of this stretch writes an array of the pipeline: each writes its own result buffer only. -/
theorem hostOps1_2_keeps : (hostOps1_2 : List (HloOp τ sig (Elt F))).Forall fun op => ∀ w : Fin 5, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
/-- No operation of this stretch writes an array of the pipeline: each writes its own result buffer only. -/
theorem hostOps1_3_keeps : (hostOps1_3 : List (HloOp τ sig (Elt F))).Forall fun op => ∀ w : Fin 5, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
/-- No operation of this stretch writes an array of the pipeline: each writes its own result buffer only. -/
theorem hostOps1_4_keeps : (hostOps1_4 : List (HloOp τ sig (Elt F))).Forall fun op => ∀ w : Fin 5, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
/-- No operation of this stretch writes an array of the pipeline: each writes its own result buffer only. -/
theorem hostOps1_5_keeps : (hostOps1_5 : List (HloOp τ sig (Elt F))).Forall fun op => ∀ w : Fin 5, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
/-- No operation of this stretch writes an array of the pipeline: each writes its own result buffer only. -/
theorem hostOps1_6_keeps : (hostOps1_6 : List (HloOp τ sig (Elt F))).Forall fun op => ∀ w : Fin 5, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
/-- No operation of this stretch writes an array of the pipeline: each writes its own result buffer only. -/
theorem hostOps1_7_keeps : (hostOps1_7 : List (HloOp τ sig (Elt F))).Forall fun op => ∀ w : Fin 5, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
/-- No operation of this stretch writes an array of the pipeline: each writes its own result buffer only. -/
theorem hostOps1_8_keeps : (hostOps1_8 : List (HloOp τ sig (Elt F))).Forall fun op => ∀ w : Fin 5, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
/-- No operation of this stretch writes an array of the pipeline: each writes its own result buffer only. -/
theorem hostOps1_9_keeps : (hostOps1_9 : List (HloOp τ sig (Elt F))).Forall fun op => ∀ w : Fin 5, Proc.devRef .tc (Pipeline.arrRef spec0 w) ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
/-- No operation of this stretch writes an array of the pipeline: each writes its own result buffer only. -/
theorem hostOps1_10_keeps : (hostOps1_10 : List (HloOp τ sig (Elt F))).Forall fun op => ∀ w : Fin 5, Proc.devRef .tc (Pipeline.arrRef spec0 w) ∉ op.writes := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- And so the later lines write no array of the pipeline. -/
theorem sfx_keeps : ∀ ops ∈ tailOps, ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop

/-- The region finds each argument array as launched. -/
theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole label block and the whole embedding block (the two loads). -/
abbrev rT : Rect S1x360x640 := Rect.unit (s := S1x360x640) ![0, 0, 0] S1x360x640.size inb_S1x360x640_S1x360x640_0_0_0
abbrev rE : Rect S1x4x360x640 := Rect.unit (s := S1x4x360x640) ![0, 0, 0, 0] S1x4x360x640.size inb_S1x4x360x640_S1x4x360x640_0_0_0_0
/-- The whole counts block; the four rows of the sums block; the whole hinge-sum block (the stores). -/
abbrev rC : Rect S1x1x5 := Rect.unit (s := S1x1x5) ![0, 0, 0] S1x1x5.size inb_S1x1x5_S1x1x5_0_0_0
abbrev rS0 : Rect S1x4x5 := Rect.unit (s := S1x4x5) ![0, 0, 0] S1x1x5.size inb_S1x4x5_S1x1x5_0_0_0
abbrev rS1 : Rect S1x4x5 := Rect.unit (s := S1x4x5) ![0, 1, 0] S1x1x5.size inb_S1x4x5_S1x1x5_0_1_0
abbrev rS2 : Rect S1x4x5 := Rect.unit (s := S1x4x5) ![0, 2, 0] S1x1x5.size inb_S1x4x5_S1x1x5_0_2_0
abbrev rS3 : Rect S1x4x5 := Rect.unit (s := S1x4x5) ![0, 3, 0] S1x1x5.size inb_S1x4x5_S1x1x5_0_3_0
abbrev rD : Rect S1x1x128 := Rect.unit (s := S1x1x128) ![0, 0, 0] S1x1x128.size inb_S1x1x128_S1x1x128_0_0_0

/-! ## What the body leaves in each output window's buffer -/

/-- The counts block after the body: its one store, the lane counts of the label block. -/
def out0_2 (x0 : Vec F S1x360x640 .i32) (x1 : Vec F S1x4x360x640 .f32) : Vec F S1x1x5 .f32 :=
  View.canon [⟨rC, k0_pay5 (View.ld x0 rT)⟩]

theorem cover0_2 (p0 : Vec F S1x1x5 .f32) (y : S1x1x5.Idx) :
    ∃ pc ∈ ([⟨rC, p0⟩] : List (View.Piece (Elt F) S1x1x5 .f32)), y ∈ pc.1.set :=
  View.cover_of_tiled [⟨rC, p0⟩] S1x1x5.size (by rfl) y

/-- The sums block after the body: its four row stores, last first — row `c` the lane sums of channel `c`. -/
def out0_3 (x0 : Vec F S1x360x640 .i32) (x1 : Vec F S1x4x360x640 .f32) : Vec F S1x4x5 .f32 :=
  View.canon [⟨rS3, k0_pay18 (k0_pay2 (View.ld x1 rE)) (k0_pay3 (View.ld x0 rT))⟩,
    ⟨rS2, k0_pay16 (k0_pay15 (k0_pay2 (View.ld x1 rE)) (k0_pay3 (View.ld x0 rT)))⟩,
    ⟨rS1, k0_pay12 (k0_pay2 (View.ld x1 rE)) (k0_pay3 (View.ld x0 rT))⟩,
    ⟨rS0, k0_pay10 (k0_pay9 (View.ld x0 rT) (View.ld x1 rE))⟩]

theorem cover0_3 (p0 p1 p2 p3 : Vec F S1x1x5 .f32) (y : S1x4x5.Idx) :
    ∃ pc ∈ ([⟨rS3, p0⟩, ⟨rS2, p1⟩, ⟨rS1, p2⟩, ⟨rS0, p3⟩] : List (View.Piece (Elt F) S1x4x5 .f32)), y ∈ pc.1.set :=
  View.cover_of_tiled [⟨rS3, p0⟩, ⟨rS2, p1⟩, ⟨rS1, p2⟩, ⟨rS0, p3⟩] S1x1x5.size (by rfl) y

/-- The hinge-sum block after the body: its one store. -/
def out0_4 (x0 : Vec F S1x360x640 .i32) (x1 : Vec F S1x4x360x640 .f32) : Vec F S1x1x128 .f32 :=
  View.canon [⟨rD, k0_pay1 (k0_pay6 (View.ld x0 rT))
    (k0_pay19 (k0_pay2 (View.ld x1 rE)) (k0_pay3 (View.ld x0 rT)) (k0_pay4 (View.ld x0 rT))
      (k0_pay13 (k0_pay2 (View.ld x1 rE)) (k0_pay3 (View.ld x0 rT)) (k0_pay4 (View.ld x0 rT)) (k0_pay7 (F := F)) (k0_pay8 (View.ld x0 rT) (View.ld x1 rE)))
      (k0_pay14 (k0_pay2 (View.ld x1 rE)) (k0_pay3 (View.ld x0 rT))))
    (Scalar.ofBits .f32 0x00000000#32)⟩]

theorem cover0_4 (p0 : Vec F S1x1x128 .f32) (y : S1x1x128.Idx) :
    ∃ pc ∈ ([⟨rD, p0⟩] : List (View.Piece (Elt F) S1x1x128 .f32)), y ∈ pc.1.set :=
  View.cover_of_tiled [⟨rD, p0⟩] S1x1x128.size (by rfl) y

/-! ## The body's triple -/

set_option maxHeartbeats 4000000 in
/-- The body on whole staging memrefs, the inputs' at contents `x0`, `x1` and the outputs' at anything, runs to
    the continuation holding the inputs' as they were and each output's at its canon of the stores. -/
theorem sound_kernel (c : Dev nD) (E : Set ℕ) (i : grid0.Coords) (arg1 : Memref sig .tc .vmem S1x360x640 .i32) (harg1 : arg1.IsWhole) (arg2 : Memref sig .tc .vmem S1x4x360x640 .f32) (harg2 : arg2.IsWhole) (arg3 : Memref sig .tc .vmem S1x1x5 .f32) (harg3 : arg3.IsWhole) (arg4 : Memref sig .tc .vmem S1x4x5 .f32) (harg4 : arg4.IsWhole) (arg5 : Memref sig .tc .vmem S1x1x128 .f32) (harg5 : arg5.IsWhole)
    (x0 : Vec F S1x360x640 .i32) (x1 : Vec F S1x4x360x640 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1) ∗ owns (c : Thread nD τ) arg5 fullShare (out0_4 x0 x1)) -∗ K ⟨⟩))
      ⊢ wp frame (wpE (defs₀ (F := F)) Variants.none c none) E (cc0__fused_kernel i arg1 harg1 arg2 harg2 arg3 harg3 arg4 harg4 arg5 harg5) K := by
  simp only [cc0__fused_kernel_eq_skeleton]; unfold cc0__fused_kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (cover0_2 _)
  isplitl [H3]
  · iexists _; isplitr
    swap; · iexact H3
    ipureintro
    try dsimp only
    exact View.read_writes_eq_canon _ _ _ (cover0_3 _ _ _ _)
  iexists _; isplitr
  swap; · iexact H4
  ipureintro
  try dsimp only
  exact View.read_writes_eq_canon _ _ _ (cover0_4 _)

/-! ## The pipeline's proof data -/

/-- The proof data on core `c`: the arrays as the region finds them; after the body at point `t` each input's buffer
    at its block and each output's at its canon over the two input blocks; the class's invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
    | ⟨3, _⟩ => out0_3 (iblk m c 0 t) (iblk m c 1 t)
    | ⟨4, _⟩ => out0_4 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]
theorem after0_3 (c : Dev nD) (t : Fin cfg0.N) : (dats m 0 c).after 3 t = out0_3 (iblk m c 0 t) (iblk m c 1 t) := by dsimp only [dats]
theorem after0_4 (c : Dev nD) (t : Fin cfg0.N) : (dats m 0 c).after 4 t = out0_4 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- Every weakly fair execution of @main terminates; every array of the pipeline ends at what the proof data compute
    and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- Both argument arrays are input windows' arrays, which no write-back touches: after the run each is as launched. -/
theorem kept_main_arg0 (c : Dev nD) : (dats m 0 c).arrAt 0 cfg0.N = m ((c.tc : Thread nD τ).loc main_arg0) :=
  ((dats m 0 c).arrAt_in 0 rfl _).trans ((A_eq m c 0).trans (V_main_arg0 m c))
theorem kept_main_arg1 (c : Dev nD) : (dats m 0 c).arrAt 1 cfg0.N = m ((c.tc : Thread nD τ).loc main_arg1) :=
  ((dats m 0 c).arrAt_in 1 rfl _).trans ((A_eq m c 1).trans (V_main_arg1 m c))

/-- THE FRAME: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (kept_main_arg0 m c), ((h c).1 1).trans (kept_main_arg1 m c)⟩) (run_main m ρ)

end Cert.Kernel.Fr

end
-- ==== Proof.KIFrame.lean ====
/-
  The frame of `KernelIdeal`: its @main is ONE pipelined region (grid of 32 points, one per batch element) followed by
  host operations only. Per point the body loads the label block (1×360×640 words) and the embedding block
  (1×4×360×640), and stores three blocks whole: the five lane counts (one store), the 4×5 lane sums (four row
  stores that tile the block) and the 128 copies of the point's hinge sum (one store). So what each output's
  staging buffer holds after the body is the canon of those stores over the two input blocks (`out0_2`,
  `out0_3`, `out0_4`), the body's triple is one symbolic run, the proof data name every buffer after every
  point, and the launch theorem for a region continued by host lines gives the run: every array of the pipeline
  ends at what the proof data compute, every other buffer at what the later lines leave, and in particular both
  argument arrays end as launched. Generic in the float family: read at the word-level instance and at the ideal one.
-/
import proofs.«402451_j17145509446225_3_alg».proof.Proof.Gen.KernelIdeal.Launch
import proofs.«402451_j17145509446225_3_alg».proof.Proof.Gen.KernelIdeal.Skeleton
import proofs.«402451_j17145509446225_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The stretches of host operations that follow the region, in program order. -/
local notation "tailOps" => ([hostOps1, hostOps1_1, hostOps1_2, hostOps1_3, hostOps1_4, hostOps1_5, hostOps1_6, hostOps1_7, hostOps1_8, hostOps1_9, hostOps1_10] : List (List (HloOp τ sig (Elt F))))

variable (m : (ℓ : Loc nD τ sig) → Buf (Elt F) ℓ) (ρ : Dev nD → PrngReg)

/-! ## @main around the region -/

/-- Core `c`'s buffer contents when the region is entered: no host operation precedes it, so the launch memory. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

/-- @main is the region continued by the later host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (List.map StableHlo.seq tailOps)) :=
  Pipeline.hmain_around cfgs 0 defs₀ 𝒱₀ m main [] tailOps (by simp only [List.Forall]) (by simp only [List.Forall]) main_chain

/-- The later lines touch the pipeline's arrays and the buffers that bypass the region only. -/
theorem sfx_sub : ∀ ops ∈ tailOps, ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)

/-- They allocate nothing. -/
theorem sfx_fresh : ∀ ops ∈ tailOps, ∀ op ∈ ops, op.fresh = ∅ := by
  intro ops hops op hop
  simp only [List.mem_cons, List.mem_nil_iff, or_false] at hops
  rcases hops with rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop

set_option maxHeartbeats 1000000 in
/-- No operation of this stretch writes an array of the pipeline: each writes its own result buffer only. -/
theorem hostOps1_keeps : (hostOps1 : List (HloOp τ sig (Elt F))).Forall fun op => ∀ w : Fin 5, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
/-- No operation of this stretch writes an array of the pipeline: each writes its own result buffer only. -/
theorem hostOps1_1_keeps : (hostOps1_1 : List (HloOp τ sig (Elt F))).Forall fun op => ∀ w : Fin 5, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
/-- No operation of this stretch writes an array of the pipeline: each writes its own result buffer only. -/
theorem hostOps1_2_keeps : (hostOps1_2 : List (HloOp τ sig (Elt F))).Forall fun op => ∀ w : Fin 5, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
/-- No operation of this stretch writes an array of the pipeline: each writes its own result buffer only. -/
theorem hostOps1_3_keeps : (hostOps1_3 : List (HloOp τ sig (Elt F))).Forall fun op => ∀ w : Fin 5, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
/-- No operation of this stretch writes an array of the pipeline: each writes its own result buffer only. -/
theorem hostOps1_4_keeps : (hostOps1_4 : List (HloOp τ sig (Elt F))).Forall fun op => ∀ w : Fin 5, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
/-- No operation of this stretch writes an array of the pipeline: each writes its own result buffer only. -/
theorem hostOps1_5_keeps : (hostOps1_5 : List (HloOp τ sig (Elt F))).Forall fun op => ∀ w : Fin 5, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
/-- No operation of this stretch writes an array of the pipeline: each writes its own result buffer only. -/
theorem hostOps1_6_keeps : (hostOps1_6 : List (HloOp τ sig (Elt F))).Forall fun op => ∀ w : Fin 5, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
/-- No operation of this stretch writes an array of the pipeline: each writes its own result buffer only. -/
theorem hostOps1_7_keeps : (hostOps1_7 : List (HloOp τ sig (Elt F))).Forall fun op => ∀ w : Fin 5, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
/-- No operation of this stretch writes an array of the pipeline: each writes its own result buffer only. -/
theorem hostOps1_8_keeps : (hostOps1_8 : List (HloOp τ sig (Elt F))).Forall fun op => ∀ w : Fin 5, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
/-- No operation of this stretch writes an array of the pipeline: each writes its own result buffer only. -/
theorem hostOps1_9_keeps : (hostOps1_9 : List (HloOp τ sig (Elt F))).Forall fun op => ∀ w : Fin 5, Proc.devRef .tc (Pipeline.arrRef spec0 w) ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
set_option maxHeartbeats 1000000 in
/-- No operation of this stretch writes an array of the pipeline: each writes its own result buffer only. -/
theorem hostOps1_10_keeps : (hostOps1_10 : List (HloOp τ sig (Elt F))).Forall fun op => ∀ w : Fin 5, Proc.devRef .tc (Pipeline.arrRef spec0 w) ∉ op.writes := by
  simp only [hostOps1_10, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- And so the later lines write no array of the pipeline. -/
theorem sfx_keeps : ∀ ops ∈ tailOps, ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop

/-- The region finds each argument array as launched. -/
theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole label block and the whole embedding block (the two loads). -/
abbrev rT : Rect S1x360x640 := Rect.unit (s := S1x360x640) ![0, 0, 0] S1x360x640.size inb_S1x360x640_S1x360x640_0_0_0
abbrev rE : Rect S1x4x360x640 := Rect.unit (s := S1x4x360x640) ![0, 0, 0, 0] S1x4x360x640.size inb_S1x4x360x640_S1x4x360x640_0_0_0_0
/-- The whole counts block; the four rows of the sums block; the whole hinge-sum block (the stores). -/
abbrev rC : Rect S1x1x5 := Rect.unit (s := S1x1x5) ![0, 0, 0] S1x1x5.size inb_S1x1x5_S1x1x5_0_0_0
abbrev rS0 : Rect S1x4x5 := Rect.unit (s := S1x4x5) ![0, 0, 0] S1x1x5.size inb_S1x4x5_S1x1x5_0_0_0
abbrev rS1 : Rect S1x4x5 := Rect.unit (s := S1x4x5) ![0, 1, 0] S1x1x5.size inb_S1x4x5_S1x1x5_0_1_0
abbrev rS2 : Rect S1x4x5 := Rect.unit (s := S1x4x5) ![0, 2, 0] S1x1x5.size inb_S1x4x5_S1x1x5_0_2_0
abbrev rS3 : Rect S1x4x5 := Rect.unit (s := S1x4x5) ![0, 3, 0] S1x1x5.size inb_S1x4x5_S1x1x5_0_3_0
abbrev rD : Rect S1x1x128 := Rect.unit (s := S1x1x128) ![0, 0, 0] S1x1x128.size inb_S1x1x128_S1x1x128_0_0_0

/-! ## What the body leaves in each output window's buffer -/

/-- The counts block after the body: its one store, the lane counts of the label block. -/
def out0_2 (x0 : Vec F S1x360x640 .i32) (x1 : Vec F S1x4x360x640 .f32) : Vec F S1x1x5 .f32 :=
  View.canon [⟨rC, k0_pay5 (View.ld x0 rT)⟩]

theorem cover0_2 (p0 : Vec F S1x1x5 .f32) (y : S1x1x5.Idx) :
    ∃ pc ∈ ([⟨rC, p0⟩] : List (View.Piece (Elt F) S1x1x5 .f32)), y ∈ pc.1.set :=
  View.cover_of_tiled [⟨rC, p0⟩] S1x1x5.size (by rfl) y

/-- The sums block after the body: its four row stores, last first — row `c` the lane sums of channel `c`. -/
def out0_3 (x0 : Vec F S1x360x640 .i32) (x1 : Vec F S1x4x360x640 .f32) : Vec F S1x4x5 .f32 :=
  View.canon [⟨rS3, k0_pay18 (k0_pay2 (View.ld x1 rE)) (k0_pay3 (View.ld x0 rT))⟩,
    ⟨rS2, k0_pay16 (k0_pay15 (k0_pay2 (View.ld x1 rE)) (k0_pay3 (View.ld x0 rT)))⟩,
    ⟨rS1, k0_pay12 (k0_pay2 (View.ld x1 rE)) (k0_pay3 (View.ld x0 rT))⟩,
    ⟨rS0, k0_pay10 (k0_pay9 (View.ld x0 rT) (View.ld x1 rE))⟩]

theorem cover0_3 (p0 p1 p2 p3 : Vec F S1x1x5 .f32) (y : S1x4x5.Idx) :
    ∃ pc ∈ ([⟨rS3, p0⟩, ⟨rS2, p1⟩, ⟨rS1, p2⟩, ⟨rS0, p3⟩] : List (View.Piece (Elt F) S1x4x5 .f32)), y ∈ pc.1.set :=
  View.cover_of_tiled [⟨rS3, p0⟩, ⟨rS2, p1⟩, ⟨rS1, p2⟩, ⟨rS0, p3⟩] S1x1x5.size (by rfl) y

/-- The hinge-sum block after the body: its one store. -/
def out0_4 (x0 : Vec F S1x360x640 .i32) (x1 : Vec F S1x4x360x640 .f32) : Vec F S1x1x128 .f32 :=
  View.canon [⟨rD, k0_pay1 (k0_pay6 (View.ld x0 rT))
    (k0_pay19 (k0_pay2 (View.ld x1 rE)) (k0_pay3 (View.ld x0 rT)) (k0_pay4 (View.ld x0 rT))
      (k0_pay13 (k0_pay2 (View.ld x1 rE)) (k0_pay3 (View.ld x0 rT)) (k0_pay4 (View.ld x0 rT)) (k0_pay7 (F := F)) (k0_pay8 (View.ld x0 rT) (View.ld x1 rE)))
      (k0_pay14 (k0_pay2 (View.ld x1 rE)) (k0_pay3 (View.ld x0 rT))))
    (Scalar.ofBits .f32 0x00000000#32)⟩]

theorem cover0_4 (p0 : Vec F S1x1x128 .f32) (y : S1x1x128.Idx) :
    ∃ pc ∈ ([⟨rD, p0⟩] : List (View.Piece (Elt F) S1x1x128 .f32)), y ∈ pc.1.set :=
  View.cover_of_tiled [⟨rD, p0⟩] S1x1x128.size (by rfl) y

/-! ## The body's triple -/

set_option maxHeartbeats 4000000 in
/-- The body on whole staging memrefs, the inputs' at contents `x0`, `x1` and the outputs' at anything, runs to
    the continuation holding the inputs' as they were and each output's at its canon of the stores. -/
theorem sound_kernel (c : Dev nD) (E : Set ℕ) (i : grid0.Coords) (arg1 : Memref sig .tc .vmem S1x360x640 .i32) (harg1 : arg1.IsWhole) (arg2 : Memref sig .tc .vmem S1x4x360x640 .f32) (harg2 : arg2.IsWhole) (arg3 : Memref sig .tc .vmem S1x1x5 .f32) (harg3 : arg3.IsWhole) (arg4 : Memref sig .tc .vmem S1x4x5 .f32) (harg4 : arg4.IsWhole) (arg5 : Memref sig .tc .vmem S1x1x128 .f32) (harg5 : arg5.IsWhole)
    (x0 : Vec F S1x360x640 .i32) (x1 : Vec F S1x4x360x640 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1) ∗ owns (c : Thread nD τ) arg5 fullShare (out0_4 x0 x1)) -∗ K ⟨⟩))
      ⊢ wp frame (wpE (defs₀ (F := F)) Variants.none c none) E (cc0__fused_kernel i arg1 harg1 arg2 harg2 arg3 harg3 arg4 harg4 arg5 harg5) K := by
  simp only [cc0__fused_kernel_eq_skeleton]; unfold cc0__fused_kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (cover0_2 _)
  isplitl [H3]
  · iexists _; isplitr
    swap; · iexact H3
    ipureintro
    try dsimp only
    exact View.read_writes_eq_canon _ _ _ (cover0_3 _ _ _ _)
  iexists _; isplitr
  swap; · iexact H4
  ipureintro
  try dsimp only
  exact View.read_writes_eq_canon _ _ _ (cover0_4 _)

/-! ## The pipeline's proof data -/

/-- The proof data on core `c`: the arrays as the region finds them; after the body at point `t` each input's buffer
    at its block and each output's at its canon over the two input blocks; the class's invariant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
    | ⟨3, _⟩ => out0_3 (iblk m c 0 t) (iblk m c 1 t)
    | ⟨4, _⟩ => out0_4 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]
theorem after0_3 (c : Dev nD) (t : Fin cfg0.N) : (dats m 0 c).after 3 t = out0_3 (iblk m c 0 t) (iblk m c 1 t) := by dsimp only [dats]
theorem after0_4 (c : Dev nD) (t : Fin cfg0.N) : (dats m 0 c).after 4 t = out0_4 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- Every weakly fair execution of @main terminates; every array of the pipeline ends at what the proof data compute
    and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- Both argument arrays are input windows' arrays, which no write-back touches: after the run each is as launched. -/
theorem kept_main_arg0 (c : Dev nD) : (dats m 0 c).arrAt 0 cfg0.N = m ((c.tc : Thread nD τ).loc main_arg0) :=
  ((dats m 0 c).arrAt_in 0 rfl _).trans ((A_eq m c 0).trans (V_main_arg0 m c))
theorem kept_main_arg1 (c : Dev nD) : (dats m 0 c).arrAt 1 cfg0.N = m ((c.tc : Thread nD τ).loc main_arg1) :=
  ((dats m 0 c).arrAt_in 1 rfl _).trans ((A_eq m c 1).trans (V_main_arg1 m c))

/-- THE FRAME: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (kept_main_arg0 m c), ((h c).1 1).trans (kept_main_arg1 m c)⟩) (run_main m ρ)

end Cert.KernelIdeal.Fr

end
-- ==== Proof.RefOps.lean ====
/-
  The reference's 183 host operations cut into four stretches, before each of the two concatenations and after the
  pull sum, and the fact that a fold over a concatenation of lists is the fold over the second from the fold over
  the first.
-/
import proofs.«402451_j17145509446225_3_alg».proof.Proof.RefRun
import proofs.«402451_j17145509446225_3_alg».proof.Proof.RefRead

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The first stretch: from the arguments to the lane means and the zero row. -/
abbrev ops1 : List (HloOp τ sig (Elt F)) :=
  [ reshape main_arg0 main_v0 rfl shapeCasts_S32x360x640_S32x230400,
    reshape main_arg1 main_v1 rfl shapeCasts_S32x4x360x640_S32x4x230400,
    unary main_v0 main_v2 (broadcastInDim S32x1x230400 ![0, 2] bcast_S32x230400_S32x1x230400_0_2 : (⟨S32x230400, .i32⟩ : BufTy).Contents (Elt F) → (⟨S32x1x230400, .i32⟩ : BufTy).Contents (Elt F)),
    nullary main_v3 (iotaInDim S5 32 0),
    nullary main_c (constantI S_ 32 1#32),
    unary main_c main_v4 (broadcastInDim S5 ![] bcast_S_S5 : (⟨S_, .i32⟩ : BufTy).Contents (Elt F) → (⟨S5, .i32⟩ : BufTy).Contents (Elt F)),
    binary main_v4 main_v3 main_v5 (addi : (⟨S5, .i32⟩ : BufTy).Contents (Elt F) → (⟨S5, .i32⟩ : BufTy).Contents (Elt F) → (⟨S5, .i32⟩ : BufTy).Contents (Elt F)),
    unary main_v5 main_v6 (broadcastInDim S1x5x1 ![1] bcast_S5_S1x5x1_1 : (⟨S5, .i32⟩ : BufTy).Contents (Elt F) → (⟨S1x5x1, .i32⟩ : BufTy).Contents (Elt F)),
    unary main_v2 main_v7 (broadcastInDim S32x5x230400 ![0, 1, 2] bcast_S32x1x230400_S32x5x230400_0_1_2 : (⟨S32x1x230400, .i32⟩ : BufTy).Contents (Elt F) → (⟨S32x5x230400, .i32⟩ : BufTy).Contents (Elt F)),
    unary main_v6 main_v8 (broadcastInDim S32x5x230400 ![0, 1, 2] bcast_S1x5x1_S32x5x230400_0_1_2 : (⟨S1x5x1, .i32⟩ : BufTy).Contents (Elt F) → (⟨S32x5x230400, .i32⟩ : BufTy).Contents (Elt F)),
    binary main_v7 main_v8 main_v9 (cmpi .eq : (⟨S32x5x230400, .i32⟩ : BufTy).Contents (Elt F) → (⟨S32x5x230400, .i32⟩ : BufTy).Contents (Elt F) → (⟨S32x5x230400, .i1⟩ : BufTy).Contents (Elt F)),
    unary main_v9 main_v10 ((extui 32 · natLt_1_32) : (⟨S32x5x230400, .i1⟩ : BufTy).Contents (Elt F) → (⟨S32x5x230400, .i32⟩ : BufTy).Contents (Elt F)),
    nullary main_c_0 (constantI S_ 32 0#32),
    binary main_v10 main_c_0 main_v11 ((fun x v => Host.reduce IntOp.addi x v reducesTo_S32x5x230400_S32x5_d2 h_S_) : (⟨S32x5x230400, .i32⟩ : BufTy).Contents (Elt F) → (⟨S_, .i32⟩ : BufTy).Contents (Elt F) → (⟨S32x5, .i32⟩ : BufTy).Contents (Elt F)),
    nullary main_c_1 (constantI S_ 32 1#32),
    unary main_c_1 main_v12 (broadcastInDim S32x5 ![] bcast_S_S32x5 : (⟨S_, .i32⟩ : BufTy).Contents (Elt F) → (⟨S32x5, .i32⟩ : BufTy).Contents (Elt F)),
    binary main_v11 main_v12 main_v13 (cmpi .sgt : (⟨S32x5, .i32⟩ : BufTy).Contents (Elt F) → (⟨S32x5, .i32⟩ : BufTy).Contents (Elt F) → (⟨S32x5, .i1⟩ : BufTy).Contents (Elt F)),
    unary main_v9 main_v14 (uitofp (F := F) .f32 : (⟨S32x5x230400, .i1⟩ : BufTy).Contents (Elt F) → (⟨S32x5x230400, .f32⟩ : BufTy).Contents (Elt F)),
    binary main_v14 main_v1 main_v15 ((fun l r => Host.dotGeneral dot_S32x5x230400_S32x4x230400_S32x5x4_2_2_1_1_0_0 none l r) : (⟨S32x5x230400, .f32⟩ : BufTy).Contents (Elt F) → (⟨S32x4x230400, .f32⟩ : BufTy).Contents (Elt F) → (⟨S32x5x4, .f32⟩ : BufTy).Contents (Elt F)),
    nullary main_c_2 (constantI S_ 32 1#32),
    unary main_c_2 main_v16 (broadcastInDim S32x5 ![] bcast_S_S32x5 : (⟨S_, .i32⟩ : BufTy).Contents (Elt F) → (⟨S32x5, .i32⟩ : BufTy).Contents (Elt F)),
    binary main_v11 main_v16 main_v17 (maxsi : (⟨S32x5, .i32⟩ : BufTy).Contents (Elt F) → (⟨S32x5, .i32⟩ : BufTy).Contents (Elt F) → (⟨S32x5, .i32⟩ : BufTy).Contents (Elt F)),
    unary main_v17 main_v18 (broadcastInDim S32x5x1 ![0, 1] bcast_S32x5_S32x5x1_0_1 : (⟨S32x5, .i32⟩ : BufTy).Contents (Elt F) → (⟨S32x5x1, .i32⟩ : BufTy).Contents (Elt F)),
    unary main_v18 main_v19 (sitofp (F := F) .f32 : (⟨S32x5x1, .i32⟩ : BufTy).Contents (Elt F) → (⟨S32x5x1, .f32⟩ : BufTy).Contents (Elt F)),
    unary main_v19 main_v20 (broadcastInDim S32x5x4 ![0, 1, 2] bcast_S32x5x1_S32x5x4_0_1_2 : (⟨S32x5x1, .f32⟩ : BufTy).Contents (Elt F) → (⟨S32x5x4, .f32⟩ : BufTy).Contents (Elt F)),
    binary main_v15 main_v20 main_v21 (Host.divf : (⟨S32x5x4, .f32⟩ : BufTy).Contents (Elt F) → (⟨S32x5x4, .f32⟩ : BufTy).Contents (Elt F) → (⟨S32x5x4, .f32⟩ : BufTy).Contents (Elt F)),
    nullary main_cst (constant S_ .f32 0x00000000#32),
    unary main_cst main_v22 (broadcastInDim S32x1x4 ![] bcast_S_S32x1x4 : (⟨S_, .f32⟩ : BufTy).Contents (Elt F) → (⟨S32x1x4, .f32⟩ : BufTy).Contents (Elt F)) ]

/-- The second stretch: the extended means table, each pixel's lane mean and distance, the false bit. (The operations of the inlined index-taking function are spelt with the plain builders, their types ascribed: the same operations.) -/
abbrev ops2 : List (HloOp τ sig (Elt F)) :=
  [ binary main_v22 main_v21 main_v23 ((fun a b => concatenate S32x6x4 1 [⟨S32x1x4, a⟩, ⟨S32x5x4, b⟩] concatenates_S32x1x4_S32x5x4_S32x6x4_d1) : (⟨S32x1x4, .f32⟩ : BufTy).Contents (Elt F) → (⟨S32x5x4, .f32⟩ : BufTy).Contents (Elt F) → (⟨S32x6x4, .f32⟩ : BufTy).Contents (Elt F)),
    unary main_v0 main_v24 (broadcastInDim S32x230400x1 ![0, 1] bcast_S32x230400_S32x230400x1_0_1 : (⟨S32x230400, .i32⟩ : BufTy).Contents (Elt F) → (⟨S32x230400x1, .i32⟩ : BufTy).Contents (Elt F)),
    nullary main_call0_c ((constantI S_ 32 0#32) : (⟨S_, .i32⟩ : BufTy).Contents (Elt F)),
    unary main_call0_c main_call0_v0 ((broadcastInDim S32x230400x1 ![] bcast_S_S32x230400x1) : (⟨S_, .i32⟩ : BufTy).Contents (Elt F) → (⟨S32x230400x1, .i32⟩ : BufTy).Contents (Elt F)),
    binary main_v24 main_call0_v0 main_call0_v1 ((cmpi .slt) : (⟨S32x230400x1, .i32⟩ : BufTy).Contents (Elt F) → (⟨S32x230400x1, .i32⟩ : BufTy).Contents (Elt F) → (⟨S32x230400x1, .i1⟩ : BufTy).Contents (Elt F)),
    nullary main_call0_c_0 ((constantI S_ 32 6#32) : (⟨S_, .i32⟩ : BufTy).Contents (Elt F)),
    unary main_call0_c_0 main_call0_v2 ((broadcastInDim S32x230400x1 ![] bcast_S_S32x230400x1) : (⟨S_, .i32⟩ : BufTy).Contents (Elt F) → (⟨S32x230400x1, .i32⟩ : BufTy).Contents (Elt F)),
    binary main_v24 main_call0_v2 main_call0_v3 (addi : (⟨S32x230400x1, .i32⟩ : BufTy).Contents (Elt F) → (⟨S32x230400x1, .i32⟩ : BufTy).Contents (Elt F) → (⟨S32x230400x1, .i32⟩ : BufTy).Contents (Elt F)),
    ternary main_call0_v1 main_call0_v3 main_v24 main_call0_v4 (select : (⟨S32x230400x1, .i1⟩ : BufTy).Contents (Elt F) → (⟨S32x230400x1, .i32⟩ : BufTy).Contents (Elt F) → (⟨S32x230400x1, .i32⟩ : BufTy).Contents (Elt F) → (⟨S32x230400x1, .i32⟩ : BufTy).Contents (Elt F)),
    nullary main_call0_c_1 ((constantI S1 32 5#32) : (⟨S1, .i32⟩ : BufTy).Contents (Elt F)),
    nullary main_call0_c_2 ((constantI S_ 32 0#32) : (⟨S_, .i32⟩ : BufTy).Contents (Elt F)),
    unary main_call0_c_2 main_call0_v5 ((broadcastInDim S32x230400x1 ![] bcast_S_S32x230400x1) : (⟨S_, .i32⟩ : BufTy).Contents (Elt F) → (⟨S32x230400x1, .i32⟩ : BufTy).Contents (Elt F)),
    binary main_call0_v4 main_call0_v5 main_call0_v6 ((cmpi .sge) : (⟨S32x230400x1, .i32⟩ : BufTy).Contents (Elt F) → (⟨S32x230400x1, .i32⟩ : BufTy).Contents (Elt F) → (⟨S32x230400x1, .i1⟩ : BufTy).Contents (Elt F)),
    unary main_call0_c_1 main_call0_v7 ((broadcastInDim S1x1x1 ![2] bcast_S1_S1x1x1_2) : (⟨S1, .i32⟩ : BufTy).Contents (Elt F) → (⟨S1x1x1, .i32⟩ : BufTy).Contents (Elt F)),
    unary main_call0_v7 main_call0_v8 ((broadcastInDim S32x230400x1 ![0, 1, 2] bcast_S1x1x1_S32x230400x1_0_1_2) : (⟨S1x1x1, .i32⟩ : BufTy).Contents (Elt F) → (⟨S32x230400x1, .i32⟩ : BufTy).Contents (Elt F)),
    binary main_call0_v4 main_call0_v8 main_call0_v9 ((cmpi .sle) : (⟨S32x230400x1, .i32⟩ : BufTy).Contents (Elt F) → (⟨S32x230400x1, .i32⟩ : BufTy).Contents (Elt F) → (⟨S32x230400x1, .i1⟩ : BufTy).Contents (Elt F)),
    binary main_call0_v6 main_call0_v9 main_call0_v10 (andi : (⟨S32x230400x1, .i1⟩ : BufTy).Contents (Elt F) → (⟨S32x230400x1, .i1⟩ : BufTy).Contents (Elt F) → (⟨S32x230400x1, .i1⟩ : BufTy).Contents (Elt F)),
    nullary main_call0_c_3 ((constantI S_ 1 1#1) : (⟨S_, .i1⟩ : BufTy).Contents (Elt F)),
    binary main_call0_v10 main_call0_c_3 main_call0_v11 ((fun x v => Host.reduce IntOp.andi x v reducesTo_S32x230400x1_S32x230400_d2 h_S_) : (⟨S32x230400x1, .i1⟩ : BufTy).Contents (Elt F) → (⟨S_, .i1⟩ : BufTy).Contents (Elt F) → (⟨S32x230400, .i1⟩ : BufTy).Contents (Elt F)),
    binary main_v23 main_call0_v4 main_call0_v12 ((fun x i => Host.gather gather_S32x6x4_S32x230400x1_S32x230400x4_2_1_0_0_1_2_114 x i) : (⟨S32x6x4, .f32⟩ : BufTy).Contents (Elt F) → (⟨S32x230400x1, .i32⟩ : BufTy).Contents (Elt F) → (⟨S32x230400x4, .f32⟩ : BufTy).Contents (Elt F)),
    unary main_call0_v11 main_call0_v13 ((broadcastInDim S32x230400x4 ![0, 1] bcast_S32x230400_S32x230400x4_0_1) : (⟨S32x230400, .i1⟩ : BufTy).Contents (Elt F) → (⟨S32x230400x4, .i1⟩ : BufTy).Contents (Elt F)),
    nullary main_call0_cst ((constant S_ .f32 0x7FC00000#32) : (⟨S_, .f32⟩ : BufTy).Contents (Elt F)),
    unary main_call0_cst main_call0_v14 ((broadcastInDim S32x230400x4 ![] bcast_S_S32x230400x4) : (⟨S_, .f32⟩ : BufTy).Contents (Elt F) → (⟨S32x230400x4, .f32⟩ : BufTy).Contents (Elt F)),
    ternary main_call0_v13 main_call0_v12 main_call0_v14 main_v25 (select : (⟨S32x230400x4, .i1⟩ : BufTy).Contents (Elt F) → (⟨S32x230400x4, .f32⟩ : BufTy).Contents (Elt F) → (⟨S32x230400x4, .f32⟩ : BufTy).Contents (Elt F) → (⟨S32x230400x4, .f32⟩ : BufTy).Contents (Elt F)),
    unary main_v1 main_v26 ((transpose S32x230400x4 [0, 2, 1] · transposes_S32x4x230400_S32x230400x4_0_2_1) : (⟨S32x4x230400, .f32⟩ : BufTy).Contents (Elt F) → (⟨S32x230400x4, .f32⟩ : BufTy).Contents (Elt F)),
    binary main_v26 main_v25 main_v27 (subf : (⟨S32x230400x4, .f32⟩ : BufTy).Contents (Elt F) → (⟨S32x230400x4, .f32⟩ : BufTy).Contents (Elt F) → (⟨S32x230400x4, .f32⟩ : BufTy).Contents (Elt F)),
    binary main_v27 main_v27 main_v28 (mulf : (⟨S32x230400x4, .f32⟩ : BufTy).Contents (Elt F) → (⟨S32x230400x4, .f32⟩ : BufTy).Contents (Elt F) → (⟨S32x230400x4, .f32⟩ : BufTy).Contents (Elt F)),
    nullary main_cst_3 (constant S_ .f32 0x00000000#32),
    binary main_v28 main_cst_3 main_v29 ((fun x v => Host.reduceAdd x v reducesTo_S32x230400x4_S32x230400_d2 h_S_) : (⟨S32x230400x4, .f32⟩ : BufTy).Contents (Elt F) → (⟨S_, .f32⟩ : BufTy).Contents (Elt F) → (⟨S32x230400, .f32⟩ : BufTy).Contents (Elt F)),
    nullary main_cst_4 (constant S_ .f32 0x2B8CBCCC#32),
    unary main_cst_4 main_v30 (broadcastInDim S32x230400 ![] bcast_S_S32x230400 : (⟨S_, .f32⟩ : BufTy).Contents (Elt F) → (⟨S32x230400, .f32⟩ : BufTy).Contents (Elt F)),
    binary main_v29 main_v30 main_v31 (maximumf : (⟨S32x230400, .f32⟩ : BufTy).Contents (Elt F) → (⟨S32x230400, .f32⟩ : BufTy).Contents (Elt F) → (⟨S32x230400, .f32⟩ : BufTy).Contents (Elt F)),
    unary main_v31 main_v32 (Host.sqrt : (⟨S32x230400, .f32⟩ : BufTy).Contents (Elt F) → (⟨S32x230400, .f32⟩ : BufTy).Contents (Elt F)),
    nullary main_c_5 (constantI S_ 1 0#1),
    unary main_c_5 main_v33 (broadcastInDim S32x1 ![] bcast_S_S32x1 : (⟨S_, .i1⟩ : BufTy).Contents (Elt F) → (⟨S32x1, .i1⟩ : BufTy).Contents (Elt F)) ]

/-- The third stretch: the extended validity bits, each pixel's bit, the pull sum. (Inlined operations spelt with the plain builders, as in the second stretch.) -/
abbrev ops3 : List (HloOp τ sig (Elt F)) :=
  [ binary main_v33 main_v13 main_v34 ((fun a b => concatenate S32x6 1 [⟨S32x1, a⟩, ⟨S32x5, b⟩] concatenates_S32x1_S32x5_S32x6_d1) : (⟨S32x1, .i1⟩ : BufTy).Contents (Elt F) → (⟨S32x5, .i1⟩ : BufTy).Contents (Elt F) → (⟨S32x6, .i1⟩ : BufTy).Contents (Elt F)),
    nullary main_call1_c ((constantI S_ 32 0#32) : (⟨S_, .i32⟩ : BufTy).Contents (Elt F)),
    unary main_call1_c main_call1_v0 ((broadcastInDim S32x230400 ![] bcast_S_S32x230400) : (⟨S_, .i32⟩ : BufTy).Contents (Elt F) → (⟨S32x230400, .i32⟩ : BufTy).Contents (Elt F)),
    binary main_v0 main_call1_v0 main_call1_v1 ((cmpi .slt) : (⟨S32x230400, .i32⟩ : BufTy).Contents (Elt F) → (⟨S32x230400, .i32⟩ : BufTy).Contents (Elt F) → (⟨S32x230400, .i1⟩ : BufTy).Contents (Elt F)),
    nullary main_call1_c_0 ((constantI S_ 32 6#32) : (⟨S_, .i32⟩ : BufTy).Contents (Elt F)),
    unary main_call1_c_0 main_call1_v2 ((broadcastInDim S32x230400 ![] bcast_S_S32x230400) : (⟨S_, .i32⟩ : BufTy).Contents (Elt F) → (⟨S32x230400, .i32⟩ : BufTy).Contents (Elt F)),
    binary main_v0 main_call1_v2 main_call1_v3 (addi : (⟨S32x230400, .i32⟩ : BufTy).Contents (Elt F) → (⟨S32x230400, .i32⟩ : BufTy).Contents (Elt F) → (⟨S32x230400, .i32⟩ : BufTy).Contents (Elt F)),
    ternary main_call1_v1 main_call1_v3 main_v0 main_call1_v4 (select : (⟨S32x230400, .i1⟩ : BufTy).Contents (Elt F) → (⟨S32x230400, .i32⟩ : BufTy).Contents (Elt F) → (⟨S32x230400, .i32⟩ : BufTy).Contents (Elt F) → (⟨S32x230400, .i32⟩ : BufTy).Contents (Elt F)),
    reshape main_call1_v4 main_call1_v5 rfl shapeCasts_S32x230400_S32x230400x1,
    nullary main_call1_c_1 ((constantI S1 32 5#32) : (⟨S1, .i32⟩ : BufTy).Contents (Elt F)),
    nullary main_call1_c_2 ((constantI S_ 32 0#32) : (⟨S_, .i32⟩ : BufTy).Contents (Elt F)),
    unary main_call1_c_2 main_call1_v6 ((broadcastInDim S32x230400x1 ![] bcast_S_S32x230400x1) : (⟨S_, .i32⟩ : BufTy).Contents (Elt F) → (⟨S32x230400x1, .i32⟩ : BufTy).Contents (Elt F)),
    binary main_call1_v5 main_call1_v6 main_call1_v7 ((cmpi .sge) : (⟨S32x230400x1, .i32⟩ : BufTy).Contents (Elt F) → (⟨S32x230400x1, .i32⟩ : BufTy).Contents (Elt F) → (⟨S32x230400x1, .i1⟩ : BufTy).Contents (Elt F)),
    unary main_call1_c_1 main_call1_v8 ((broadcastInDim S1x1x1 ![2] bcast_S1_S1x1x1_2) : (⟨S1, .i32⟩ : BufTy).Contents (Elt F) → (⟨S1x1x1, .i32⟩ : BufTy).Contents (Elt F)),
    unary main_call1_v8 main_call1_v9 ((broadcastInDim S32x230400x1 ![0, 1, 2] bcast_S1x1x1_S32x230400x1_0_1_2) : (⟨S1x1x1, .i32⟩ : BufTy).Contents (Elt F) → (⟨S32x230400x1, .i32⟩ : BufTy).Contents (Elt F)),
    binary main_call1_v5 main_call1_v9 main_call1_v10 ((cmpi .sle) : (⟨S32x230400x1, .i32⟩ : BufTy).Contents (Elt F) → (⟨S32x230400x1, .i32⟩ : BufTy).Contents (Elt F) → (⟨S32x230400x1, .i1⟩ : BufTy).Contents (Elt F)),
    binary main_call1_v7 main_call1_v10 main_call1_v11 (andi : (⟨S32x230400x1, .i1⟩ : BufTy).Contents (Elt F) → (⟨S32x230400x1, .i1⟩ : BufTy).Contents (Elt F) → (⟨S32x230400x1, .i1⟩ : BufTy).Contents (Elt F)),
    nullary main_call1_c_3 ((constantI S_ 1 1#1) : (⟨S_, .i1⟩ : BufTy).Contents (Elt F)),
    binary main_call1_v11 main_call1_c_3 main_call1_v12 ((fun x v => Host.reduce IntOp.andi x v reducesTo_S32x230400x1_S32x230400_d2 h_S_) : (⟨S32x230400x1, .i1⟩ : BufTy).Contents (Elt F) → (⟨S_, .i1⟩ : BufTy).Contents (Elt F) → (⟨S32x230400, .i1⟩ : BufTy).Contents (Elt F)),
    binary main_v34 main_call1_v5 main_call1_v13 ((fun x i => Host.gather gather_S32x6_S32x230400x1_S32x230400_n_1_0_0_1_2_11 x i) : (⟨S32x6, .i1⟩ : BufTy).Contents (Elt F) → (⟨S32x230400x1, .i32⟩ : BufTy).Contents (Elt F) → (⟨S32x230400, .i1⟩ : BufTy).Contents (Elt F)),
    nullary main_call1_c_4 ((constantI S_ 1 1#1) : (⟨S_, .i1⟩ : BufTy).Contents (Elt F)),
    unary main_call1_c_4 main_call1_v14 ((broadcastInDim S32x230400 ![] bcast_S_S32x230400) : (⟨S_, .i1⟩ : BufTy).Contents (Elt F) → (⟨S32x230400, .i1⟩ : BufTy).Contents (Elt F)),
    ternary main_call1_v12 main_call1_v13 main_call1_v14 main_v35 (select : (⟨S32x230400, .i1⟩ : BufTy).Contents (Elt F) → (⟨S32x230400, .i1⟩ : BufTy).Contents (Elt F) → (⟨S32x230400, .i1⟩ : BufTy).Contents (Elt F) → (⟨S32x230400, .i1⟩ : BufTy).Contents (Elt F)),
    nullary main_cst_6 (constant S_ .f32 0x3F800000#32),
    unary main_cst_6 main_v36 (broadcastInDim S32x230400 ![] bcast_S_S32x230400 : (⟨S_, .f32⟩ : BufTy).Contents (Elt F) → (⟨S32x230400, .f32⟩ : BufTy).Contents (Elt F)),
    binary main_v32 main_v36 main_v37 (subf : (⟨S32x230400, .f32⟩ : BufTy).Contents (Elt F) → (⟨S32x230400, .f32⟩ : BufTy).Contents (Elt F) → (⟨S32x230400, .f32⟩ : BufTy).Contents (Elt F)),
    nullary main_call2_cst ((constant S_ .f32 0x00000000#32) : (⟨S_, .f32⟩ : BufTy).Contents (Elt F)),
    unary main_call2_cst main_call2_v0 ((broadcastInDim S32x230400 ![] bcast_S_S32x230400) : (⟨S_, .f32⟩ : BufTy).Contents (Elt F) → (⟨S32x230400, .f32⟩ : BufTy).Contents (Elt F)),
    binary main_v37 main_call2_v0 main_v38 (maximumf : (⟨S32x230400, .f32⟩ : BufTy).Contents (Elt F) → (⟨S32x230400, .f32⟩ : BufTy).Contents (Elt F) → (⟨S32x230400, .f32⟩ : BufTy).Contents (Elt F)),
    binary main_v38 main_v38 main_v39 (mulf : (⟨S32x230400, .f32⟩ : BufTy).Contents (Elt F) → (⟨S32x230400, .f32⟩ : BufTy).Contents (Elt F) → (⟨S32x230400, .f32⟩ : BufTy).Contents (Elt F)),
    nullary main_cst_7 (constant S_ .f32 0x00000000#32),
    unary main_cst_7 main_call3_v0 (id : (⟨S_, .f32⟩ : BufTy).Contents (Elt F) → (⟨S_, .f32⟩ : BufTy).Contents (Elt F)),
    unary main_call3_v0 main_call3_v1 ((broadcastInDim S32x230400 ![] bcast_S_S32x230400) : (⟨S_, .f32⟩ : BufTy).Contents (Elt F) → (⟨S32x230400, .f32⟩ : BufTy).Contents (Elt F)),
    ternary main_v35 main_v39 main_call3_v1 main_v40 (select : (⟨S32x230400, .i1⟩ : BufTy).Contents (Elt F) → (⟨S32x230400, .f32⟩ : BufTy).Contents (Elt F) → (⟨S32x230400, .f32⟩ : BufTy).Contents (Elt F) → (⟨S32x230400, .f32⟩ : BufTy).Contents (Elt F)),
    nullary main_cst_8 (constant S_ .f32 0x00000000#32),
    binary main_v40 main_cst_8 main_v41 ((fun x v => Host.reduceAdd x v reducesTo_S32x230400_S_d0_1 h_S_) : (⟨S32x230400, .f32⟩ : BufTy).Contents (Elt F) → (⟨S_, .f32⟩ : BufTy).Contents (Elt F) → (⟨S_, .f32⟩ : BufTy).Contents (Elt F)) ]

/-- The fourth stretch: from there to the result. -/
abbrev ops4 : List (HloOp τ sig (Elt F)) :=
  [ nullary main_c_9 (constantI S_ 32 0#32),
    TRef.unary (TRef.of (T := ⟨S_, .i32⟩) main_c_9) (TRef.of (T := ⟨S_, .i32⟩) main_call4_v0) id,
    TRef.unary (TRef.of (T := ⟨S_, .i32⟩) main_call4_v0) (TRef.of (T := ⟨S32x5, .i32⟩) main_call4_v1) (broadcastInDim S32x5 ![] bcast_S_S32x5),
    TRef.ternary (TRef.of (T := ⟨S32x5, .i1⟩) main_v13) (TRef.of (T := ⟨S32x5, .i32⟩) main_v11) (TRef.of (T := ⟨S32x5, .i32⟩) main_call4_v1) (TRef.of (T := ⟨S32x5, .i32⟩) main_v42) select,
    nullary main_c_10 (constantI S_ 32 0#32),
    binary main_v42 main_c_10 main_v43 ((fun x v => Host.reduce IntOp.addi x v reducesTo_S32x5_S_d0_1 h_S_) : (⟨S32x5, .i32⟩ : BufTy).Contents (Elt F) → (⟨S_, .i32⟩ : BufTy).Contents (Elt F) → (⟨S_, .i32⟩ : BufTy).Contents (Elt F)),
    unary main_v43 main_v44 (sitofp (F := F) .f32 : (⟨S_, .i32⟩ : BufTy).Contents (Elt F) → (⟨S_, .f32⟩ : BufTy).Contents (Elt F)),
    nullary main_cst_11 (constant S_ .f32 0x00000000#32),
    binary main_v44 main_cst_11 main_v45 (cmpf (F := F) .ogt : (⟨S_, .f32⟩ : BufTy).Contents (Elt F) → (⟨S_, .f32⟩ : BufTy).Contents (Elt F) → (⟨S_, .i1⟩ : BufTy).Contents (Elt F)),
    nullary main_cst_12 (constant S_ .f32 0x3F800000#32),
    binary main_v44 main_cst_12 main_v46 (maximumf : (⟨S_, .f32⟩ : BufTy).Contents (Elt F) → (⟨S_, .f32⟩ : BufTy).Contents (Elt F) → (⟨S_, .f32⟩ : BufTy).Contents (Elt F)),
    binary main_v41 main_v46 main_v47 (Host.divf : (⟨S_, .f32⟩ : BufTy).Contents (Elt F) → (⟨S_, .f32⟩ : BufTy).Contents (Elt F) → (⟨S_, .f32⟩ : BufTy).Contents (Elt F)),
    nullary main_cst_13 (constant S_ .f32 0x00000000#32),
    TRef.unary (TRef.of (T := ⟨S_, .f32⟩) main_cst_13) (TRef.of (T := ⟨S_, .f32⟩) main_call5_v0) id,
    TRef.ternary (TRef.of (T := ⟨S_, .i1⟩) main_v45) (TRef.of (T := ⟨S_, .f32⟩) main_v47) (TRef.of (T := ⟨S_, .f32⟩) main_call5_v0) (TRef.of (T := ⟨S_, .f32⟩) main_v48) select,
    unary main_v21 main_v49 (broadcastInDim S32x5x1x4 ![0, 1, 3] bcast_S32x5x4_S32x5x1x4_0_1_3 : (⟨S32x5x4, .f32⟩ : BufTy).Contents (Elt F) → (⟨S32x5x1x4, .f32⟩ : BufTy).Contents (Elt F)),
    unary main_v21 main_v50 (broadcastInDim S32x1x5x4 ![0, 2, 3] bcast_S32x5x4_S32x1x5x4_0_2_3 : (⟨S32x5x4, .f32⟩ : BufTy).Contents (Elt F) → (⟨S32x1x5x4, .f32⟩ : BufTy).Contents (Elt F)),
    unary main_v49 main_v51 (broadcastInDim S32x5x5x4 ![0, 1, 2, 3] bcast_S32x5x1x4_S32x5x5x4_0_1_2_3 : (⟨S32x5x1x4, .f32⟩ : BufTy).Contents (Elt F) → (⟨S32x5x5x4, .f32⟩ : BufTy).Contents (Elt F)),
    unary main_v50 main_v52 (broadcastInDim S32x5x5x4 ![0, 1, 2, 3] bcast_S32x1x5x4_S32x5x5x4_0_1_2_3 : (⟨S32x1x5x4, .f32⟩ : BufTy).Contents (Elt F) → (⟨S32x5x5x4, .f32⟩ : BufTy).Contents (Elt F)),
    binary main_v51 main_v52 main_v53 (subf : (⟨S32x5x5x4, .f32⟩ : BufTy).Contents (Elt F) → (⟨S32x5x5x4, .f32⟩ : BufTy).Contents (Elt F) → (⟨S32x5x5x4, .f32⟩ : BufTy).Contents (Elt F)),
    binary main_v53 main_v53 main_v54 (mulf : (⟨S32x5x5x4, .f32⟩ : BufTy).Contents (Elt F) → (⟨S32x5x5x4, .f32⟩ : BufTy).Contents (Elt F) → (⟨S32x5x5x4, .f32⟩ : BufTy).Contents (Elt F)),
    nullary main_cst_14 (constant S_ .f32 0x00000000#32),
    binary main_v54 main_cst_14 main_v55 ((fun x v => Host.reduceAdd x v reducesTo_S32x5x5x4_S32x5x5_d3 h_S_) : (⟨S32x5x5x4, .f32⟩ : BufTy).Contents (Elt F) → (⟨S_, .f32⟩ : BufTy).Contents (Elt F) → (⟨S32x5x5, .f32⟩ : BufTy).Contents (Elt F)),
    nullary main_cst_15 (constant S_ .f32 0x2B8CBCCC#32),
    unary main_cst_15 main_v56 (broadcastInDim S32x5x5 ![] bcast_S_S32x5x5 : (⟨S_, .f32⟩ : BufTy).Contents (Elt F) → (⟨S32x5x5, .f32⟩ : BufTy).Contents (Elt F)),
    binary main_v55 main_v56 main_v57 (maximumf : (⟨S32x5x5, .f32⟩ : BufTy).Contents (Elt F) → (⟨S32x5x5, .f32⟩ : BufTy).Contents (Elt F) → (⟨S32x5x5, .f32⟩ : BufTy).Contents (Elt F)),
    unary main_v57 main_v58 (Host.sqrt : (⟨S32x5x5, .f32⟩ : BufTy).Contents (Elt F) → (⟨S32x5x5, .f32⟩ : BufTy).Contents (Elt F)),
    nullary main_v59 (iotaInDim S5 32 0),
    unary main_v13 main_v60 (broadcastInDim S32x5x1 ![0, 1] bcast_S32x5_S32x5x1_0_1 : (⟨S32x5, .i1⟩ : BufTy).Contents (Elt F) → (⟨S32x5x1, .i1⟩ : BufTy).Contents (Elt F)),
    unary main_v13 main_v61 (broadcastInDim S32x1x5 ![0, 2] bcast_S32x5_S32x1x5_0_2 : (⟨S32x5, .i1⟩ : BufTy).Contents (Elt F) → (⟨S32x1x5, .i1⟩ : BufTy).Contents (Elt F)),
    unary main_v60 main_v62 (broadcastInDim S32x5x5 ![0, 1, 2] bcast_S32x5x1_S32x5x5_0_1_2 : (⟨S32x5x1, .i1⟩ : BufTy).Contents (Elt F) → (⟨S32x5x5, .i1⟩ : BufTy).Contents (Elt F)),
    unary main_v61 main_v63 (broadcastInDim S32x5x5 ![0, 1, 2] bcast_S32x1x5_S32x5x5_0_1_2 : (⟨S32x1x5, .i1⟩ : BufTy).Contents (Elt F) → (⟨S32x5x5, .i1⟩ : BufTy).Contents (Elt F)),
    binary main_v62 main_v63 main_v64 (andi : (⟨S32x5x5, .i1⟩ : BufTy).Contents (Elt F) → (⟨S32x5x5, .i1⟩ : BufTy).Contents (Elt F) → (⟨S32x5x5, .i1⟩ : BufTy).Contents (Elt F)),
    unary main_v59 main_v65 (broadcastInDim S5x1 ![0] bcast_S5_S5x1_0 : (⟨S5, .i32⟩ : BufTy).Contents (Elt F) → (⟨S5x1, .i32⟩ : BufTy).Contents (Elt F)),
    unary main_v59 main_v66 (broadcastInDim S1x5 ![1] bcast_S5_S1x5_1 : (⟨S5, .i32⟩ : BufTy).Contents (Elt F) → (⟨S1x5, .i32⟩ : BufTy).Contents (Elt F)),
    unary main_v65 main_v67 (broadcastInDim S5x5 ![0, 1] bcast_S5x1_S5x5_0_1 : (⟨S5x1, .i32⟩ : BufTy).Contents (Elt F) → (⟨S5x5, .i32⟩ : BufTy).Contents (Elt F)),
    unary main_v66 main_v68 (broadcastInDim S5x5 ![0, 1] bcast_S1x5_S5x5_0_1 : (⟨S1x5, .i32⟩ : BufTy).Contents (Elt F) → (⟨S5x5, .i32⟩ : BufTy).Contents (Elt F)),
    binary main_v67 main_v68 main_v69 (cmpi .slt : (⟨S5x5, .i32⟩ : BufTy).Contents (Elt F) → (⟨S5x5, .i32⟩ : BufTy).Contents (Elt F) → (⟨S5x5, .i1⟩ : BufTy).Contents (Elt F)),
    unary main_v69 main_v70 (broadcastInDim S1x5x5 ![1, 2] bcast_S5x5_S1x5x5_1_2 : (⟨S5x5, .i1⟩ : BufTy).Contents (Elt F) → (⟨S1x5x5, .i1⟩ : BufTy).Contents (Elt F)),
    unary main_v70 main_v71 (broadcastInDim S32x5x5 ![0, 1, 2] bcast_S1x5x5_S32x5x5_0_1_2 : (⟨S1x5x5, .i1⟩ : BufTy).Contents (Elt F) → (⟨S32x5x5, .i1⟩ : BufTy).Contents (Elt F)),
    binary main_v64 main_v71 main_v72 (andi : (⟨S32x5x5, .i1⟩ : BufTy).Contents (Elt F) → (⟨S32x5x5, .i1⟩ : BufTy).Contents (Elt F) → (⟨S32x5x5, .i1⟩ : BufTy).Contents (Elt F)),
    nullary main_cst_16 (constant S_ .f32 0x40C00000#32),
    unary main_cst_16 main_v73 (broadcastInDim S32x5x5 ![] bcast_S_S32x5x5 : (⟨S_, .f32⟩ : BufTy).Contents (Elt F) → (⟨S32x5x5, .f32⟩ : BufTy).Contents (Elt F)),
    binary main_v73 main_v58 main_v74 (subf : (⟨S32x5x5, .f32⟩ : BufTy).Contents (Elt F) → (⟨S32x5x5, .f32⟩ : BufTy).Contents (Elt F) → (⟨S32x5x5, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S32x5x5, .f32⟩) main_call6_v0) (broadcastInDim S32x5x5 ![] bcast_S_S32x5x5),
    TRef.binary (TRef.of (T := ⟨S32x5x5, .f32⟩) main_v74) (TRef.of (T := ⟨S32x5x5, .f32⟩) main_call6_v0) (TRef.of (T := ⟨S32x5x5, .f32⟩) main_v75) maximumf,
    binary main_v75 main_v75 main_v76 (mulf : (⟨S32x5x5, .f32⟩ : BufTy).Contents (Elt F) → (⟨S32x5x5, .f32⟩ : BufTy).Contents (Elt F) → (⟨S32x5x5, .f32⟩ : BufTy).Contents (Elt F)),
    nullary main_cst_17 (constant S_ .f32 0x00000000#32),
    TRef.unary (TRef.of (T := ⟨S_, .f32⟩) main_cst_17) (TRef.of (T := ⟨S_, .f32⟩) main_call7_v0) id,
    TRef.unary (TRef.of (T := ⟨S_, .f32⟩) main_call7_v0) (TRef.of (T := ⟨S32x5x5, .f32⟩) main_call7_v1) (broadcastInDim S32x5x5 ![] bcast_S_S32x5x5),
    TRef.ternary (TRef.of (T := ⟨S32x5x5, .i1⟩) main_v72) (TRef.of (T := ⟨S32x5x5, .f32⟩) main_v76) (TRef.of (T := ⟨S32x5x5, .f32⟩) main_call7_v1) (TRef.of (T := ⟨S32x5x5, .f32⟩) main_v77) select,
    nullary main_cst_18 (constant S_ .f32 0x00000000#32),
    binary main_v77 main_cst_18 main_v78 ((fun x v => Host.reduceAdd x v reducesTo_S32x5x5_S32_d1_2 h_S_) : (⟨S32x5x5, .f32⟩ : BufTy).Contents (Elt F) → (⟨S_, .f32⟩ : BufTy).Contents (Elt F) → (⟨S32, .f32⟩ : BufTy).Contents (Elt F)),
    unary main_v72 main_v79 ((extui 32 · natLt_1_32) : (⟨S32x5x5, .i1⟩ : BufTy).Contents (Elt F) → (⟨S32x5x5, .i32⟩ : BufTy).Contents (Elt F)),
    nullary main_c_19 (constantI S_ 32 0#32),
    binary main_v79 main_c_19 main_v80 ((fun x v => Host.reduce IntOp.addi x v reducesTo_S32x5x5_S32_d1_2 h_S_) : (⟨S32x5x5, .i32⟩ : BufTy).Contents (Elt F) → (⟨S_, .i32⟩ : BufTy).Contents (Elt F) → (⟨S32, .i32⟩ : BufTy).Contents (Elt F)),
    unary main_v80 main_v81 (sitofp (F := F) .f32 : (⟨S32, .i32⟩ : BufTy).Contents (Elt F) → (⟨S32, .f32⟩ : BufTy).Contents (Elt F)),
    nullary main_cst_20 (constant S_ .f32 0x00000000#32),
    unary main_cst_20 main_v82 (broadcastInDim S32 ![] bcast_S_S32 : (⟨S_, .f32⟩ : BufTy).Contents (Elt F) → (⟨S32, .f32⟩ : BufTy).Contents (Elt F)),
    binary main_v81 main_v82 main_v83 (cmpf (F := F) .ogt : (⟨S32, .f32⟩ : BufTy).Contents (Elt F) → (⟨S32, .f32⟩ : BufTy).Contents (Elt F) → (⟨S32, .i1⟩ : BufTy).Contents (Elt F)),
    nullary main_cst_21 (constant S_ .f32 0x3F800000#32),
    unary main_cst_21 main_v84 (broadcastInDim S32 ![] bcast_S_S32 : (⟨S_, .f32⟩ : BufTy).Contents (Elt F) → (⟨S32, .f32⟩ : BufTy).Contents (Elt F)),
    binary main_v81 main_v84 main_v85 (maximumf : (⟨S32, .f32⟩ : BufTy).Contents (Elt F) → (⟨S32, .f32⟩ : BufTy).Contents (Elt F) → (⟨S32, .f32⟩ : BufTy).Contents (Elt F)),
    binary main_v78 main_v85 main_v86 (Host.divf : (⟨S32, .f32⟩ : BufTy).Contents (Elt F) → (⟨S32, .f32⟩ : BufTy).Contents (Elt F) → (⟨S32, .f32⟩ : BufTy).Contents (Elt F)),
    nullary main_cst_22 (constant S_ .f32 0x00000000#32),
    TRef.unary (TRef.of (T := ⟨S_, .f32⟩) main_cst_22) (TRef.of (T := ⟨S_, .f32⟩) main_call8_v0) id,
    TRef.unary (TRef.of (T := ⟨S_, .f32⟩) main_call8_v0) (TRef.of (T := ⟨S32, .f32⟩) main_call8_v1) (broadcastInDim S32 ![] bcast_S_S32),
    TRef.ternary (TRef.of (T := ⟨S32, .i1⟩) main_v83) (TRef.of (T := ⟨S32, .f32⟩) main_v86) (TRef.of (T := ⟨S32, .f32⟩) main_call8_v1) (TRef.of (T := ⟨S32, .f32⟩) main_v87) select,
    unary main_v83 main_v88 ((extui 32 · natLt_1_32) : (⟨S32, .i1⟩ : BufTy).Contents (Elt F) → (⟨S32, .i32⟩ : BufTy).Contents (Elt F)),
    nullary main_c_23 (constantI S_ 32 0#32),
    binary main_v88 main_c_23 main_v89 ((fun x v => Host.reduce IntOp.addi x v reducesTo_S32_S_d0 h_S_) : (⟨S32, .i32⟩ : BufTy).Contents (Elt F) → (⟨S_, .i32⟩ : BufTy).Contents (Elt F) → (⟨S_, .i32⟩ : BufTy).Contents (Elt F)),
    unary main_v89 main_v90 (sitofp (F := F) .f32 : (⟨S_, .i32⟩ : BufTy).Contents (Elt F) → (⟨S_, .f32⟩ : BufTy).Contents (Elt F)),
    nullary main_cst_24 (constant S_ .f32 0x00000000#32),
    binary main_v90 main_cst_24 main_v91 (cmpf (F := F) .ogt : (⟨S_, .f32⟩ : BufTy).Contents (Elt F) → (⟨S_, .f32⟩ : BufTy).Contents (Elt F) → (⟨S_, .i1⟩ : BufTy).Contents (Elt F)),
    nullary main_cst_25 (constant S_ .f32 0x00000000#32),
    binary main_v87 main_cst_25 main_v92 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_26 (constant S_ .f32 0x3F800000#32),
    binary main_v90 main_cst_26 main_v93 (maximumf : (⟨S_, .f32⟩ : BufTy).Contents (Elt F) → (⟨S_, .f32⟩ : BufTy).Contents (Elt F) → (⟨S_, .f32⟩ : BufTy).Contents (Elt F)),
    binary main_v92 main_v93 main_v94 (Host.divf : (⟨S_, .f32⟩ : BufTy).Contents (Elt F) → (⟨S_, .f32⟩ : BufTy).Contents (Elt F) → (⟨S_, .f32⟩ : BufTy).Contents (Elt F)),
    nullary main_cst_27 (constant S_ .f32 0x00000000#32),
    TRef.unary (TRef.of (T := ⟨S_, .f32⟩) main_cst_27) (TRef.of (T := ⟨S_, .f32⟩) main_call9_v0) id,
    TRef.ternary (TRef.of (T := ⟨S_, .i1⟩) main_v91) (TRef.of (T := ⟨S_, .f32⟩) main_v94) (TRef.of (T := ⟨S_, .f32⟩) main_call9_v0) (TRef.of (T := ⟨S_, .f32⟩) main_v95) select,
    binary main_v48 main_v95 main_v96 (addf : (⟨S_, .f32⟩ : BufTy).Contents (Elt F) → (⟨S_, .f32⟩ : BufTy).Contents (Elt F) → (⟨S_, .f32⟩ : BufTy).Contents (Elt F)) ]

/-- The second stretch as the program spells it (the inlined function's operations over typed references). -/
abbrev ops2T : List (HloOp τ sig (Elt F)) :=
  [ binary main_v22 main_v21 main_v23 ((fun a b => concatenate S32x6x4 1 [⟨S32x1x4, a⟩, ⟨S32x5x4, b⟩] concatenates_S32x1x4_S32x5x4_S32x6x4_d1) : (⟨S32x1x4, .f32⟩ : BufTy).Contents (Elt F) → (⟨S32x5x4, .f32⟩ : BufTy).Contents (Elt F) → (⟨S32x6x4, .f32⟩ : BufTy).Contents (Elt F)),
    unary main_v0 main_v24 (broadcastInDim S32x230400x1 ![0, 1] bcast_S32x230400_S32x230400x1_0_1 : (⟨S32x230400, .i32⟩ : BufTy).Contents (Elt F) → (⟨S32x230400x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S32x230400x1, .i32⟩) main_call0_v0) (broadcastInDim S32x230400x1 ![] bcast_S_S32x230400x1),
    TRef.binary (TRef.of (T := ⟨S32x230400x1, .i32⟩) main_v24) (TRef.of (T := ⟨S32x230400x1, .i32⟩) main_call0_v0) (TRef.of (T := ⟨S32x230400x1, .i1⟩) main_call0_v1) (cmpi .slt),
    TRef.nullary (TRef.of (T := ⟨S_, .i32⟩) main_call0_c_0) (constantI S_ 32 6#32),
    TRef.unary (TRef.of (T := ⟨S_, .i32⟩) main_call0_c_0) (TRef.of (T := ⟨S32x230400x1, .i32⟩) main_call0_v2) (broadcastInDim S32x230400x1 ![] bcast_S_S32x230400x1),
    TRef.binary (TRef.of (T := ⟨S32x230400x1, .i32⟩) main_v24) (TRef.of (T := ⟨S32x230400x1, .i32⟩) main_call0_v2) (TRef.of (T := ⟨S32x230400x1, .i32⟩) main_call0_v3) addi,
    TRef.ternary (TRef.of (T := ⟨S32x230400x1, .i1⟩) main_call0_v1) (TRef.of (T := ⟨S32x230400x1, .i32⟩) main_call0_v3) (TRef.of (T := ⟨S32x230400x1, .i32⟩) main_v24) (TRef.of (T := ⟨S32x230400x1, .i32⟩) main_call0_v4) select,
    TRef.nullary (TRef.of (T := ⟨S1, .i32⟩) main_call0_c_1) (constantI S1 32 5#32),
    TRef.nullary (TRef.of (T := ⟨S_, .i32⟩) main_call0_c_2) (constantI S_ 32 0#32),
    TRef.unary (TRef.of (T := ⟨S_, .i32⟩) main_call0_c_2) (TRef.of (T := ⟨S32x230400x1, .i32⟩) main_call0_v5) (broadcastInDim S32x230400x1 ![] bcast_S_S32x230400x1),
    TRef.binary (TRef.of (T := ⟨S32x230400x1, .i32⟩) main_call0_v4) (TRef.of (T := ⟨S32x230400x1, .i32⟩) main_call0_v5) (TRef.of (T := ⟨S32x230400x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S32x230400x1, .i32⟩) main_call0_v8) (broadcastInDim S32x230400x1 ![0, 1, 2] bcast_S1x1x1_S32x230400x1_0_1_2),
    TRef.binary (TRef.of (T := ⟨S32x230400x1, .i32⟩) main_call0_v4) (TRef.of (T := ⟨S32x230400x1, .i32⟩) main_call0_v8) (TRef.of (T := ⟨S32x230400x1, .i1⟩) main_call0_v9) (cmpi .sle),
    TRef.binary (TRef.of (T := ⟨S32x230400x1, .i1⟩) main_call0_v6) (TRef.of (T := ⟨S32x230400x1, .i1⟩) main_call0_v9) (TRef.of (T := ⟨S32x230400x1, .i1⟩) main_call0_v10) andi,
    TRef.nullary (TRef.of (T := ⟨S_, .i1⟩) main_call0_c_3) (constantI S_ 1 1#1),
    TRef.binary (TRef.of (T := ⟨S32x230400x1, .i1⟩) main_call0_v10) (TRef.of (T := ⟨S_, .i1⟩) main_call0_c_3) (TRef.of (T := ⟨S32x230400, .i1⟩) main_call0_v11) (fun x v => Host.reduce IntOp.andi x v reducesTo_S32x230400x1_S32x230400_d2 h_S_),
    TRef.binary (TRef.of (T := ⟨S32x6x4, .f32⟩) main_v23) (TRef.of (T := ⟨S32x230400x1, .i32⟩) main_call0_v4) (TRef.of (T := ⟨S32x230400x4, .f32⟩) main_call0_v12) (fun x i => Host.gather gather_S32x6x4_S32x230400x1_S32x230400x4_2_1_0_0_1_2_114 x i),
    TRef.unary (TRef.of (T := ⟨S32x230400, .i1⟩) main_call0_v11) (TRef.of (T := ⟨S32x230400x4, .i1⟩) main_call0_v13) (broadcastInDim S32x230400x4 ![0, 1] bcast_S32x230400_S32x230400x4_0_1),
    TRef.nullary (TRef.of (T := ⟨S_, .f32⟩) main_call0_cst) (constant S_ .f32 0x7FC00000#32),
    TRef.unary (TRef.of (T := ⟨S_, .f32⟩) main_call0_cst) (TRef.of (T := ⟨S32x230400x4, .f32⟩) main_call0_v14) (broadcastInDim S32x230400x4 ![] bcast_S_S32x230400x4),
    TRef.ternary (TRef.of (T := ⟨S32x230400x4, .i1⟩) main_call0_v13) (TRef.of (T := ⟨S32x230400x4, .f32⟩) main_call0_v12) (TRef.of (T := ⟨S32x230400x4, .f32⟩) main_call0_v14) (TRef.of (T := ⟨S32x230400x4, .f32⟩) main_v25) select,
    unary main_v1 main_v26 ((transpose S32x230400x4 [0, 2, 1] · transposes_S32x4x230400_S32x230400x4_0_2_1) : (⟨S32x4x230400, .f32⟩ : BufTy).Contents (Elt F) → (⟨S32x230400x4, .f32⟩ : BufTy).Contents (Elt F)),
    binary main_v26 main_v25 main_v27 (subf : (⟨S32x230400x4, .f32⟩ : BufTy).Contents (Elt F) → (⟨S32x230400x4, .f32⟩ : BufTy).Contents (Elt F) → (⟨S32x230400x4, .f32⟩ : BufTy).Contents (Elt F)),
    binary main_v27 main_v27 main_v28 (mulf : (⟨S32x230400x4, .f32⟩ : BufTy).Contents (Elt F) → (⟨S32x230400x4, .f32⟩ : BufTy).Contents (Elt F) → (⟨S32x230400x4, .f32⟩ : BufTy).Contents (Elt F)),
    nullary main_cst_3 (constant S_ .f32 0x00000000#32),
    binary main_v28 main_cst_3 main_v29 ((fun x v => Host.reduceAdd x v reducesTo_S32x230400x4_S32x230400_d2 h_S_) : (⟨S32x230400x4, .f32⟩ : BufTy).Contents (Elt F) → (⟨S_, .f32⟩ : BufTy).Contents (Elt F) → (⟨S32x230400, .f32⟩ : BufTy).Contents (Elt F)),
    nullary main_cst_4 (constant S_ .f32 0x2B8CBCCC#32),
    unary main_cst_4 main_v30 (broadcastInDim S32x230400 ![] bcast_S_S32x230400 : (⟨S_, .f32⟩ : BufTy).Contents (Elt F) → (⟨S32x230400, .f32⟩ : BufTy).Contents (Elt F)),
    binary main_v29 main_v30 main_v31 (maximumf : (⟨S32x230400, .f32⟩ : BufTy).Contents (Elt F) → (⟨S32x230400, .f32⟩ : BufTy).Contents (Elt F) → (⟨S32x230400, .f32⟩ : BufTy).Contents (Elt F)),
    unary main_v31 main_v32 (Host.sqrt : (⟨S32x230400, .f32⟩ : BufTy).Contents (Elt F) → (⟨S32x230400, .f32⟩ : BufTy).Contents (Elt F)),
    nullary main_c_5 (constantI S_ 1 0#1),
    unary main_c_5 main_v33 (broadcastInDim S32x1 ![] bcast_S_S32x1 : (⟨S_, .i1⟩ : BufTy).Contents (Elt F) → (⟨S32x1, .i1⟩ : BufTy).Contents (Elt F)) ]

/-- The third stretch as the program spells it. -/
abbrev ops3T : List (HloOp τ sig (Elt F)) :=
  [ binary main_v33 main_v13 main_v34 ((fun a b => concatenate S32x6 1 [⟨S32x1, a⟩, ⟨S32x5, b⟩] concatenates_S32x1_S32x5_S32x6_d1) : (⟨S32x1, .i1⟩ : BufTy).Contents (Elt F) → (⟨S32x5, .i1⟩ : BufTy).Contents (Elt F) → (⟨S32x6, .i1⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S32x230400, .i32⟩) main_call1_v0) (broadcastInDim S32x230400 ![] bcast_S_S32x230400),
    TRef.binary (TRef.of (T := ⟨S32x230400, .i32⟩) main_v0) (TRef.of (T := ⟨S32x230400, .i32⟩) main_call1_v0) (TRef.of (T := ⟨S32x230400, .i1⟩) main_call1_v1) (cmpi .slt),
    TRef.nullary (TRef.of (T := ⟨S_, .i32⟩) main_call1_c_0) (constantI S_ 32 6#32),
    TRef.unary (TRef.of (T := ⟨S_, .i32⟩) main_call1_c_0) (TRef.of (T := ⟨S32x230400, .i32⟩) main_call1_v2) (broadcastInDim S32x230400 ![] bcast_S_S32x230400),
    TRef.binary (TRef.of (T := ⟨S32x230400, .i32⟩) main_v0) (TRef.of (T := ⟨S32x230400, .i32⟩) main_call1_v2) (TRef.of (T := ⟨S32x230400, .i32⟩) main_call1_v3) addi,
    TRef.ternary (TRef.of (T := ⟨S32x230400, .i1⟩) main_call1_v1) (TRef.of (T := ⟨S32x230400, .i32⟩) main_call1_v3) (TRef.of (T := ⟨S32x230400, .i32⟩) main_v0) (TRef.of (T := ⟨S32x230400, .i32⟩) main_call1_v4) select,
    TRef.reshape (TRef.of (T := ⟨S32x230400, .i32⟩) main_call1_v4) (TRef.of (T := ⟨S32x230400x1, .i32⟩) main_call1_v5) rfl shapeCasts_S32x230400_S32x230400x1,
    TRef.nullary (TRef.of (T := ⟨S1, .i32⟩) main_call1_c_1) (constantI S1 32 5#32),
    TRef.nullary (TRef.of (T := ⟨S_, .i32⟩) main_call1_c_2) (constantI S_ 32 0#32),
    TRef.unary (TRef.of (T := ⟨S_, .i32⟩) main_call1_c_2) (TRef.of (T := ⟨S32x230400x1, .i32⟩) main_call1_v6) (broadcastInDim S32x230400x1 ![] bcast_S_S32x230400x1),
    TRef.binary (TRef.of (T := ⟨S32x230400x1, .i32⟩) main_call1_v5) (TRef.of (T := ⟨S32x230400x1, .i32⟩) main_call1_v6) (TRef.of (T := ⟨S32x230400x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S32x230400x1, .i32⟩) main_call1_v9) (broadcastInDim S32x230400x1 ![0, 1, 2] bcast_S1x1x1_S32x230400x1_0_1_2),
    TRef.binary (TRef.of (T := ⟨S32x230400x1, .i32⟩) main_call1_v5) (TRef.of (T := ⟨S32x230400x1, .i32⟩) main_call1_v9) (TRef.of (T := ⟨S32x230400x1, .i1⟩) main_call1_v10) (cmpi .sle),
    TRef.binary (TRef.of (T := ⟨S32x230400x1, .i1⟩) main_call1_v7) (TRef.of (T := ⟨S32x230400x1, .i1⟩) main_call1_v10) (TRef.of (T := ⟨S32x230400x1, .i1⟩) main_call1_v11) andi,
    TRef.nullary (TRef.of (T := ⟨S_, .i1⟩) main_call1_c_3) (constantI S_ 1 1#1),
    TRef.binary (TRef.of (T := ⟨S32x230400x1, .i1⟩) main_call1_v11) (TRef.of (T := ⟨S_, .i1⟩) main_call1_c_3) (TRef.of (T := ⟨S32x230400, .i1⟩) main_call1_v12) (fun x v => Host.reduce IntOp.andi x v reducesTo_S32x230400x1_S32x230400_d2 h_S_),
    TRef.binary (TRef.of (T := ⟨S32x6, .i1⟩) main_v34) (TRef.of (T := ⟨S32x230400x1, .i32⟩) main_call1_v5) (TRef.of (T := ⟨S32x230400, .i1⟩) main_call1_v13) (fun x i => Host.gather gather_S32x6_S32x230400x1_S32x230400_n_1_0_0_1_2_11 x i),
    TRef.nullary (TRef.of (T := ⟨S_, .i1⟩) main_call1_c_4) (constantI S_ 1 1#1),
    TRef.unary (TRef.of (T := ⟨S_, .i1⟩) main_call1_c_4) (TRef.of (T := ⟨S32x230400, .i1⟩) main_call1_v14) (broadcastInDim S32x230400 ![] bcast_S_S32x230400),
    TRef.ternary (TRef.of (T := ⟨S32x230400, .i1⟩) main_call1_v12) (TRef.of (T := ⟨S32x230400, .i1⟩) main_call1_v13) (TRef.of (T := ⟨S32x230400, .i1⟩) main_call1_v14) (TRef.of (T := ⟨S32x230400, .i1⟩) main_v35) select,
    nullary main_cst_6 (constant S_ .f32 0x3F800000#32),
    unary main_cst_6 main_v36 (broadcastInDim S32x230400 ![] bcast_S_S32x230400 : (⟨S_, .f32⟩ : BufTy).Contents (Elt F) → (⟨S32x230400, .f32⟩ : BufTy).Contents (Elt F)),
    binary main_v32 main_v36 main_v37 (subf : (⟨S32x230400, .f32⟩ : BufTy).Contents (Elt F) → (⟨S32x230400, .f32⟩ : BufTy).Contents (Elt F) → (⟨S32x230400, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S32x230400, .f32⟩) main_call2_v0) (broadcastInDim S32x230400 ![] bcast_S_S32x230400),
    TRef.binary (TRef.of (T := ⟨S32x230400, .f32⟩) main_v37) (TRef.of (T := ⟨S32x230400, .f32⟩) main_call2_v0) (TRef.of (T := ⟨S32x230400, .f32⟩) main_v38) maximumf,
    binary main_v38 main_v38 main_v39 (mulf : (⟨S32x230400, .f32⟩ : BufTy).Contents (Elt F) → (⟨S32x230400, .f32⟩ : BufTy).Contents (Elt F) → (⟨S32x230400, .f32⟩ : BufTy).Contents (Elt F)),
    nullary main_cst_7 (constant S_ .f32 0x00000000#32),
    TRef.unary (TRef.of (T := ⟨S_, .f32⟩) main_cst_7) (TRef.of (T := ⟨S_, .f32⟩) main_call3_v0) id,
    TRef.unary (TRef.of (T := ⟨S_, .f32⟩) main_call3_v0) (TRef.of (T := ⟨S32x230400, .f32⟩) main_call3_v1) (broadcastInDim S32x230400 ![] bcast_S_S32x230400),
    TRef.ternary (TRef.of (T := ⟨S32x230400, .i1⟩) main_v35) (TRef.of (T := ⟨S32x230400, .f32⟩) main_v39) (TRef.of (T := ⟨S32x230400, .f32⟩) main_call3_v1) (TRef.of (T := ⟨S32x230400, .f32⟩) main_v40) select,
    nullary main_cst_8 (constant S_ .f32 0x00000000#32),
    binary main_v40 main_cst_8 main_v41 ((fun x v => Host.reduceAdd x v reducesTo_S32x230400_S_d0_1 h_S_) : (⟨S32x230400, .f32⟩ : BufTy).Contents (Elt F) → (⟨S_, .f32⟩ : BufTy).Contents (Elt F) → (⟨S_, .f32⟩ : BufTy).Contents (Elt F)) ]

set_option maxRecDepth 16384 in
set_option maxHeartbeats 8000000 in
/-- The plain spelling of the second stretch is the program's: a typed reference's transport is the identity. -/
theorem ops2_eq : (ops2T : List (HloOp τ sig (Elt F))) = ops2 := by
  simp only [ops2T, ops2, TRef.nullary, TRef.unary, TRef.binary, TRef.ternary, TRef.reshape, TRef.toBuf, TRef.ofBuf, TRef.of, cast_eq]
  rfl
set_option maxRecDepth 16384 in
set_option maxHeartbeats 8000000 in
/-- The same for the third stretch. -/
theorem ops3_eq : (ops3T : List (HloOp τ sig (Elt F))) = ops3 := by
  simp only [ops3T, ops3, TRef.nullary, TRef.unary, TRef.binary, TRef.ternary, TRef.reshape, TRef.toBuf, TRef.ofBuf, TRef.of, cast_eq]
  rfl

set_option maxRecDepth 8192 in
theorem ops_splitT : (ops : List (HloOp τ sig (Elt F))) = ops1 ++ (ops2T ++ (ops3T ++ ops4)) := rfl

/-- The four stretches are the program's operations, in order. -/
theorem ops_split : (ops : List (HloOp τ sig (Elt F))) = ops1 ++ (ops2 ++ (ops3 ++ ops4)) := by
  rw [← ops2_eq, ← ops3_eq]; exact ops_splitT

/-- The fold over a concatenation is the fold over the second list from the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

end Cert.ReferenceIdeal.Stages

end
-- ==== Proof.RefS1.lean ====
/-
  The reference's first stretch (28 operations), read over an arbitrary valuation: the flattened labels and embedding,
  the integer lane counts, the validity bits, the lane means and the zero row are the stage functions of the two
  argument buffers.
-/
import proofs.«402451_j17145509446225_3_alg».proof.Proof.RefOps
import proofs.«402451_j17145509446225_3_alg».proof.Proof.RefRead

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The first stretch -/

section
variable (W : Valuation τ sig (Elt F))

set_option maxRecDepth 16384 in
set_option maxHeartbeats 16000000 in
theorem s1_v0 : after (ops1 (F := F)) W (Proc.devRef .tc main_v0) = val_main_v0 (F := F) (W (Proc.devRef .tc main_arg0)) := by
  after_results_simp <;> rfl
set_option maxRecDepth 16384 in
set_option maxHeartbeats 16000000 in
theorem s1_v1 : after (ops1 (F := F)) W (Proc.devRef .tc main_v1) = val_main_v1 (F := F) (W (Proc.devRef .tc main_arg1)) := by
  after_results_simp <;> rfl
set_option maxRecDepth 16384 in
set_option maxHeartbeats 16000000 in
theorem s1_v11 : after (ops1 (F := F)) W (Proc.devRef .tc main_v11) = val_main_v11 (F := F) (W (Proc.devRef .tc main_arg0)) := by
  after_results_simp <;> rfl
set_option maxRecDepth 16384 in
set_option maxHeartbeats 16000000 in
theorem s1_v13 : after (ops1 (F := F)) W (Proc.devRef .tc main_v13) = val_main_v13 (F := F) (W (Proc.devRef .tc main_arg0)) := by
  after_results_simp <;> rfl
set_option maxRecDepth 16384 in
set_option maxHeartbeats 16000000 in
theorem s1_v21 : after (ops1 (F := F)) W (Proc.devRef .tc main_v21) = val_main_v21 (F := F) (W (Proc.devRef .tc main_arg0)) (W (Proc.devRef .tc main_arg1)) := by
  after_results_simp <;> rfl
set_option maxRecDepth 16384 in
set_option maxHeartbeats 16000000 in
theorem s1_v22 : after (ops1 (F := F)) W (Proc.devRef .tc main_v22) = val_main_v22 (F := F) := by
  after_results_simp <;> rfl
end

end Cert.ReferenceIdeal.Stages

end
-- ==== Proof.RefS2.lean ====
/-
  The reference's second stretch (35 operations), read over an arbitrary valuation holding the flattened arrays, the
  means and the zero row at their stage functions: it ends with each pixel's distance to its lane mean and with the
  false bit at theirs, and writes none of the buffers later stretches still read.
-/
import proofs.«402451_j17145509446225_3_alg».proof.Proof.RefOps
import proofs.«402451_j17145509446225_3_alg».proof.Proof.RefRead

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The second stretch -/

set_option maxRecDepth 16384 in
set_option maxHeartbeats 16000000 in
theorem s2_v32 (W : Valuation τ sig (Elt F)) (X0 : (⟨S32x360x640, .i32⟩ : BufTy).Contents (Elt F)) (X1 : (⟨S32x4x360x640, .f32⟩ : BufTy).Contents (Elt F))
    (h0 : W (Proc.devRef .tc main_v0) = val_main_v0 (F := F) X0) (h1 : W (Proc.devRef .tc main_v1) = val_main_v1 (F := F) X1)
    (h21 : W (Proc.devRef .tc main_v21) = val_main_v21 (F := F) X0 X1) (h22 : W (Proc.devRef .tc main_v22) = val_main_v22 (F := F)) :
    after (ops2 (F := F)) W (Proc.devRef .tc main_v32) = val_main_v32 (F := F) X0 X1 := by
  after_results_simp
  rw [h0, h1, h21, h22]
  rfl

set_option maxRecDepth 16384 in
set_option maxHeartbeats 16000000 in
theorem s2_v33 (W : Valuation τ sig (Elt F)) : after (ops2 (F := F)) W (Proc.devRef .tc main_v33) = val_main_v33 (F := F) := by
  after_results_simp <;> rfl

set_option maxHeartbeats 2000000 in
theorem s2_keeps_v0 (W : Valuation τ sig (Elt F)) : after (ops2 (F := F)) W (Proc.devRef .tc main_v0) = W (Proc.devRef .tc main_v0) :=
  after_of_forall_not_mem (b := Proc.devRef .tc main_v0) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
set_option maxHeartbeats 2000000 in
theorem s2_keeps_v11 (W : Valuation τ sig (Elt F)) : after (ops2 (F := F)) W (Proc.devRef .tc main_v11) = W (Proc.devRef .tc main_v11) :=
  after_of_forall_not_mem (b := Proc.devRef .tc main_v11) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
set_option maxHeartbeats 2000000 in
theorem s2_keeps_v13 (W : Valuation τ sig (Elt F)) : after (ops2 (F := F)) W (Proc.devRef .tc main_v13) = W (Proc.devRef .tc main_v13) :=
  after_of_forall_not_mem (b := Proc.devRef .tc main_v13) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
set_option maxHeartbeats 2000000 in
theorem s2_keeps_v21 (W : Valuation τ sig (Elt F)) : after (ops2 (F := F)) W (Proc.devRef .tc main_v21) = W (Proc.devRef .tc main_v21) :=
  after_of_forall_not_mem (b := Proc.devRef .tc main_v21) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))

end Cert.ReferenceIdeal.Stages

end
-- ==== Proof.RefS3.lean ====
/-
  The reference's third stretch (36 operations), read over an arbitrary valuation holding the flattened labels, the
  validity bits, the distances and the false bit at their stage functions: it ends with the pull sum at its stage
  function, and writes none of the buffers the last stretch still reads.
-/
import proofs.«402451_j17145509446225_3_alg».proof.Proof.RefOps
import proofs.«402451_j17145509446225_3_alg».proof.Proof.RefRead

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The third stretch -/

set_option maxRecDepth 16384 in
set_option maxHeartbeats 16000000 in
theorem s3_v41 (W : Valuation τ sig (Elt F)) (X0 : (⟨S32x360x640, .i32⟩ : BufTy).Contents (Elt F)) (X1 : (⟨S32x4x360x640, .f32⟩ : BufTy).Contents (Elt F))
    (h0 : W (Proc.devRef .tc main_v0) = val_main_v0 (F := F) X0) (h13 : W (Proc.devRef .tc main_v13) = val_main_v13 (F := F) X0)
    (h32 : W (Proc.devRef .tc main_v32) = val_main_v32 (F := F) X0 X1) (h33 : W (Proc.devRef .tc main_v33) = val_main_v33 (F := F)) :
    after (ops3 (F := F)) W (Proc.devRef .tc main_v41) = val_main_v41 (F := F) X0 X1 := by
  after_results_simp
  rw [h0, h13, h32, h33]
  rfl

set_option maxHeartbeats 2000000 in
theorem s3_keeps_v11 (W : Valuation τ sig (Elt F)) : after (ops3 (F := F)) W (Proc.devRef .tc main_v11) = W (Proc.devRef .tc main_v11) :=
  after_of_forall_not_mem (b := Proc.devRef .tc main_v11) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
set_option maxHeartbeats 2000000 in
theorem s3_keeps_v13 (W : Valuation τ sig (Elt F)) : after (ops3 (F := F)) W (Proc.devRef .tc main_v13) = W (Proc.devRef .tc main_v13) :=
  after_of_forall_not_mem (b := Proc.devRef .tc main_v13) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
set_option maxHeartbeats 2000000 in
theorem s3_keeps_v21 (W : Valuation τ sig (Elt F)) : after (ops3 (F := F)) W (Proc.devRef .tc main_v21) = W (Proc.devRef .tc main_v21) :=
  after_of_forall_not_mem (b := Proc.devRef .tc main_v21) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))

end Cert.ReferenceIdeal.Stages

end
-- ==== Proof.RefS4.lean ====
/-
  The reference's fourth stretch (84 operations), read over an arbitrary valuation holding the lane counts, the
  validity bits, the means and the pull sum at their stage functions: it ends with the result at the last stage function.
-/
import proofs.«402451_j17145509446225_3_alg».proof.Proof.RefOps
import proofs.«402451_j17145509446225_3_alg».proof.Proof.RefRead

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The fourth stretch -/

set_option maxRecDepth 16384 in
set_option maxHeartbeats 16000000 in
theorem s4_v96 (W : Valuation τ sig (Elt F)) (X0 : (⟨S32x360x640, .i32⟩ : BufTy).Contents (Elt F)) (X1 : (⟨S32x4x360x640, .f32⟩ : BufTy).Contents (Elt F))
    (h11 : W (Proc.devRef .tc main_v11) = val_main_v11 (F := F) X0) (h13 : W (Proc.devRef .tc main_v13) = val_main_v13 (F := F) X0)
    (h21 : W (Proc.devRef .tc main_v21) = val_main_v21 (F := F) X0 X1) (h41 : W (Proc.devRef .tc main_v41) = val_main_v41 (F := F) X0 X1) :
    after (ops4 (F := F)) W (Proc.devRef .tc main_v96) = val_main_v96 (F := F) X0 X1 := by
  after_results_simp
  try simp only [TRef.ofBuf, TRef.toBuf, cast_eq]
  rw [h11, h13, h21, h41]
  rfl

end Cert.ReferenceIdeal.Stages

end
-- ==== Proof.RefStages.lean ====
/-
  The reference's run, read stretch by stretch. Its @main is 183 host operations in sequence, so every execution ends
  with each buffer at the fold of the operations over the launch memory; here that fold is read at the result buffer.
  The list is cut in four, before each of the two concatenations and after the pull sum: the first stretch (28
  operations) computes the flattened labels and embedding, the integer lane counts, the validity bits, the lane means
  and a zero row from the two arguments; the second (35 operations) extends the means table by the zero row, gathers
  each pixel's lane mean and computes its distance, and makes a false bit; the third (36 operations) extends the
  validity bits by the false bit, gathers each pixel's bit and computes the pull sum; the fourth (84 operations)
  computes the result from the counts, the validity bits, the means and the pull sum. Each stretch is read over an ARBITRARY valuation,
  with the few buffers it takes over from earlier stretches given by hypothesis as the reference's stage functions;
  a buffer a stretch does not write passes through it. Composed, the result buffer ends at the last stage function
  of the two argument arrays, and the arguments end as launched.
-/
import proofs.«402451_j17145509446225_3_alg».proof.Proof.RefS1
import proofs.«402451_j17145509446225_3_alg».proof.Proof.RefS2
import proofs.«402451_j17145509446225_3_alg».proof.Proof.RefS3
import proofs.«402451_j17145509446225_3_alg».proof.Proof.RefS4

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The whole run -/

/-- The result buffer after all the operations is the last stage function of the two argument arrays. -/
theorem result_eq (V : Valuation τ sig (Elt F)) :
    after (ops (F := F)) V (Proc.devRef .tc main_v96) = val_main_v96 (F := F) (V (Proc.devRef .tc main_arg0)) (V (Proc.devRef .tc main_arg1)) := by
  rw [ops_split, after_app, after_app, after_app]
  refine s4_v96 _ _ _ ?_ ?_ ?_ ?_
  · rw [s3_keeps_v11, s2_keeps_v11]; exact s1_v11 V
  · rw [s3_keeps_v13, s2_keeps_v13]; exact s1_v13 V
  · rw [s3_keeps_v21, s2_keeps_v21]; exact s1_v21 V
  · refine s3_v41 _ _ _ ?_ ?_ ?_ ?_
    · rw [s2_keeps_v0]; exact s1_v0 V
    · rw [s2_keeps_v13]; exact s1_v13 V
    · exact s2_v32 _ _ _ (s1_v0 V) (s1_v1 V) (s1_v21 V) (s1_v22 V)
    · exact s2_v33 _
set_option maxHeartbeats 4000000 in
theorem keeps_arg0 (W : Valuation τ sig (Elt F)) : after (ops (F := F)) W (Proc.devRef .tc main_arg0) = W (Proc.devRef .tc main_arg0) :=
  after_of_forall_not_mem (b := Proc.devRef .tc main_arg0) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
set_option maxHeartbeats 4000000 in
theorem keeps_arg1 (W : Valuation τ sig (Elt F)) : after (ops (F := F)) W (Proc.devRef .tc main_arg1) = W (Proc.devRef .tc main_arg1) :=
  after_of_forall_not_mem (b := Proc.devRef .tc main_arg1) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))

/-- On every device, for any float values, from any memory with zero counters: every weakly fair execution of @main
    terminates with the result at the last stage function of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v96) = val_main_v96 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v96).trans (result_eq (launchContents m c)),
      (h c main_arg0).trans (keeps_arg0 (launchContents m c)),
      (h c main_arg1).trans (keeps_arg1 (launchContents m c))⟩)
    (run_seq scopedRefs_eq scopedSems_eq defs main (fun _ => ops) main_eq (fun _ => ops_sub) m ρ)

end Cert.ReferenceIdeal.Stages

end
-- ==== Proof.PreDecode.lean ====
/-
  The precondition read back. The printed predicate is the conjunction of two `jnp.all`s: every embedding entry has
  absolute value below +inf, and every label word `x` satisfies `0 ≤ x` and `x ≤ 5` as a signed integer. Only the
  second is used: a word that is nonnegative and at most 5 read signed is at most 5 read unsigned, so every label
  names one of the six lanes 0..5.
-/
import proofs.«402451_j17145509446225_3_alg».proof.Pre_finite_inputs
import proofs.«402451_j17145509446225_3_alg».proof.Proof.Gen.Pre_finite_inputs
import Idealize.ShloMosaic.Lib.ReduceAll
import Idealize.ShloMosaic.Lib.ValueIdx

noncomputable section

namespace Cert.PreDecode

open Idealize.ShloMosaic Cert.Pre_finite_inputs

/-- Under the precondition every label word, read unsigned, is at most 5. -/
theorem labels_le {F : FTy → Type} [FloatOps F] (X0 : IVec S32x360x640 32) (X1 : FVec F S32x4x360x640 .f32)
    (h : Cert.Pre_finite_inputs.fn (F := F) X0 X1 = fun _ => 1#1) (i : S32x360x640.Idx) : (X0 i).toNat ≤ 5 := by
  have e := congrFun h ValueIdx.ix0
  dsimp only [Cert.Pre_finite_inputs.fn] at e
  obtain ⟨-, e9⟩ := IntOp.andi_eq_one.1 e
  haveI : Subsingleton S_.Idx := ⟨fun a b => funext fun d => d.elim0⟩
  have e8 := Host.reduce_andi_all _ _ _ _ _ e9 i
  obtain ⟨e5, e7⟩ := IntOp.andi_eq_one.1 e8
  have h0 : (0#32 : BitVec 32).toInt ≤ (X0 i).toInt := IntOp.cmpi_sge.1 e5
  have h5 : (X0 i).toInt ≤ (5#32 : BitVec 32).toInt := IntOp.cmpi_sle.1 e7
  have z0 : (0#32 : BitVec 32).toInt = 0 := by decide
  have z5 : (5#32 : BitVec 32).toInt = 5 := by decide
  rw [z0] at h0
  rw [z5] at h5
  have hc := BitVec.toInt_eq_toNat_cond (X0 i)
  have hlt := (X0 i).isLt
  split at hc <;> omega

end Cert.PreDecode

end
-- ==== Proof.Spec.lean ====
/-
  The mathematics both programs compute, stated once over ONE batch element's blocks: a label block
  `x0` (360×640 words, one lane label per pixel) and an embedding block `x1` (4 channels × 360×640 extended reals).

  For a lane `l`: `bcnt x0 l` is the number of pixels labelled `l` (a sum of indicators), `bsm x0 x1 c l` the sum of
  channel `c` over those pixels, `bmean` their quotient with the count floored at one, and `bvld` says the lane has
  more than one pixel. A pixel labelled `t` contributes to the pull term the squared hinge of its distance to lane
  `t`'s mean when `1 ≤ t` and lane `t` is valid, and nothing otherwise (`bcontrib`). The array-level quantities are
  these at batch element `b`'s blocks (`blkT`, `blkE`).

  The float literals stay the words the programs print (`oneC`, `epsC`, `zeroC`): the same word on both sides is
  never evaluated; only the values of 1.0 and 0.0 are used (a count is compared with 1.0).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A batch element's label block and embedding block. -/
abbrev SBT : Shape := ⟨3, ![1, 360, 640]⟩
abbrev SBE : Shape := ⟨4, ![1, 4, 360, 640]⟩
/-- The whole label array and the whole embedding array. -/
abbrev SAT : Shape := ⟨3, ![32, 360, 640]⟩
abbrev SAE : Shape := ⟨4, ![32, 4, 360, 640]⟩

/-- The printed words for 1.0, 1e-12 (as f32) and 0.0. -/
abbrev oneC : EReal := Ideal.ofBits .f32 0x3F800000#32
abbrev epsC : EReal := Ideal.ofBits .f32 0x2B8CBCCC#32
abbrev zeroC : EReal := Ideal.ofBits .f32 0x00000000#32

theorem zeroC_eq : zeroC = 0 := Ideal.ofBits_zero_f32

/-- The indicator of "this word is the label `l`". -/
def oh (x : BitVec 32) (l : ℕ) : EReal := if x = BitVec.ofNat 32 l then 1 else 0

/-- The number of pixels of the block labelled `l`. -/
def bcnt (x0 : SBT.Idx → BitVec 32) (l : ℕ) : EReal :=
  ∑ h : Fin 360, ∑ w : Fin 640, oh (x0 (ix3 0 h w)) l

/-- The sum of channel `c` over the pixels labelled `l`. -/
def bsm (x0 : SBT.Idx → BitVec 32) (x1 : SBE.Idx → EReal) (c : Fin 4) (l : ℕ) : EReal :=
  ∑ h : Fin 360, ∑ w : Fin 640, oh (x0 (ix3 0 h w)) l * x1 (ix4 0 c h w)

/-- Lane `l`'s mean of channel `c`, the count floored at one. -/
def bmean (x0 : SBT.Idx → BitVec 32) (x1 : SBE.Idx → EReal) (c : Fin 4) (l : ℕ) : EReal :=
  Ideal.div (bsm x0 x1 c l) (max (bcnt x0 l) oneC)

/-- Lane `l` has more than one pixel, as a one-bit word. -/
def bvld (x0 : SBT.Idx → BitVec 32) (l : ℕ) : BitVec 1 := Ideal.cmp .ogt (bcnt x0 l) oneC

/-- The squared distance of pixel `(h, w)` to lane `l`'s mean, over the four channels. -/
def bdist2 (x0 : SBT.Idx → BitVec 32) (x1 : SBE.Idx → EReal) (h : Fin 360) (w : Fin 640) (l : ℕ) : EReal :=
  ∑ c : Fin 4, (x1 (ix4 0 c h w) - bmean x0 x1 c l) * (x1 (ix4 0 c h w) - bmean x0 x1 c l)

/-- The squared hinge of a squared distance: `max (sqrt (max y ε) − 1) 0`, squared. -/
def hinge2 (y : EReal) : EReal :=
  max (Ideal.sqrt (max y epsC) - oneC) zeroC * max (Ideal.sqrt (max y epsC) - oneC) zeroC

/-- What pixel `(h, w)` adds to the pull term: labelled `t` with `1 ≤ t` and lane `t` valid, the squared hinge of its
    distance to lane `t`'s mean; otherwise nothing. -/
def bcontrib (x0 : SBT.Idx → BitVec 32) (x1 : SBE.Idx → EReal) (h : Fin 360) (w : Fin 640) : EReal :=
  if 1 ≤ (x0 (ix3 0 h w)).toNat ∧ bvld x0 (x0 (ix3 0 h w)).toNat = 1#1 then
    hinge2 (bdist2 x0 x1 h w (x0 (ix3 0 h w)).toNat)
  else 0

/-- Batch element `b`'s label block and embedding block of the whole arrays. -/
def blkT (T : SAT.Idx → BitVec 32) (b : Fin 32) : SBT.Idx → BitVec 32 := fun i => T (ix3 b (i 1) (i 2))
def blkE (E : SAE.Idx → EReal) (b : Fin 32) : SBE.Idx → EReal := fun i => E (ix4 b (i 1) (i 2) (i 3))

theorem blkT_apply (T : SAT.Idx → BitVec 32) (b : Fin 32) (h : Fin 360) (w : Fin 640) :
    blkT T b (ix3 0 h w) = T (ix3 b h w) := rfl
theorem blkE_apply (E : SAE.Idx → EReal) (b : Fin 32) (c : Fin 4) (h : Fin 360) (w : Fin 640) :
    blkE E b (ix4 0 c h w) = E (ix4 b c h w) := rfl

/-- The four quantities the two programs' common host tail starts from. -/
def meansS (T : SAT.Idx → BitVec 32) (E : SAE.Idx → EReal) : (⟨3, ![32, 5, 4]⟩ : Shape).Idx → EReal :=
  fun i => bmean (blkT T (i 0)) (blkE E (i 0)) (i 2) ((i 1).val + 1)
def validS (T : SAT.Idx → BitVec 32) : (⟨2, ![32, 5]⟩ : Shape).Idx → BitVec 1 :=
  fun i => bvld (blkT T (i 0)) ((i 1).val + 1)
def distSumS (T : SAT.Idx → BitVec 32) (E : SAE.Idx → EReal) : EReal :=
  ∑ b : Fin 32, ∑ h : Fin 360, ∑ w : Fin 640, bcontrib (blkT T b) (blkE E b) h w
def pointCountS (T : SAT.Idx → BitVec 32) : EReal :=
  ∑ b : Fin 32, ∑ l : Fin 5, if bvld (blkT T b) (l.val + 1) = 1#1 then bcnt (blkT T b) (l.val + 1) else 0

end Cert.Spec

end
-- ==== Proof.KLanes.lean ====
/-
  The kernel body's lane quantities at the ideal instance, read at an index: over one label block `x0` and one
  embedding block `x1`, the one-hot tensor is the indicator `oh`, its two nested lane sums are the pixel count
  `bcnt`, and the two nested sums of one-hot × channel are the lane sums `bsm`; the five stored rows are these at
  lanes 1 to 5.
-/
import proofs.«402451_j17145509446225_3_alg».proof.Proof.Gen.KernelIdeal.Skeleton
import proofs.«402451_j17145509446225_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Lanes

open Cert.KernelIdeal Cert.KernelIdeal.Gen Cert.Spec
open Idealize.ShloMosaic Idealize.ShloMosaic.ValueIdx

/-! ## Index plumbing shared by the twelve readings -/

/-- One `[1, a, b]` plane repeated over `n` lanes reads, at `(l, i, j)`, the plane at `(0, i, j)`. -/
theorem broadcastTo_1ab_nab_apply {α : Type} {n a b : ℕ} (v : (⟨3, ![1, a, b]⟩ : Shape).Idx → α)
    (h : (⟨3, ![1, a, b]⟩ : Shape).Broadcasts ⟨3, ![n, a, b]⟩) (l : Fin n) (i : Fin a) (j : Fin b) :
    broadcastTo ⟨3, ![n, a, b]⟩ v h (ix3 l i j) = v (ix3 (0 : Fin 1) i j) := by
  refine broadcastTo_apply v h (ix3 l i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- A plane squeezed to `[a, b]`, given its unit axis back and repeated over `n` lanes, reads at `(l, i, j)` the
    plane at `(0, i, j)`. -/
theorem plane_lanes_apply {α : Type} {n a b : ℕ} (v : (⟨3, ![1, a, b]⟩ : Shape).Idx → α)
    (h1 : (⟨3, ![1, a, b]⟩ : Shape).ShapeCasts ⟨2, ![a, b]⟩) (h2 : (⟨2, ![a, b]⟩ : Shape).ShapeCasts ⟨3, ![1, a, b]⟩)
    (h3 : (⟨3, ![1, a, b]⟩ : Shape).Broadcasts ⟨3, ![n, a, b]⟩) (l : Fin n) (i : Fin a) (j : Fin b) :
    broadcastTo ⟨3, ![n, a, b]⟩ (shapeCast ⟨3, ![1, a, b]⟩ (shapeCast ⟨2, ![a, b]⟩ v h1) h2) h3 (ix3 l i j)
      = v (ix3 (0 : Fin 1) i j) :=
  (broadcastTo_1ab_nab_apply _ h3 l i j).trans
    ((shapeCast_ab_1ab_apply _ h2 0 i j).trans (shapeCast_1ab_ab_apply v h1 i j))

/-- The plane of channel `c` cut out of a `[4, a, b]` block reads, at `(0, i, j)`, the block at `(c, i, j)`. -/
theorem channel_slice_apply {α : Type} {m a b : ℕ} (v : (⟨3, ![m, a, b]⟩ : Shape).Idx → α) (off : Fin 3 → ℕ)
    (hs : (⟨3, ![m, a, b]⟩ : Shape).Slices off ⟨3, ![1, a, b]⟩) (c : Fin m) (h0 : off 0 = c.val) (h1 : off 1 = 0)
    (h2 : off 2 = 0) (i : Fin a) (j : Fin b) :
    extractStridedSlice ⟨3, ![1, a, b]⟩ off v hs (ix3 (0 : Fin 1) i j) = v (ix3 c i j) := by
  refine extractStridedSlice_apply off v hs (ix3 (0 : Fin 1) i j) (ix3 c i j) fun ax => ?_
  match ax with
  | ⟨0, _⟩ => show c.val = off 0 + 0; omega
  | ⟨1, _⟩ => show i.val = off 1 + i.val; omega
  | ⟨2, _⟩ => show j.val = off 2 + j.val; omega

/-- Lanes 1 to 5 of a six-lane row, stored as a `[1, 1, 5]` row, read at `(0, 0, l')` the row at lane `l' + 1`. -/
theorem stored_row_apply {α : Type} (v : S6.Idx → α) (hs : S6.Slices ![1] S5) (hc : S5.ShapeCasts S1x1x5) (l' : Fin 5) :
    shapeCast S1x1x5 (extractStridedSlice S5 ![1] v hs) hc (ix3 (0 : Fin 1) (0 : Fin 1) l')
      = v (ix1 (⟨l'.val + 1, by omega⟩ : Fin 6)) := by
  refine (shapeCast_apply _ hc (ix3 (0 : Fin 1) (0 : Fin 1) l') (ix1 l') ?_).trans ?_
  · rw [Shape.rowMajor_val_three, Shape.rowMajor_val_one]
    show l'.val = (0 * 1 + 0) * 5 + l'.val
    omega
  · refine extractStridedSlice_apply ![1] v hs (ix1 l') (ix1 (⟨l'.val + 1, by omega⟩ : Fin 6)) fun ax => ?_
    match ax with
    | ⟨0, _⟩ => show l'.val + 1 = 1 + l'.val; omega

/-- Two nested lane sums of a `[6, 360, 640]` tensor — over columns, then over rows — read at lane `l` the double
    sum over the pixels. -/
theorem lane_sums_apply (v : FVec Ideal S6x360x640 .f32) (h2 : S6x360x640.Reduces [2] S6x360) (h1 : S6x360.Reduces [1] S6)
    (hφ : FKind.Formats .f32) (hacc : (0x00000000#32 : BitVec 32) = FKind.add.neutral .f32 hφ) (l : Fin 6) :
    multiReduction (F := Ideal) .add [1] S6 (multiReduction (F := Ideal) .add [2] S6x360 v 0x00000000#32 h2 hφ hacc)
        0x00000000#32 h1 hφ hacc (ix1 l)
      = ∑ h : Fin 360, ∑ w : Fin 640, v (ix3 l h w) := by
  refine (Ideal.multiReduction_add_single _ _ h1 hφ hacc (ix1 l)).trans ?_
  refine Finset.sum_congr rfl fun h _ => ?_
  refine (Ideal.multiReduction_add_single v _ h2 hφ hacc _).trans ?_
  refine Finset.sum_congr rfl fun w _ => ?_
  refine congrArg v (funext fun ax => ?_)
  match ax with
  | ⟨0, _⟩ => exact Fin.ext rfl
  | ⟨1, _⟩ => exact Fin.ext rfl
  | ⟨2, _⟩ => exact Fin.ext rfl

/-- The nested lane sums of a one-hot tensor `v9` times channel `c` of a `[4, 360, 640]` block `v3`, the channel's
    plane cut out, squeezed, given its unit axis back and repeated over the six lanes: at lane `l` the double sum of
    the products. -/
theorem channel_sums_apply (v3 : FVec Ideal S4x360x640 .f32) (v9 : FVec Ideal S6x360x640 .f32) (off : Fin 3 → ℕ)
    (hs : S4x360x640.Slices off S1x360x640) (c : Fin 4) (h0 : off 0 = c.val) (h1 : off 1 = 0) (h2 : off 2 = 0)
    (hc1 : S1x360x640.ShapeCasts S360x640) (hc2 : S360x640.ShapeCasts S1x360x640) (hb : S1x360x640.Broadcasts S6x360x640)
    (hr2 : S6x360x640.Reduces [2] S6x360) (hr1 : S6x360.Reduces [1] S6)
    (hφ : FKind.Formats .f32) (hacc : (0x00000000#32 : BitVec 32) = FKind.add.neutral .f32 hφ) (l : Fin 6) :
    multiReduction (F := Ideal) .add [1] S6 (multiReduction (F := Ideal) .add [2] S6x360
        (mulf v9 (broadcastTo S6x360x640 (shapeCast S1x360x640 (shapeCast S360x640
          (extractStridedSlice S1x360x640 off v3 hs) hc1) hc2) hb)) 0x00000000#32 hr2 hφ hacc)
        0x00000000#32 hr1 hφ hacc (ix1 l)
      = ∑ h : Fin 360, ∑ w : Fin 640, v9 (ix3 l h w) * v3 (ix3 c h w) := by
  refine (lane_sums_apply _ hr2 hr1 hφ hacc l).trans ?_
  refine Finset.sum_congr rfl fun h _ => Finset.sum_congr rfl fun w _ => ?_
  rw [mulf_apply, plane_lanes_apply _ hc1 hc2 hb l h w, channel_slice_apply v3 off hs c h0 h1 h2 h w]

/-- The widened bit of "these two words are equal", read as a signed integer, is 1 or 0. -/
theorem sitofp_eq_bit (a b : BitVec 32) :
    FloatOps.sitofp (F := Ideal) .f32 ((IntOp.cmpi .eq a b).setWidth 32) = if a = b then 1 else 0 := by
  show (((((IntOp.cmpi .eq a b).setWidth 32).toInt : ℤ) : ℝ) : EReal) = _
  by_cases hab : a = b
  · rw [if_pos hab]
    have e : (IntOp.cmpi .eq a b).setWidth 32 = 1#32 := by
      subst hab
      simp [IntOp.cmpi]
    rw [e]
    simp
  · rw [if_neg hab]
    have e : (IntOp.cmpi .eq a b).setWidth 32 = 0#32 := by
      have hb : (a == b) = false := beq_false_of_ne hab
      simp [IntOp.cmpi, hb]
    rw [e]
    simp

variable (x0 : Vec Ideal S1x360x640 .i32) (x1 : Vec Ideal S1x4x360x640 .f32)

theorem pay2_apply (c : Fin 4) (h : Fin 360) (w : Fin 640) : k0_pay2 (F := Ideal) x1 (ix3 c h w) = x1 (ix4 0 c h w) := by
  unfold k0_pay2
  exact shapeCast_1abc_abc_apply x1 _ c h w

theorem pay3_apply (l : Fin 6) (h : Fin 360) (w : Fin 640) : k0_pay3 (F := Ideal) x0 (ix3 l h w) = oh (x0 (ix3 0 h w)) l.val := by
  unfold k0_pay3
  show FloatOps.sitofp (F := Ideal) .f32 ((IntOp.cmpi .eq
      (broadcastTo S6x360x640 (shapeCast S1x360x640 (shapeCast S360x640 x0 _) _) _ (ix3 l h w))
      (iota .tc S6x360x640 32 [0] _ (ix3 l h w))).setWidth 32) = _
  rw [sitofp_eq_bit, plane_lanes_apply x0 _ _ _ l h w, iota_single_apply]
  rfl

theorem pay4_apply (l : Fin 6) : k0_pay4 (F := Ideal) x0 (ix1 l) = bcnt x0 l.val := by
  unfold k0_pay4
  refine (lane_sums_apply _ _ _ _ _ l).trans ?_
  unfold bcnt
  exact Finset.sum_congr rfl fun h _ => Finset.sum_congr rfl fun w _ => pay3_apply x0 l h w

theorem pay5_apply (l' : Fin 5) : k0_pay5 (F := Ideal) x0 (ix3 0 0 l') = bcnt x0 (l'.val + 1) := by
  unfold k0_pay5
  exact (stored_row_apply _ _ _ l').trans (pay4_apply x0 ⟨l'.val + 1, by omega⟩)

theorem pay8_apply (l : Fin 6) : k0_pay8 (F := Ideal) x0 x1 (ix1 l) = bsm x0 x1 0 l.val := by
  unfold k0_pay8
  refine (channel_sums_apply (k0_pay2 x1) (k0_pay3 x0) ![0, 0, 0] _ 0 rfl rfl rfl _ _ _ _ _ _ _ l).trans ?_
  unfold bsm
  exact Finset.sum_congr rfl fun h _ => Finset.sum_congr rfl fun w _ => by rw [pay3_apply, pay2_apply]

theorem pay11_apply (l : Fin 6) : k0_pay11 (F := Ideal) (k0_pay2 x1) (k0_pay3 x0) (ix1 l) = bsm x0 x1 1 l.val := by
  unfold k0_pay11
  refine (channel_sums_apply (k0_pay2 x1) (k0_pay3 x0) ![1, 0, 0] _ 1 rfl rfl rfl _ _ _ _ _ _ _ l).trans ?_
  unfold bsm
  exact Finset.sum_congr rfl fun h _ => Finset.sum_congr rfl fun w _ => by rw [pay3_apply, pay2_apply]

theorem pay14_apply (l : Fin 6) : k0_pay14 (F := Ideal) (k0_pay2 x1) (k0_pay3 x0) (ix1 l) = bsm x0 x1 2 l.val := by
  unfold k0_pay14
  refine (channel_sums_apply (k0_pay2 x1) (k0_pay3 x0) ![2, 0, 0] _ 2 rfl rfl rfl _ _ _ _ _ _ _ l).trans ?_
  unfold bsm
  exact Finset.sum_congr rfl fun h _ => Finset.sum_congr rfl fun w _ => by rw [pay3_apply, pay2_apply]

theorem pay17_apply (l : Fin 6) : k0_pay17 (F := Ideal) (k0_pay2 x1) (k0_pay3 x0) (ix1 l) = bsm x0 x1 3 l.val := by
  unfold k0_pay17
  refine (channel_sums_apply (k0_pay2 x1) (k0_pay3 x0) ![3, 0, 0] _ 3 rfl rfl rfl _ _ _ _ _ _ _ l).trans ?_
  unfold bsm
  exact Finset.sum_congr rfl fun h _ => Finset.sum_congr rfl fun w _ => by rw [pay3_apply, pay2_apply]

theorem pay10_apply (l' : Fin 5) : k0_pay10 (F := Ideal) (k0_pay9 x0 x1) (ix3 0 0 l') = bsm x0 x1 0 (l'.val + 1) := by
  unfold k0_pay10 k0_pay9
  exact (stored_row_apply _ _ _ l').trans (pay8_apply x0 x1 ⟨l'.val + 1, by omega⟩)

theorem pay12_apply (l' : Fin 5) : k0_pay12 (F := Ideal) (k0_pay2 x1) (k0_pay3 x0) (ix3 0 0 l') = bsm x0 x1 1 (l'.val + 1) := by
  unfold k0_pay12
  exact (stored_row_apply _ _ _ l').trans (pay11_apply x0 x1 ⟨l'.val + 1, by omega⟩)

theorem pay16_apply (l' : Fin 5) : k0_pay16 (F := Ideal) (k0_pay15 (k0_pay2 x1) (k0_pay3 x0)) (ix3 0 0 l') = bsm x0 x1 2 (l'.val + 1) := by
  unfold k0_pay16 k0_pay15
  exact (stored_row_apply _ _ _ l').trans (pay14_apply x0 x1 ⟨l'.val + 1, by omega⟩)

theorem pay18_apply (l' : Fin 5) : k0_pay18 (F := Ideal) (k0_pay2 x1) (k0_pay3 x0) (ix3 0 0 l') = bsm x0 x1 3 (l'.val + 1) := by
  unfold k0_pay18
  exact (stored_row_apply _ _ _ l').trans (pay17_apply x0 x1 ⟨l'.val + 1, by omega⟩)

end Cert.KernelIdeal.Lanes

end
-- ==== Proof.KPixel.lean ====
/-
  The kernel body's hinge sum at the ideal instance: every one of the 128 stored copies is the sum over the
  block's pixels of the pixel's contribution `bcontrib`. Per pixel labelled `t ≤ 5` the sweep over the six lanes of
  one-hot × lane vector picks lane `t`'s entry (the other five products are zero), so the squared distance is to
  lane `t`'s mean and the validity factor is 1 exactly when `1 ≤ t` and lane `t` has more than one pixel.

  The road: a one-hot sweep picks the pixel's own lane (`lane_pick`, `sweep_apply`); the validity block is the
  validity factor `vfac` of that lane (`pay6_apply`); each channel's difference is to that lane's mean
  (`diff_apply`); the four squared differences accumulate onto the zero word into the squared distance (`pay13_apply`,
  `pay19_apply`); squared hinge × factor is the contribution (`contrib_eq`); and the stored value is the block's total,
  regrouped as rows × columns (`total_apply`).
-/
import proofs.«402451_j17145509446225_3_alg».proof.Proof.KLanes

noncomputable section

namespace Cert.KernelIdeal.Pixel

open Cert.KernelIdeal Cert.KernelIdeal.Gen Cert.Spec Cert.KernelIdeal.Lanes
open Idealize.ShloMosaic Idealize.ShloMosaic.ValueIdx

/-- A word below six is the label `l` exactly when its value is `l`. -/
theorem eq_ofNat_iff (x : BitVec 32) (l : ℕ) (hl : l < 6) : x = BitVec.ofNat 32 l ↔ x.toNat = l := by
  constructor
  · intro h
    rw [h, BitVec.toNat_ofNat]
    omega
  · intro h
    rw [← h, BitVec.ofNat_toNat, BitVec.setWidth_eq]

/-- The sweep over the six lanes of one-hot × lane entry picks the entry of the pixel's own lane. -/
theorem lane_pick (x : BitVec 32) (hx : x.toNat ≤ 5) (g : ℕ → EReal) :
    ∑ l : Fin 6, oh x l.val * g l.val = g x.toNat := by
  have hlt : x.toNat < 6 := by omega
  rw [Finset.sum_eq_single (⟨x.toNat, hlt⟩ : Fin 6)]
  · unfold oh
    rw [if_pos ((eq_ofNat_iff x x.toNat hlt).mpr rfl), one_mul]
  · intro l _ hne
    unfold oh
    rw [if_neg, zero_mul]
    intro h
    exact hne (Fin.ext ((eq_ofNat_iff x l.val l.isLt).mp h).symm)
  · intro h
    exact absurd (Finset.mem_univ _) h

/-- A sum over the lane axis of a 6×360×640 block, read at pixel `(h, w)`. -/
theorem red0_apply (src : FVec Ideal S6x360x640 .f32) (hr : S6x360x640.Reduces [0] S360x640) (hφ : FKind.Formats .f32)
    (hacc : (0x00000000#32 : BitVec 32) = FKind.add.neutral .f32 hφ) (h : Fin 360) (w : Fin 640) :
    multiReduction .add [0] S360x640 src 0x00000000#32 hr hφ hacc (ix2 h w) = ∑ l : Fin 6, src (ix3 l h w) := by
  refine (Ideal.multiReduction_add_single src _ hr hφ hacc (ix2 h w)).trans ?_
  refine Finset.sum_congr rfl fun l _ => congrArg src ?_
  funext a
  apply Fin.ext
  match a with
  | ⟨0, _⟩ => rfl
  | ⟨1, _⟩ => rfl
  | ⟨2, _⟩ => rfl

/-- A lane vector spread over the block reads lane `l`'s entry at every pixel. -/
theorem lanecol_apply (u : FVec Ideal S6 .f32) (sc : S6.ShapeCasts S6x1x1) (bc : S6x1x1.Broadcasts S6x360x640)
    (l : Fin 6) (h : Fin 360) (w : Fin 640) :
    broadcastTo S6x360x640 (shapeCast S6x1x1 u sc) bc (ix3 l h w) = u (ix1 l) := by
  refine (broadcastTo_apply _ bc (ix3 l h w) (ix3 l (0 : Fin 1) (0 : Fin 1)) fun a => ?_).trans ?_
  · match a with
    | ⟨0, _⟩ => rfl
    | ⟨1, _⟩ => rfl
    | ⟨2, _⟩ => rfl
  · refine shapeCast_apply u sc _ (ix1 l) ?_
    rw [Shape.rowMajor_val_three, Shape.rowMajor_val_one]
    show l.val = (l.val * 1 + 0) * 1 + 0
    omega

/-- One-hot × spread lane vector, summed over the lanes, is at pixel `(h, w)` the entry of the pixel's own lane. -/
theorem sweep_apply (x0 : Vec Ideal S1x360x640 .i32) (hx0 : ∀ (h : Fin 360) (w : Fin 640), (x0 (ix3 0 h w)).toNat ≤ 5)
    (v9 : FVec Ideal S6x360x640 .f32)
    (h9 : ∀ (l : Fin 6) (h : Fin 360) (w : Fin 640), v9 (ix3 l h w) = oh (x0 (ix3 0 h w)) l.val)
    (u : FVec Ideal S6 .f32) (g : ℕ → EReal) (hu : ∀ l : Fin 6, u (ix1 l) = g l.val)
    (sc : S6.ShapeCasts S6x1x1) (bc : S6x1x1.Broadcasts S6x360x640)
    (hr : S6x360x640.Reduces [0] S360x640) (hφ : FKind.Formats .f32)
    (hacc : (0x00000000#32 : BitVec 32) = FKind.add.neutral .f32 hφ) (h : Fin 360) (w : Fin 640) :
    multiReduction .add [0] S360x640 (mulf v9 (broadcastTo S6x360x640 (shapeCast S6x1x1 u sc) bc)) 0x00000000#32 hr hφ hacc
      (ix2 h w) = g (x0 (ix3 0 h w)).toNat := by
  refine (red0_apply _ hr hφ hacc h w).trans ?_
  refine Eq.trans (Finset.sum_congr rfl fun l _ => ?_) (lane_pick (x0 (ix3 0 h w)) (hx0 h w) g)
  rw [mulf_apply, h9, lanecol_apply, hu]

/-- Channel `c`'s plane of the embedding block, read at pixel `(h, w)`. -/
theorem chan_apply {α : Type} (o : ℕ) (X : S4x360x640.Idx → α) (hs : S4x360x640.Slices ![o, 0, 0] S1x360x640)
    (sc : S1x360x640.ShapeCasts S360x640) (c : Fin 4) (hc : c.val = o) (h : Fin 360) (w : Fin 640) :
    shapeCast S360x640 (extractStridedSlice S1x360x640 ![o, 0, 0] X hs) sc (ix2 h w) = X (ix3 c h w) := by
  refine (shapeCast_1ab_ab_apply _ sc h w).trans ?_
  refine extractStridedSlice_apply _ X hs _ (ix3 c h w) fun a => ?_
  match a with
  | ⟨0, _⟩ => exact hc.trans (Nat.add_zero o).symm
  | ⟨1, _⟩ => exact (Nat.zero_add _).symm
  | ⟨2, _⟩ => exact (Nat.zero_add _).symm

/-- The validity factor of lane `l`: one when `1 ≤ l` and the lane has more than one pixel, else zero. -/
def vfac (x0 : SBT.Idx → BitVec 32) (l : ℕ) : EReal := if 1 ≤ l ∧ bvld x0 l = 1#1 then 1 else 0

/-- The words behind the validity factor: "more than one pixel" and "lane index at least one", widened to 32 bits and
    read as a signed integer, give one or zero. -/
theorem vword_eq (b : BitVec 1) (l : ℕ) (hl : l < 6) :
    ((((IntOp.andi b (IntOp.cmpi .sge (BitVec.ofNat 32 l) 1#32)).setWidth 32).toInt : ℝ) : EReal)
      = if 1 ≤ l ∧ b = 1#1 then 1 else 0 := by
  rcases BitVec.eq_zero_or_eq_one b with hb | hb <;> subst hb <;> interval_cases l <;> simp [IntOp.andi, IntOp.cmpi] <;> decide

/-- The lane-index vector (the first column of the lane-axis counter) reads `l` at lane `l`. -/
theorem laneidx_apply (it : S6x360x640.Iotas .tc 32 [0]) (sl : S6x360x640.Slices ![0, 0, 0] S6x1x1)
    (sc : S6x1x1.ShapeCasts S6) (l : Fin 6) :
    shapeCast S6 (extractStridedSlice S6x1x1 ![0, 0, 0] (iota .tc S6x360x640 32 [0] it) sl) sc (ix1 l)
      = BitVec.ofNat 32 l.val := by
  refine (shapeCast_apply _ sc (ix1 l) (ix3 l (0 : Fin 1) (0 : Fin 1)) ?_).trans ?_
  · rw [Shape.rowMajor_val_three, Shape.rowMajor_val_one]
    show (l.val * 1 + 0) * 1 + 0 = l.val
    omega
  refine (extractStridedSlice_apply _ _ sl _ (ix3 l (0 : Fin 360) (0 : Fin 640)) fun a => ?_).trans ?_
  · match a with
    | ⟨0, _⟩ => exact (Nat.zero_add _).symm
    | ⟨1, _⟩ => rfl
    | ⟨2, _⟩ => rfl
  exact iota_single_apply .tc S6x360x640 32 0 it _

/-- The lane validity vector at lane `l`, from the count vector and the lane-index vector at `l`. -/
theorem vlane_apply (c4 : FVec Ideal S6 .f32) (li : IVec S6 32) (hw : 1 < 32) (l : Fin 6) (cnt : EReal)
    (hc : c4 (ix1 l) = cnt) (hli : li (ix1 l) = BitVec.ofNat 32 l.val) :
    (sitofp .f32 (extui 32 (andi (cmpf .ogt c4 (broadcast S6 (Scalar.ofBits .f32 0x3F800000#32)))
        (cmpi .sge li (broadcast S6 1#32))) hw) : FVec Ideal S6 .f32) (ix1 l)
      = if 1 ≤ l.val ∧ Ideal.cmp .ogt cnt oneC = 1#1 then 1 else 0 := by
  show ((((IntOp.andi (Ideal.cmp .ogt (c4 (ix1 l)) oneC) (IntOp.cmpi .sge (li (ix1 l)) 1#32)).setWidth 32).toInt : ℝ) : EReal) = _
  rw [hc, hli]
  exact vword_eq _ _ l.isLt

variable (x0 : Vec Ideal S1x360x640 .i32) (x1 : Vec Ideal S1x4x360x640 .f32)

/-- The validity block at pixel `(h, w)` is the validity factor of the pixel's own lane. -/
theorem pay6_apply (hx0 : ∀ (h : Fin 360) (w : Fin 640), (x0 (ix3 0 h w)).toNat ≤ 5) (h : Fin 360) (w : Fin 640) :
    k0_pay6 (F := Ideal) x0 (ix2 h w) = vfac x0 (x0 (ix3 0 h w)).toNat := by
  unfold k0_pay6
  refine sweep_apply x0 hx0 _ (pay3_apply x0) _ (vfac x0) (fun l => ?_) _ _ _ _ _ h w
  exact vlane_apply _ _ _ l _ (pay4_apply x0 l) (laneidx_apply _ _ _ l)

/-- Lane `l`'s mean of channel `c`, as formed from the lane sums and the counts floored at one. -/
theorem meanvec_apply (c : Fin 4) (vs v15 : FVec Ideal S6 .f32)
    (hs : ∀ l : Fin 6, vs (ix1 l) = bsm x0 x1 c l.val) (h15 : ∀ l : Fin 6, v15 (ix1 l) = bcnt x0 l.val) (l : Fin 6) :
    divf vs (maximumf v15 (broadcast S6 (Scalar.ofBits .f32 0x3F800000#32))) (ix1 l) = bmean x0 x1 c l.val := by
  show Ideal.div (vs (ix1 l)) (max (v15 (ix1 l)) oneC) = _
  rw [hs, h15]
  rfl

/-- Channel `c` of pixel `(h, w)` minus the mean of that channel over the pixel's own lane. -/
theorem diff_apply (hx0 : ∀ (h : Fin 360) (w : Fin 640), (x0 (ix3 0 h w)).toNat ≤ 5)
    (v3 : FVec Ideal S4x360x640 .f32) (v9 : FVec Ideal S6x360x640 .f32) (v15 vs : FVec Ideal S6 .f32)
    (h3 : ∀ (c : Fin 4) (h : Fin 360) (w : Fin 640), v3 (ix3 c h w) = x1 (ix4 0 c h w))
    (h9 : ∀ (l : Fin 6) (h : Fin 360) (w : Fin 640), v9 (ix3 l h w) = oh (x0 (ix3 0 h w)) l.val)
    (h15 : ∀ l : Fin 6, v15 (ix1 l) = bcnt x0 l.val)
    (c : Fin 4) (o : ℕ) (hc : c.val = o) (hs : ∀ l : Fin 6, vs (ix1 l) = bsm x0 x1 c l.val)
    (sl : S4x360x640.Slices ![o, 0, 0] S1x360x640) (sc1 : S1x360x640.ShapeCasts S360x640)
    (sc : S6.ShapeCasts S6x1x1) (bc : S6x1x1.Broadcasts S6x360x640)
    (hr : S6x360x640.Reduces [0] S360x640) (hφ : FKind.Formats .f32)
    (hacc : (0x00000000#32 : BitVec 32) = FKind.add.neutral .f32 hφ) (h : Fin 360) (w : Fin 640) :
    subf (shapeCast S360x640 (extractStridedSlice S1x360x640 ![o, 0, 0] v3 sl) sc1)
        (multiReduction .add [0] S360x640 (mulf v9 (broadcastTo S6x360x640 (shapeCast S6x1x1
          (divf vs (maximumf v15 (broadcast S6 (Scalar.ofBits .f32 0x3F800000#32)))) sc) bc)) 0x00000000#32 hr hφ hacc)
        (ix2 h w)
      = x1 (ix4 0 c h w) - bmean x0 x1 c (x0 (ix3 0 h w)).toNat := by
  rw [subf_apply, chan_apply o v3 sl sc1 c hc h w, h3,
    sweep_apply x0 hx0 v9 h9 _ (bmean x0 x1 c) (meanvec_apply x0 x1 c vs v15 hs h15) sc bc hr hφ hacc h w]

/-- The squared difference of channel `c` at pixel `(h, w)` to lane `t`'s mean. -/
def dsq (x0 : SBT.Idx → BitVec 32) (x1 : SBE.Idx → EReal) (c : Fin 4) (h : Fin 360) (w : Fin 640) (t : ℕ) : EReal :=
  (x1 (ix4 0 c h w) - bmean x0 x1 c t) * (x1 (ix4 0 c h w) - bmean x0 x1 c t)

/-- Adding a squared block onto an accumulator block, read at an index. -/
theorem sqadd_apply (acc d : FVec Ideal S360x640 .f32) (i : S360x640.Idx) :
    addf acc (mulf d d) i = acc i + d i * d i := rfl

/-- One accumulation step: equal accumulators and equal differences give equal sums. -/
theorem sq_step (a a' d d' : EReal) (ha : a = a') (hd : d = d') : a + d * d = a' + d' * d' := by
  rw [ha, hd]

/-- After the first two channels the accumulator at pixel `(h, w)` holds the zero word plus the first two squared
    differences to the pixel's own lane. -/
theorem pay13_apply (hx0 : ∀ (h : Fin 360) (w : Fin 640), (x0 (ix3 0 h w)).toNat ≤ 5) (h : Fin 360) (w : Fin 640) :
    k0_pay13 (F := Ideal) (k0_pay2 x1) (k0_pay3 x0) (k0_pay4 x0) (k0_pay7 (F := Ideal)) (k0_pay8 x0 x1) (ix2 h w)
      = zeroC + dsq x0 x1 0 h w (x0 (ix3 0 h w)).toNat + dsq x0 x1 1 h w (x0 (ix3 0 h w)).toNat := by
  unfold k0_pay13 dsq
  refine (sqadd_apply _ _ _).trans ?_
  refine sq_step _ _ _ _ ?_ (diff_apply x0 x1 hx0 _ _ _ _ (pay2_apply x1) (pay3_apply x0) (pay4_apply x0) 1 1 rfl
    (pay11_apply x0 x1) _ _ _ _ _ _ _ h w)
  refine (sqadd_apply _ _ _).trans ?_
  exact sq_step _ _ _ _ rfl (diff_apply x0 x1 hx0 _ _ _ _ (pay2_apply x1) (pay3_apply x0) (pay4_apply x0) 0 0 rfl
    (pay8_apply x0 x1) _ _ _ _ _ _ _ h w)

/-- The four squared differences, added left to right onto the zero word, are the squared distance. -/
theorem bdist2_eq (h : Fin 360) (w : Fin 640) (t : ℕ) :
    bdist2 x0 x1 h w t = zeroC + dsq x0 x1 0 h w t + dsq x0 x1 1 h w t + dsq x0 x1 2 h w t + dsq x0 x1 3 h w t := by
  unfold bdist2 dsq
  rw [Fin.sum_univ_four, zeroC_eq, zero_add]

/-- The square root of a block floored at ε, minus one, read at an index. -/
theorem hingearg_apply (v : FVec Ideal S360x640 .f32) (i : S360x640.Idx) :
    subf (sqrt (maximumf v (broadcast S360x640 (Scalar.ofBits .f32 0x2B8CBCCC#32))))
        (broadcast S360x640 (Scalar.ofBits .f32 0x3F800000#32)) i
      = Ideal.sqrt (max (v i) epsC) - oneC := rfl

/-- The hinge argument at pixel `(h, w)`: the distance to the pixel's own lane mean (floored at ε under the root), minus one. -/
theorem pay19_apply (hx0 : ∀ (h : Fin 360) (w : Fin 640), (x0 (ix3 0 h w)).toNat ≤ 5) (h : Fin 360) (w : Fin 640) :
    k0_pay19 (F := Ideal) (k0_pay2 x1) (k0_pay3 x0) (k0_pay4 x0)
        (k0_pay13 (k0_pay2 x1) (k0_pay3 x0) (k0_pay4 x0) (k0_pay7 (F := Ideal)) (k0_pay8 x0 x1))
        (k0_pay14 (k0_pay2 x1) (k0_pay3 x0)) (ix2 h w)
      = Ideal.sqrt (max (bdist2 x0 x1 h w (x0 (ix3 0 h w)).toNat) epsC) - oneC := by
  unfold k0_pay19
  refine (hingearg_apply _ _).trans ?_
  refine congrArg (fun y => Ideal.sqrt (max y epsC) - oneC) ?_
  refine Eq.trans ?_ (bdist2_eq x0 x1 h w _).symm
  unfold dsq
  refine (sqadd_apply _ _ _).trans ?_
  refine sq_step _ _ _ _ ?_ (diff_apply x0 x1 hx0 _ _ _ _ (pay2_apply x1) (pay3_apply x0) (pay4_apply x0) 3 3 rfl
    (pay17_apply x0 x1) _ _ _ _ _ _ _ h w)
  refine (sqadd_apply _ _ _).trans ?_
  exact sq_step _ _ _ _ (pay13_apply x0 x1 hx0 h w) (diff_apply x0 x1 hx0 _ _ _ _ (pay2_apply x1) (pay3_apply x0)
    (pay4_apply x0) 2 2 rfl (pay14_apply x0 x1) _ _ _ _ _ _ _ h w)

/-- The index set of a 1×360×640 block is the pixels `(h, w)` … -/
def idxEquivPix : S1x360x640.Idx ≃ Fin 360 × Fin 640 where
  toFun i := (i 1, i 2)
  invFun p := ix3 (0 : Fin 1) p.1 p.2
  left_inv i := by
    funext a
    match a with
    | ⟨0, _⟩ =>
      refine Fin.ext ?_
      have h0 : (i 0).val < 1 := (i 0).isLt
      show 0 = (i 0).val
      omega
    | ⟨1, _⟩ => rfl
    | ⟨2, _⟩ => rfl
  right_inv _ := rfl

/-- … so a sum over the block is the double sum over rows and columns. -/
theorem sum_pix {M : Type*} [AddCommMonoid M] (f : S1x360x640.Idx → M) :
    ∑ i, f i = ∑ h : Fin 360, ∑ w : Fin 640, f (ix3 0 h w) := by
  rw [← Equiv.sum_comp idxEquivPix.symm f, Fintype.sum_prod_type]
  rfl

/-- The stored hinge sum: the block's total, copied to each of the 128 lanes. -/
theorem total_apply (v : FVec Ideal S360x640 .f32) (sc0 : S360x640.ShapeCasts S1x360x640)
    (hr : S1x360x640.Reduces [1, 2] S1) (hφ : FKind.Formats .f32)
    (hacc : (0x00000000#32 : BitVec 32) = FKind.add.neutral .f32 hφ)
    (sc1 : S1.ShapeCasts S1x1x1) (hp : ∀ a, (![0, 0, 0] : Fin 3 → Nat) a < S1x1x1.size a)
    (sc2 : S1x1.ShapeCasts S1x1) (bc : S1x1.Broadcasts S1x128) (sc3 : S1x128.ShapeCasts S1x1x128) (j : Fin 128) :
    shapeCast S1x1x128 (broadcastTo S1x128 (shapeCast S1x1 (broadcast S1x1 (extractAt ![0, 0, 0]
        (shapeCast S1x1x1 (multiReduction .add [1, 2] S1 (shapeCast S1x360x640 v sc0) 0x00000000#32 hr hφ hacc) sc1) hp))
        sc2) bc) sc3 (ix3 0 0 j)
      = ∑ h : Fin 360, ∑ w : Fin 640, v (ix2 h w) := by
  refine (shapeCast_ab_1ab_apply _ sc3 0 0 j).trans ?_
  refine (broadcastTo_apply _ bc (ix2 0 j) (ix2 (0 : Fin 1) (0 : Fin 1)) fun a => ?_).trans ?_
  · match a with
    | ⟨0, _⟩ => rfl
    | ⟨1, _⟩ => rfl
  rw [shapeCast_self]
  show shapeCast S1x1x1 _ sc1 _ = _
  refine (shapeCast_apply _ sc1 _ (ix1 (0 : Fin 1)) ?_).trans ?_
  · rw [Shape.rowMajor_val_three, Shape.rowMajor_val_one]
    rfl
  refine (Ideal.multiReduction_add_total _ _ hr (fun b => ?_) hφ hacc _).trans ?_
  · match b with
    | ⟨0, _⟩ => rfl
  refine (sum_pix _).trans ?_
  refine Finset.sum_congr rfl fun h _ => Finset.sum_congr rfl fun w _ => ?_
  exact shapeCast_ab_1ab_apply v sc0 0 h w

/-- Squared hinge times validity factor is the pixel's contribution: the factor is one exactly when the pixel's lane is a
    real lane with more than one pixel. -/
theorem contrib_eq (h : Fin 360) (w : Fin 640) :
    max (Ideal.sqrt (max (bdist2 x0 x1 h w (x0 (ix3 0 h w)).toNat) epsC) - oneC) zeroC
        * max (Ideal.sqrt (max (bdist2 x0 x1 h w (x0 (ix3 0 h w)).toNat) epsC) - oneC) zeroC
        * vfac x0 (x0 (ix3 0 h w)).toNat
      = bcontrib x0 x1 h w := by
  unfold bcontrib vfac hinge2
  split_ifs with hc
  · rw [mul_one]
  · rw [mul_zero]

/-- The hinge block squared times the validity block, read at an index. -/
theorem hsq_apply (v28 v126 : FVec Ideal S360x640 .f32) (i : S360x640.Idx) :
    mulf (mulf (maximumf v126 (broadcast S360x640 (Scalar.ofBits .f32 0x00000000#32)))
        (maximumf v126 (broadcast S360x640 (Scalar.ofBits .f32 0x00000000#32)))) v28 i
      = max (v126 i) zeroC * max (v126 i) zeroC * v28 i := rfl

/-- Equal hinge arguments and equal factors give equal products. -/
theorem contrib_step (a a' v v' z : EReal) (ha : a = a') (hv : v = v') :
    max a z * max a z * v = max a' z * max a' z * v' := by
  rw [ha, hv]

/-- Each stored copy of the hinge sum is the sum over the block's pixels of the pixel's contribution. -/
theorem pay1_apply (hx0 : ∀ (h : Fin 360) (w : Fin 640), (x0 (ix3 0 h w)).toNat ≤ 5) (j : Fin 128) :
    k0_pay1 (F := Ideal) (k0_pay6 x0)
      (k0_pay19 (k0_pay2 x1) (k0_pay3 x0) (k0_pay4 x0)
        (k0_pay13 (k0_pay2 x1) (k0_pay3 x0) (k0_pay4 x0) (k0_pay7 (F := Ideal)) (k0_pay8 x0 x1))
        (k0_pay14 (k0_pay2 x1) (k0_pay3 x0)))
      (Scalar.ofBits .f32 0x00000000#32) (ix3 0 0 j)
    = ∑ h : Fin 360, ∑ w : Fin 640, bcontrib x0 x1 h w := by
  unfold k0_pay1
  refine (total_apply _ _ _ _ _ _ _ _ _ _ j).trans ?_
  refine Finset.sum_congr rfl fun h _ => Finset.sum_congr rfl fun w _ => ?_
  refine (hsq_apply _ _ _).trans ?_
  refine (contrib_step _ _ _ _ zeroC (pay19_apply x0 x1 hx0 h w) (pay6_apply x0 hx0 h w)).trans ?_
  exact contrib_eq x0 x1 h w

end Cert.KernelIdeal.Pixel

end
-- ==== Proof.KArrays.lean ====
/-
  The kernel's three result arrays after the run, at the ideal instance, as whole-array functions of the two
  argument arrays. Point `t` of the grid is batch element `t`: every window's block index there is (t, 0, …, 0),
  so the label and embedding blocks the body finds are `blkT T t` and `blkE E t`, the block it writes back is
  row `t` of the array, and the 32 blocks cover each array. Read through the payload lemmas: the counts array at
  (b, 0, l') is the pixel count of lane l'+1 in batch element b, the sums array at (b, c, l') the lane sum of
  channel c, and the hinge-sum array at (b, 0, j) the batch element's pull sum for every j (labels in 0..5).
-/
import proofs.«402451_j17145509446225_3_alg».proof.Proof.KIFrame
import proofs.«402451_j17145509446225_3_alg».proof.Proof.KPixel
import Idealize.ShloMosaic.Lib.Pipeline.Value

set_option maxRecDepth 16384

noncomputable section

namespace Cert.KernelIdeal.Arr

open Cert.KernelIdeal Cert.KernelIdeal.Gen Cert.KernelIdeal.Fr Cert.Spec Cert.KernelIdeal.Lanes Cert.KernelIdeal.Pixel
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The two argument arrays as launched on core `c`. -/
abbrev argT (c : Dev nD) : S32x360x640.Idx → BitVec 32 := m ((c : Thread nD τ).loc main_arg0)
abbrev argE (c : Dev nD) : S32x4x360x640.Idx → EReal := m ((c : Thread nD τ).loc main_arg1)

/-- Grid point `t` as a batch element. -/
abbrev tb (t : Fin cfg0.N) : Fin 32 := ⟨t.val, Nat.lt_of_lt_of_eq t.isLt N_0⟩

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Every window's block index at point `t` is (t, 0, …, 0): decided over the grid. -/
theorem idx_facts : ∀ t : Fin cfg0.N,
    win0_0.index t (0 : Fin 3) = t.val ∧ win0_0.index t (1 : Fin 3) = 0 ∧ win0_0.index t (2 : Fin 3) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The label block the body finds at point `t` is batch element `t`'s. -/
theorem iblk0_eq (c : Dev nD) (t : Fin cfg0.N) : iblk m c 0 t = blkT (argT m c) (tb t) := by
  obtain ⟨e0, e1, e2, -⟩ := idx_facts t
  funext y
  show V m c main_arg0 (((cfg0.win 0).blk t).view.emb y) = argT m c (ix3 (tb t) (y 1) (y 2))
  refine congrArg (argT m c) ?_
  funext a; apply Fin.ext
  match a with
  | ⟨0, _⟩ => show win0_0.index t (0 : Fin 3) * 1 + 1 * (y 0).val = t.val; have hy : (y 0).val < 1 := (y 0).isLt; omega
  | ⟨1, _⟩ => show win0_0.index t (1 : Fin 3) * 360 + 1 * (y 1).val = (y 1).val; omega
  | ⟨2, _⟩ => show win0_0.index t (2 : Fin 3) * 640 + 1 * (y 2).val = (y 2).val; omega

/-- The embedding block the body finds at point `t` is batch element `t`'s. -/
theorem iblk1_eq (c : Dev nD) (t : Fin cfg0.N) : iblk m c 1 t = blkE (argE m c) (tb t) := by
  obtain ⟨-, -, -, e0, e1, e2, e3, -⟩ := idx_facts t
  funext y
  show V m c main_arg1 (((cfg0.win 1).blk t).view.emb y) = argE m c (ix4 (tb t) (y 1) (y 2) (y 3))
  refine congrArg (argE m c) ?_
  funext a; apply Fin.ext
  match a with
  | ⟨0, _⟩ => show win0_1.index t (0 : Fin 4) * 1 + 1 * (y 0).val = t.val; have hy : (y 0).val < 1 := (y 0).isLt; omega
  | ⟨1, _⟩ => show win0_1.index t (1 : Fin 4) * 4 + 1 * (y 1).val = (y 1).val; omega
  | ⟨2, _⟩ => show win0_1.index t (2 : Fin 4) * 360 + 1 * (y 2).val = (y 2).val; omega
  | ⟨3, _⟩ => show win0_1.index t (3 : Fin 4) * 640 + 1 * (y 3).val = (y 3).val; omega

/-! ## The counts array -/

/-- Lane `l'+1`'s pixel count in batch element `b`, at (b, 0, l'). -/
abbrev GC (T : S32x360x640.Idx → BitVec 32) : S32x1x5.Idx → EReal := fun i => bcnt (blkT T (i 0)) ((i 2).val + 1)

theorem flushed2_eq (c : Dev nD) (t : Fin cfg0.N) :
    (dats m 0 c).flushed 2 t = ((cfg0.win 2).blk t).view.read (Elt Ideal) (GC (argT m c)) := by
  show (cfg0.win 2).cut (grid0.coords t) ((dats m 0 c).after 2 t) = _
  rw [after0_2]
  unfold out0_2
  rw [View.canon_unit_zero hz3]
  simp only [View.ld_unit_zero (S := S1x360x640) hz3]
  rw [iblk0_eq]
  obtain ⟨-, -, -, -, -, -, -, e0, e1, e2, -⟩ := idx_facts t
  funext j
  show k0_pay5 (F := Ideal) (blkT (argT m c) (tb t)) j = GC (argT m c) (((cfg0.win 2).blk t).view.emb j)
  obtain ⟨p, q, r, rfl⟩ : ∃ (p : Fin 1) (q : Fin 1) (r : Fin 5), j = ix3 p q r := ⟨j 0, j 1, j 2, eq_ix3 j⟩
  obtain rfl : p = 0 := Subsingleton.elim _ _
  obtain rfl : q = 0 := Subsingleton.elim _ _
  rw [pay5_apply]
  have h0 : (((cfg0.win 2).blk t).view.emb (ix3 (0 : Fin 1) (0 : Fin 1) r)) 0 = tb t := by
    apply Fin.ext; show win0_2.index t (0 : Fin 3) * 1 + 1 * 0 = t.val; omega
  have h2 : ((((cfg0.win 2).blk t).view.emb (ix3 (0 : Fin 1) (0 : Fin 1) r)) 2).val = r.val := by
    show win0_2.index t (2 : Fin 3) * 5 + 1 * r.val = r.val; omega
  show bcnt (blkT (argT m c) (tb t)) (r.val + 1) = bcnt (blkT (argT m c) ((((cfg0.win 2).blk t).view.emb (ix3 (0 : Fin 1) (0 : Fin 1) r)) 0)) (((((cfg0.win 2).blk t).view.emb (ix3 (0 : Fin 1) (0 : Fin 1) r)) 2).val + 1)
  rw [h0, h2]

/-- An index of a result array is in point `t`'s block iff its batch coordinate is `t`. -/
theorem mem_blk2 (t : Fin cfg0.N) (i : S32x1x5.Idx) :
    i ∈ ((cfg0.win 2).blk t).view.set ↔ ∀ a : Fin 3, win0_2.index t a * S1x1x5.size a ≤ (i a).val ∧ (i a).val < win0_2.index t a * S1x1x5.size a + S1x1x5.size a := by
  show i ∈ ((View.whole main_v0_0).slice (win0_2.rect t)).set ↔ _
  rw [View.set_slice_whole, Rect.mem_set_unit]
  exact Iff.rfl

theorem cover2 (i : S32x1x5.Idx) : ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 5 := (i 2).isLt
  let t : Fin cfg0.N := ⟨(i 0).val, Nat.lt_of_lt_of_eq hi0 N_0.symm⟩
  obtain ⟨-, -, -, -, -, -, -, e0, e1, e2, -⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; rw [e0]; show (i 0).val * 1 ≤ (i 0).val ∧ (i 0).val < (i 0).val * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 5 ≤ (i 2).val ∧ (i 2).val < win0_2.index t (2 : Fin 3) * 5 + 5; omega

/-- The counts array after the run. -/
theorem final2 (c : Dev nD) : (dats m 0 c).arrAt 2 cfg0.N = GC (argT m c) :=
  (dats m 0 c).arrAt_eq_of_cover 2 (GC (argT m c)) (fun t _ => flushed2_eq m c t) cover2

/-! ## The sums array -/

/-- Lane `l'+1`'s sum of channel `c` in batch element `b`, at (b, c, l'). -/
abbrev GS (T : S32x360x640.Idx → BitVec 32) (E : S32x4x360x640.Idx → EReal) : S32x4x5.Idx → EReal :=
  fun i => bsm (blkT T (i 0)) (blkE E (i 0)) (i 1) ((i 2).val + 1)

/-- The sums block after the body, read as one function of the block index: each of the four row stores is its
    row of "lane `l'+1`'s sum of channel `c` at (0, c, l')", and the four rows tile the block. -/
theorem out0_3_eq (x0 : Vec Ideal S1x360x640 .i32) (x1 : Vec Ideal S1x4x360x640 .f32) :
    out0_3 (F := Ideal) x0 x1 = fun y : S1x4x5.Idx => bsm x0 x1 (y 1) ((y 2).val + 1) := by
  unfold out0_3
  simp only [View.ld_unit_zero (S := S1x360x640) hz3, View.ld_unit_zero (S := S1x4x360x640) hz4]
  funext y
  refine View.canon_apply_of_pieces (Val := Elt Ideal) (S := S1x4x5) (e := .f32) (fun y : S1x4x5.Idx => bsm x0 x1 (y 1) ((y 2).val + 1)) _ ?_ y (cover0_3 _ _ _ _ y)
  intro pc hpc x
  simp only [List.mem_cons, List.mem_nil_iff, or_false] at hpc
  rcases hpc with rfl | rfl | rfl | rfl
  · obtain ⟨p, q, r, rfl⟩ : ∃ (p : Fin 1) (q : Fin 1) (r : Fin 5), x = ix3 p q r := ⟨x 0, x 1, x 2, eq_ix3 x⟩
    obtain rfl : p = 0 := Subsingleton.elim _ _
    obtain rfl : q = 0 := Subsingleton.elim _ _
    show k0_pay18 (F := Ideal) (k0_pay2 x1) (k0_pay3 x0) (ix3 0 0 r) = _
    rw [pay18_apply]
    refine congr (congrArg (bsm x0 x1) (Fin.ext ?_)) (congrArg (· + 1) ?_)
    · show 3 = 3 + 1 * 0; rfl
    · show r.val = 0 + 1 * r.val; omega
  · obtain ⟨p, q, r, rfl⟩ : ∃ (p : Fin 1) (q : Fin 1) (r : Fin 5), x = ix3 p q r := ⟨x 0, x 1, x 2, eq_ix3 x⟩
    obtain rfl : p = 0 := Subsingleton.elim _ _
    obtain rfl : q = 0 := Subsingleton.elim _ _
    show k0_pay16 (F := Ideal) (k0_pay15 (k0_pay2 x1) (k0_pay3 x0)) (ix3 0 0 r) = _
    rw [pay16_apply]
    refine congr (congrArg (bsm x0 x1) (Fin.ext ?_)) (congrArg (· + 1) ?_)
    · show 2 = 2 + 1 * 0; rfl
    · show r.val = 0 + 1 * r.val; omega
  · obtain ⟨p, q, r, rfl⟩ : ∃ (p : Fin 1) (q : Fin 1) (r : Fin 5), x = ix3 p q r := ⟨x 0, x 1, x 2, eq_ix3 x⟩
    obtain rfl : p = 0 := Subsingleton.elim _ _
    obtain rfl : q = 0 := Subsingleton.elim _ _
    show k0_pay12 (F := Ideal) (k0_pay2 x1) (k0_pay3 x0) (ix3 0 0 r) = _
    rw [pay12_apply]
    refine congr (congrArg (bsm x0 x1) (Fin.ext ?_)) (congrArg (· + 1) ?_)
    · show 1 = 1 + 1 * 0; rfl
    · show r.val = 0 + 1 * r.val; omega
  · obtain ⟨p, q, r, rfl⟩ : ∃ (p : Fin 1) (q : Fin 1) (r : Fin 5), x = ix3 p q r := ⟨x 0, x 1, x 2, eq_ix3 x⟩
    obtain rfl : p = 0 := Subsingleton.elim _ _
    obtain rfl : q = 0 := Subsingleton.elim _ _
    show k0_pay10 (F := Ideal) (k0_pay9 x0 x1) (ix3 0 0 r) = _
    rw [pay10_apply]
    refine congr (congrArg (bsm x0 x1) (Fin.ext ?_)) (congrArg (· + 1) ?_)
    · show 0 = 0 + 1 * 0; rfl
    · show r.val = 0 + 1 * r.val; omega

theorem flushed3_eq (c : Dev nD) (t : Fin cfg0.N) :
    (dats m 0 c).flushed 3 t = ((cfg0.win 3).blk t).view.read (Elt Ideal) (GS (argT m c) (argE m c)) := by
  show (cfg0.win 3).cut (grid0.coords t) ((dats m 0 c).after 3 t) = _
  rw [after0_3, out0_3_eq, iblk0_eq, iblk1_eq]
  obtain ⟨-, -, -, -, -, -, -, -, -, -, e0, e1, e2, -⟩ := idx_facts t
  funext j
  obtain ⟨p, q, r, rfl⟩ : ∃ (p : Fin 1) (q : Fin 4) (r : Fin 5), j = ix3 p q r := ⟨j 0, j 1, j 2, eq_ix3 j⟩
  obtain rfl : p = 0 := Subsingleton.elim _ _
  have h0 : (((cfg0.win 3).blk t).view.emb (ix3 (0 : Fin 1) q r)) 0 = tb t := by
    apply Fin.ext; show win0_3.index t (0 : Fin 3) * 1 + 1 * 0 = t.val; omega
  have h1 : (((cfg0.win 3).blk t).view.emb (ix3 (0 : Fin 1) q r)) 1 = q := by
    apply Fin.ext; show win0_3.index t (1 : Fin 3) * 4 + 1 * q.val = q.val; omega
  have h2 : ((((cfg0.win 3).blk t).view.emb (ix3 (0 : Fin 1) q r)) 2).val = r.val := by
    show win0_3.index t (2 : Fin 3) * 5 + 1 * r.val = r.val; omega
  show bsm (blkT (argT m c) (tb t)) (blkE (argE m c) (tb t)) q (r.val + 1)
    = bsm (blkT (argT m c) ((((cfg0.win 3).blk t).view.emb (ix3 (0 : Fin 1) q r)) 0))
        (blkE (argE m c) ((((cfg0.win 3).blk t).view.emb (ix3 (0 : Fin 1) q r)) 0))
        ((((cfg0.win 3).blk t).view.emb (ix3 (0 : Fin 1) q r)) 1)
        (((((cfg0.win 3).blk t).view.emb (ix3 (0 : Fin 1) q r)) 2).val + 1)
  rw [h0, h1, h2]

/-- An index of the sums array is in point `t`'s block iff it lies in the block's span on every axis. -/
theorem mem_blk3 (t : Fin cfg0.N) (i : S32x4x5.Idx) :
    i ∈ ((cfg0.win 3).blk t).view.set ↔ ∀ a : Fin 3, win0_3.index t a * S1x4x5.size a ≤ (i a).val ∧ (i a).val < win0_3.index t a * S1x4x5.size a + S1x4x5.size a := by
  show i ∈ ((View.whole main_v0_1).slice (win0_3.rect t)).set ↔ _
  rw [View.set_slice_whole, Rect.mem_set_unit]
  exact Iff.rfl

theorem cover3 (i : S32x4x5.Idx) : ∃ t : Fin cfg0.N, (cfg0.win 3).flush t = true ∧ i ∈ ((cfg0.win 3).blk t).view.set := by
  have hi0 : (i 0).val < 32 := (i 0).isLt
  have hi1 : (i 1).val < 4 := (i 1).isLt
  have hi2 : (i 2).val < 5 := (i 2).isLt
  let t : Fin cfg0.N := ⟨(i 0).val, Nat.lt_of_lt_of_eq hi0 N_0.symm⟩
  obtain ⟨-, -, -, -, -, -, -, -, -, -, e0, e1, e2, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; rw [e0]; show (i 0).val * 1 ≤ (i 0).val ∧ (i 0).val < (i 0).val * 1 + 1; omega
  | ⟨1, _⟩ => show win0_3.index t (1 : Fin 3) * 4 ≤ (i 1).val ∧ (i 1).val < win0_3.index t (1 : Fin 3) * 4 + 4; omega
  | ⟨2, _⟩ => show win0_3.index t (2 : Fin 3) * 5 ≤ (i 2).val ∧ (i 2).val < win0_3.index t (2 : Fin 3) * 5 + 5; omega

/-- The sums array after the run. -/
theorem final3 (c : Dev nD) : (dats m 0 c).arrAt 3 cfg0.N = GS (argT m c) (argE m c) :=
  (dats m 0 c).arrAt_eq_of_cover 3 (GS (argT m c) (argE m c)) (fun t _ => flushed3_eq m c t) cover3

/-! ## The hinge-sum array -/

/-- Batch element `b`'s pull sum, at (b, 0, j) for every j. -/
abbrev GD (T : S32x360x640.Idx → BitVec 32) (E : S32x4x360x640.Idx → EReal) : S32x1x128.Idx → EReal :=
  fun i => ∑ h : Fin 360, ∑ w : Fin 640, bcontrib (blkT T (i 0)) (blkE E (i 0)) h w

theorem flushed4_eq (c : Dev nD) (hT : ∀ i, (argT m c i).toNat ≤ 5) (t : Fin cfg0.N) :
    (dats m 0 c).flushed 4 t = ((cfg0.win 4).blk t).view.read (Elt Ideal) (GD (argT m c) (argE m c)) := by
  show (cfg0.win 4).cut (grid0.coords t) ((dats m 0 c).after 4 t) = _
  rw [after0_4]
  unfold out0_4
  rw [View.canon_unit_zero hz3]
  simp only [View.ld_unit_zero (S := S1x360x640) hz3, View.ld_unit_zero (S := S1x4x360x640) hz4]
  rw [iblk0_eq, iblk1_eq]
  obtain ⟨-, -, -, -, -, -, -, -, -, -, -, -, -, e0, e1, e2⟩ := idx_facts t
  funext j
  obtain ⟨p, q, r, rfl⟩ : ∃ (p : Fin 1) (q : Fin 1) (r : Fin 128), j = ix3 p q r := ⟨j 0, j 1, j 2, eq_ix3 j⟩
  obtain rfl : p = 0 := Subsingleton.elim _ _
  obtain rfl : q = 0 := Subsingleton.elim _ _
  have hx0 : ∀ (h : Fin 360) (w : Fin 640), (blkT (argT m c) (tb t) (ix3 0 h w)).toNat ≤ 5 := fun h w => by
    rw [blkT_apply]; exact hT _
  have h0 : (((cfg0.win 4).blk t).view.emb (ix3 (0 : Fin 1) (0 : Fin 1) r)) 0 = tb t := by
    apply Fin.ext; show win0_4.index t (0 : Fin 3) * 1 + 1 * 0 = t.val; omega
  refine (pay1_apply (blkT (argT m c) (tb t)) (blkE (argE m c) (tb t)) hx0 r).trans ?_
  show (∑ h : Fin 360, ∑ w : Fin 640, bcontrib (blkT (argT m c) (tb t)) (blkE (argE m c) (tb t)) h w)
    = ∑ h : Fin 360, ∑ w : Fin 640, bcontrib (blkT (argT m c) ((((cfg0.win 4).blk t).view.emb (ix3 (0 : Fin 1) (0 : Fin 1) r)) 0))
        (blkE (argE m c) ((((cfg0.win 4).blk t).view.emb (ix3 (0 : Fin 1) (0 : Fin 1) r)) 0)) h w
  rw [h0]

/-- An index of the hinge-sum array is in point `t`'s block iff it lies in the block's span on every axis. -/
theorem mem_blk4 (t : Fin cfg0.N) (i : S32x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v0_2).slice (win0_4.rect t)).set ↔ _
  rw [View.set_slice_whole, Rect.mem_set_unit]
  exact Iff.rfl

theorem cover4 (i : S32x1x128.Idx) : ∃ t : Fin cfg0.N, (cfg0.win 4).flush t = true ∧ i ∈ ((cfg0.win 4).blk t).view.set := by
  have hi0 : (i 0).val < 32 := (i 0).isLt
  have hi1 : (i 1).val < 1 := (i 1).isLt
  have hi2 : (i 2).val < 128 := (i 2).isLt
  let t : Fin cfg0.N := ⟨(i 0).val, Nat.lt_of_lt_of_eq hi0 N_0.symm⟩
  obtain ⟨-, -, -, -, -, -, -, -, -, -, -, -, -, e0, e1, e2⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; rw [e0]; show (i 0).val * 1 ≤ (i 0).val ∧ (i 0).val < (i 0).val * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 128 ≤ (i 2).val ∧ (i 2).val < win0_4.index t (2 : Fin 3) * 128 + 128; omega

/-- The hinge-sum array after the run, for labels in 0..5. -/
theorem final4 (c : Dev nD) (hT : ∀ i, (argT m c i).toNat ≤ 5) : (dats m 0 c).arrAt 4 cfg0.N = GD (argT m c) (argE m c) :=
  (dats m 0 c).arrAt_eq_of_cover 4 (GD (argT m c) (argE m c)) (fun t _ => flushed4_eq m c hT t) cover4

end Cert.KernelIdeal.Arr

end
-- ==== Proof.KLeaves.lean ====
/-
  The four quantities the kernel's host tail starts from, at the ideal instance, as the specification's: over the
  three result arrays (lane counts `GC`, lane sums `GS`, per-batch pull sums `GD`) the tail first reshapes the counts
  to 32×5 (`cntR`), compares them with 1.0 (the validity bits), divides the transposed sums by the counts floored at
  one (the means), totals the valid lanes' counts (the point count) and totals column 0 of the pull sums.
-/
import proofs.«402451_j17145509446225_3_alg».proof.Proof.KArrays
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Leaves

open Cert.KernelIdeal Cert.KernelIdeal.Gen Cert.Spec Cert.KernelIdeal.Arr
open Idealize.ShloMosaic Idealize.ShloMosaic.ValueIdx

variable (T : S32x360x640.Idx → BitVec 32) (E : S32x4x360x640.Idx → EReal)

/-- Lane `l'+1`'s pixel count in batch element `b`, at (b, l'). -/
def cntR : S32x5.Idx → EReal := fun i => bcnt (blkT T (i 0)) ((i 1).val + 1)

theorem cnt_reshape : (fun i => shapeCast S32x5 (GC T) shapeCasts_S32x1x5_S32x5 i) = cntR T := by
  funext i
  obtain ⟨b, l, rfl⟩ : ∃ (b : Fin 32) (l : Fin 5), i = ix2 b l := ⟨i 0, i 1, eq_ix2 i⟩
  refine (shapeCast_apply (GC T) shapeCasts_S32x1x5_S32x5 (ix2 b l) (ix3 b (0 : Fin 1) l) ?_).trans rfl
  rw [Shape.rowMajor_val_three, Shape.rowMajor_val_two]
  show (b.val * 1 + 0) * 5 + l.val = b.val * 5 + l.val
  omega

/-- The scalar 1.0 spread over the 32×5 lanes reads `oneC` everywhere. -/
theorem one_apply (i : S32x5.Idx) :
    broadcastInDim S32x5 ![] bcast_S_S32x5 (constant (F := Ideal) S_ .f32 1065353216#32) i = oneC :=
  broadcastInDim_apply _ bcast_S_S32x5 _ i ix0 fun a => a.elim0

theorem kvalid :
    cmpf (F := Ideal) .ogt (cntR T) (broadcastInDim S32x5 ![] bcast_S_S32x5 (constant S_ .f32 1065353216#32)) = validS T := by
  funext i
  rw [cmpf_apply, one_apply]
  rfl

/-- The floored counts, spread over the channels, read the floored count of their lane at every channel. -/
theorem floor_apply (Y : S32x5.Idx → EReal) (b : Fin 32) (l : Fin 5) (c : Fin 4) :
    broadcastInDim S32x5x4 ![0, 1, 2] bcast_S32x5x1_S32x5x4_0_1_2
        (broadcastInDim S32x5x1 ![0, 1] bcast_S32x5_S32x5x1_0_1 Y) (ix3 b l c)
      = Y (ix2 b l) := by
  refine (broadcastInDim_apply _ bcast_S32x5x1_S32x5x4_0_1_2 _ (ix3 b l c) (ix3 b l (0 : Fin 1)) fun a => ?_).trans ?_
  · match a with
    | ⟨0, _⟩ => rfl
    | ⟨1, _⟩ => rfl
    | ⟨2, _⟩ => rfl
  refine broadcastInDim_apply _ bcast_S32x5_S32x5x1_0_1 _ (ix3 b l (0 : Fin 1)) (ix2 b l) fun a => ?_
  match a with
  | ⟨0, _⟩ => rfl
  | ⟨1, _⟩ => rfl

theorem kmeans :
    Host.divf (F := Ideal) (transpose S32x5x4 [0, 2, 1] (GS T E) transposes_S32x4x5_S32x5x4_0_2_1)
      (broadcastInDim S32x5x4 ![0, 1, 2] bcast_S32x5x1_S32x5x4_0_1_2
        (broadcastInDim S32x5x1 ![0, 1] bcast_S32x5_S32x5x1_0_1
          (maximumf (cntR T) (broadcastInDim S32x5 ![] bcast_S_S32x5 (constant S_ .f32 1065353216#32)))))
    = meansS T E := by
  funext i
  obtain ⟨b, l, c, rfl⟩ : ∃ (b : Fin 32) (l : Fin 5) (c : Fin 4), i = ix3 b l c := ⟨i 0, i 1, i 2, eq_ix3 i⟩
  show Ideal.div (transpose S32x5x4 [0, 2, 1] (GS T E) transposes_S32x4x5_S32x5x4_0_2_1 (ix3 b l c)) _ = _
  rw [transpose_ix3_021_apply, floor_apply, maximumf_apply, one_apply]
  rfl

theorem kpoints :
    Host.reduceAdd (F := Ideal) (select (validS T) (cntR T) (broadcastInDim S32x5 ![] bcast_S_S32x5 (id (constant S_ .f32 0#32))))
      (constant S_ .f32 0#32) reducesTo_S32x5_S_d0_1 h_S_
    = fun _ => pointCountS T := by
  funext j
  refine (Ideal.hostReduceAdd_total reducesTo_S32x5_S_d0_1 (fun b => b.elim0) _ _ j).trans ?_
  rw [sum_idx2]
  show zeroC + _ = _
  rw [zeroC_eq, zero_add]
  unfold pointCountS
  refine Finset.sum_congr rfl fun b _ => Finset.sum_congr rfl fun l _ => ?_
  rw [select_apply]
  have hz : broadcastInDim S32x5 ![] bcast_S_S32x5 (id (constant (F := Ideal) S_ .f32 0#32)) (ix2 b l) = 0 :=
    (broadcastInDim_apply _ bcast_S_S32x5 _ (ix2 b l) ix0 fun a => a.elim0).trans zeroC_eq
  rw [hz]
  rfl

/-- Column 0 of the pull-sum array, as a vector over the batch, reads batch element `b`'s pull sum at `b`. -/
theorem col0_apply (b : Fin 32) :
    shapeCast S32 (extractStridedSlice S32x1x1 ![0, 0, 0] (GD T E) slices_S32x1x128_S32x1x1_0_0_0) shapeCasts_S32x1x1_S32
        (ix1 b)
      = ∑ h : Fin 360, ∑ w : Fin 640, bcontrib (blkT T b) (blkE E b) h w := by
  refine (shapeCast_apply _ shapeCasts_S32x1x1_S32 (ix1 b) (ix3 b (0 : Fin 1) (0 : Fin 1)) ?_).trans ?_
  · rw [Shape.rowMajor_val_three, Shape.rowMajor_val_one]
    show (b.val * 1 + 0) * 1 + 0 = b.val
    omega
  refine (extractStridedSlice_apply _ (GD T E) slices_S32x1x128_S32x1x1_0_0_0 _ (ix3 b (0 : Fin 1) (0 : Fin 128))
    fun a => ?_).trans rfl
  match a with
  | ⟨0, _⟩ => exact (Nat.zero_add _).symm
  | ⟨1, _⟩ => rfl
  | ⟨2, _⟩ => rfl

/-- The index set of a length-32 vector is its one coordinate … -/
def idxEquivBatch : S32.Idx ≃ Fin 32 where
  toFun i := i 0
  invFun b := ix1 b
  left_inv i := (eq_ix1 i).symm
  right_inv _ := rfl

/-- … so a sum over it is the sum over the batch. -/
theorem sum_batch {M : Type*} [AddCommMonoid M] (f : S32.Idx → M) : ∑ i, f i = ∑ b : Fin 32, f (ix1 b) := by
  rw [← Equiv.sum_comp idxEquivBatch.symm f]
  rfl

theorem kdist :
    Host.reduceAdd (F := Ideal)
      (fun i => shapeCast S32 (extractStridedSlice S32x1x1 ![0, 0, 0] (GD T E) slices_S32x1x128_S32x1x1_0_0_0) shapeCasts_S32x1x1_S32 i)
      (constant S_ .f32 0#32) reducesTo_S32_S_d0 h_S_
    = fun _ => distSumS T E := by
  funext j
  refine (Ideal.hostReduceAdd_total reducesTo_S32_S_d0 (fun b => b.elim0) _ _ j).trans ?_
  rw [sum_batch]
  show zeroC + _ = _
  rw [zeroC_eq, zero_add]
  unfold distSumS
  exact Finset.sum_congr rfl fun b _ => col0_apply T E b

end Cert.KernelIdeal.Leaves

end
-- ==== Proof.RLanes.lean ====
/-
  The reference's lane quantities at the ideal instance are the specification's: its integer pixel counts (a sum of
  widened equality bits over the 230400 flattened pixels, far below 2^31) converted to float are the float counts
  `bcnt`; its lane sums (one contraction over the flattened pixels of one-hot × embedding) are `bsm`; so its means,
  its validity bits and its converted integer sum of the valid lanes' counts are `meansS`, `validS`, `pointCountS`.
-/
import proofs.«402451_j17145509446225_3_alg».proof.Proof.RefRead
import proofs.«402451_j17145509446225_3_alg».proof.Proof.Spec
import Idealize.ShloMosaic.Lib.StableHlo.Predicate
import Mathlib.Algebra.BigOperators.Fin
import Mathlib.Logic.Equiv.Fin.Basic
import Idealize.ShloMosaic.Lib.IdealHost

noncomputable section

namespace Cert.ReferenceIdeal.Lanes

open Cert.ReferenceIdeal Cert.ReferenceIdeal.Gen Cert.ReferenceIdeal.ReadP Cert.Spec
open Idealize.ShloMosaic Idealize.ShloMosaic.ValueIdx
open Idealize.ShloMosaic.StableHlo.Predicate

/-! ## Sums over the flattened pixels -/

/-- A sum over the 230400 flattened pixels is the double sum over the 360 rows and the 640 columns: pixel
    `h * 640 + w` is row `h`, column `w`. -/
theorem sum_pixels {M : Type*} [AddCommMonoid M] (f : Fin 230400 → M) :
    ∑ k : Fin 230400, f k
      = ∑ h : Fin 360, ∑ w : Fin 640, f ⟨h.val * 640 + w.val, by have := h.isLt; have := w.isLt; omega⟩ := by
  rw [← Fintype.sum_prod_type']
  symm
  refine Fintype.sum_equiv (finProdFinEquiv (m := 360) (n := 640)) _ _ fun x => ?_
  exact congrArg f (Fin.ext (by simp only [finProdFinEquiv_apply_val]; ring))

/-- The cast of a natural sum into the extended reals is the sum of the casts. -/
theorem coe_nat_sum {ι : Type*} (s : Finset ι) (f : ι → ℕ) :
    (((∑ i ∈ s, f i : ℕ) : ℝ) : EReal) = ∑ i ∈ s, ((f i : ℝ) : EReal) := by
  classical
  induction s using Finset.induction_on with
  | empty => simp
  | insert a s ha ih => rw [Finset.sum_insert ha, Finset.sum_insert ha, Nat.cast_add, EReal.coe_add, ih]

/-- A sum of 230400 zeros and ones is at most 230400. -/
theorem sum_bits_le (g : Fin 230400 → Prop) [DecidablePred g] :
    ∑ k : Fin 230400, (if g k then 1 else 0 : ℕ) ≤ 230400 := by
  calc ∑ k : Fin 230400, (if g k then 1 else 0 : ℕ) ≤ ∑ _k : Fin 230400, 1 :=
        Finset.sum_le_sum fun k _ => by split <;> omega
    _ = 230400 := by simp

variable (X0 : (⟨S32x360x640, .i32⟩ : BufTy).Contents (Elt Ideal)) (X1 : (⟨S32x4x360x640, .f32⟩ : BufTy).Contents (Elt Ideal))

/-! ## The equality bit of a lane at a pixel -/

/-- Lane `l' + 1`'s label word: the constant 1 plus the lane's position. -/
theorem lane_word (l' : Fin 5) : IntOp.addi (1#32) (BitVec.ofNat 32 l'.val) = BitVec.ofNat 32 (l'.val + 1) := by
  show (1#32 : BitVec 32) + BitVec.ofNat 32 l'.val = BitVec.ofNat 32 (l'.val + 1)
  rw [Nat.add_comm, BitVec.ofNat_add]

/-- The reference's equality bit of batch element `b`, lane `l' + 1`, flattened pixel `k`: the label at row
    `k / 640`, column `k % 640` compared with the lane's word. -/
theorem bit_apply (b : Fin 32) (l' : Fin 5) (k : Fin 230400) :
    val_main_v9 (F := Ideal) X0 (ix3 b l' k)
      = IntOp.cmpi .eq (X0 (ix3 b ⟨k.val / 640, by have := k.isLt; omega⟩ ⟨k.val % 640, by omega⟩))
          (BitVec.ofNat 32 (l'.val + 1)) := by
  rw [val_main_v9_apply, val_main_v7_apply, val_main_v2_apply, val_main_v0_apply, val_main_v8_apply,
    val_main_v6_apply, val_main_v5_apply, val_main_v4_apply, val_main_c_apply, val_main_v3_apply]
  have hk := k.isLt
  have hb := b.isLt
  have hidx : idx_main_v0 (idx_main_v2 (idx_main_v7 (ix3 b l' k)))
      = ix3 b ⟨k.val / 640, by omega⟩ ⟨k.val % 640, by omega⟩ := by
    funext a
    match a with
    | ⟨0, _⟩ => exact Fin.ext (by show (b.val * 230400 + k.val) / 230400 = b.val; omega)
    | ⟨1, _⟩ => exact Fin.ext (by show (b.val * 230400 + k.val) / 640 % 360 = k.val / 640; omega)
    | ⟨2, _⟩ => exact Fin.ext (by show (b.val * 230400 + k.val) % 640 = k.val % 640; omega)
  rw [hidx]
  exact congrArg _ (lane_word l')

/-! ## The integer count of a lane -/

/-- The reduction over axis 2 of a [32 × 5 × 230400] array drops to a [32 × 5] array. -/
theorem red2 : S32x5x230400.Reduces [2] S32x5 := by decide

/-- Result position `(b, l')` with coordinate `k` put back on the reduced axis is `(b, l', k)`. -/
theorem lift_eq (b : Fin 32) (l' : Fin 5) (k : Fin 230400) :
    red2.lift (ix2 b l') k = ix3 b l' k := by
  funext c
  apply Fin.ext
  show red2.liftVal (ix2 b l') k.val c = _
  match c with
  | ⟨0, _⟩ => rfl
  | ⟨1, _⟩ => rfl
  | ⟨2, _⟩ => rfl

/-- The widened bit's value at a pixel: one where the label is the lane's, else zero. -/
theorem wide_toNat (b : Fin 32) (l' : Fin 5) (k : Fin 230400) :
    (val_main_v10 (F := Ideal) X0 (ix3 b l' k)).toNat
      = if X0 (ix3 b ⟨k.val / 640, by have := k.isLt; omega⟩ ⟨k.val % 640, by omega⟩) = BitVec.ofNat 32 (l'.val + 1)
        then 1 else 0 := by
  rw [val_main_v10_apply, toNat_setWidth_bit, bit_apply]
  exact if_congr cmpi_eq_iff rfl rfl

/-- The integer count's value: the number of pixels of batch element `b` labelled `l' + 1`, as a sum of zeros and
    ones over the flattened pixels. -/
theorem count_toNat (b : Fin 32) (l' : Fin 5) :
    (val_main_v11 (F := Ideal) X0 (ix2 b l')).toNat
      = ∑ k : Fin 230400,
          if X0 (ix3 b ⟨k.val / 640, by have := k.isLt; omega⟩ ⟨k.val % 640, by omega⟩) = BitVec.ofNat 32 (l'.val + 1)
          then 1 else 0 := by
  classical
  unfold val_main_v11
  rw [Host.reduce_eq_fold_single IntOp.addi _ _ reducesTo_S32x5x230400_S32x5_d2 red2 h_S_ (ix2 b l'), val_main_c_0_apply]
  have hcomp : (val_main_v10 (F := Ideal) X0 ∘ red2.lift (ix2 b l'))
      = fun k : Fin 230400 => val_main_v10 (F := Ideal) X0 (ix3 b l' k) :=
    funext fun k => congrArg (val_main_v10 (F := Ideal) X0) (lift_eq b l' k)
  rw [hcomp]
  have hsum : ∑ k : Fin 230400, (val_main_v10 (F := Ideal) X0 (ix3 b l' k)).toNat
      = ∑ k : Fin 230400,
          if X0 (ix3 b ⟨k.val / 640, by have := k.isLt; omega⟩ ⟨k.val % 640, by omega⟩) = BitVec.ofNat 32 (l'.val + 1)
          then 1 else 0 :=
    Finset.sum_congr rfl fun k _ => wide_toNat X0 b l' k
  have hlt : ∑ k : Fin 230400, (val_main_v10 (F := Ideal) X0 (ix3 b l' k)).toNat < 2 ^ 32 := by
    rw [hsum]
    exact lt_of_le_of_lt (sum_bits_le _) (by norm_num)
  exact (toNat_fold_addi Finset.univ (fun k : Fin 230400 => val_main_v10 (F := Ideal) X0 (ix3 b l' k)) hlt).trans hsum

/-- The count is at most the number of pixels. -/
theorem count_le (b : Fin 32) (l' : Fin 5) : (val_main_v11 (F := Ideal) X0 (ix2 b l')).toNat ≤ 230400 := by
  rw [count_toNat]
  exact sum_bits_le _

/-- The count read as a signed word is its value. -/
theorem count_toInt (b : Fin 32) (l' : Fin 5) :
    (val_main_v11 (F := Ideal) X0 (ix2 b l')).toInt = ((val_main_v11 (F := Ideal) X0 (ix2 b l')).toNat : ℤ) :=
  toInt_eq_toNat_of_lt (lt_of_le_of_lt (count_le X0 b l') (by norm_num))

/-- The float count of the specification as the cast of the same natural sum, regrouped by rows and columns. -/
theorem bcnt_eq_cast (b : Fin 32) (l' : Fin 5) :
    bcnt (blkT X0 b) (l'.val + 1)
      = (((∑ k : Fin 230400,
          if X0 (ix3 b ⟨k.val / 640, by have := k.isLt; omega⟩ ⟨k.val % 640, by omega⟩) = BitVec.ofNat 32 (l'.val + 1)
          then 1 else 0 : ℕ) : ℝ) : EReal) := by
  rw [coe_nat_sum, sum_pixels]
  unfold bcnt
  refine Finset.sum_congr rfl fun h _ => Finset.sum_congr rfl fun w _ => ?_
  have hh := h.isLt
  have hw := w.isLt
  have e1 : (⟨(h.val * 640 + w.val) / 640, by omega⟩ : Fin 360) = h := Fin.ext (by show (h.val * 640 + w.val) / 640 = h.val; omega)
  have e2 : (⟨(h.val * 640 + w.val) % 640, by omega⟩ : Fin 640) = w := Fin.ext (by show (h.val * 640 + w.val) % 640 = w.val; omega)
  rw [blkT_apply]
  show oh _ _ = _
  unfold oh
  simp only [e1, e2]
  split <;> simp

/-- The integer count of lane `l' + 1` in batch element `b`, converted, is the float count. -/
theorem count_eq (b : Fin 32) (l' : Fin 5) :
    (((val_main_v11 (F := Ideal) X0 (ix2 b l')).toInt : ℝ) : EReal) = bcnt (blkT X0 b) (l'.val + 1) := by
  rw [count_toInt, Int.cast_natCast, count_toNat, bcnt_eq_cast]

/-! ## The validity bit of a lane -/

/-- The float count of the specification is the cast of the integer count's value. -/
theorem bcnt_eq_toNat (b : Fin 32) (l' : Fin 5) :
    bcnt (blkT X0 b) (l'.val + 1) = (((val_main_v11 (F := Ideal) X0 (ix2 b l')).toNat : ℝ) : EReal) := by
  rw [← count_eq, count_toInt, Int.cast_natCast]

/-- The count is below 2^31. -/
theorem count_lt (b : Fin 32) (l' : Fin 5) : (val_main_v11 (F := Ideal) X0 (ix2 b l')).toNat < 2 ^ 31 :=
  lt_of_le_of_lt (count_le X0 b l') (by norm_num)

/-- Two one-bit words that are `1` under the same condition are equal. -/
theorem bit_ext {a c : BitVec 1} (h : a = 1#1 ↔ c = 1#1) : a = c := by
  rcases BitVec.eq_zero_or_eq_one a with ha | ha <;> rcases BitVec.eq_zero_or_eq_one c with hc | hc <;> subst ha <;> subst hc
  · rfl
  · exact absurd (h.2 rfl) (by decide)
  · exact absurd (h.1 rfl) (by decide)
  · rfl

/-- A small word exceeds the word 1 (signed) exactly when its value, as an extended real, exceeds 1. -/
theorem sgt_one_eq_cmp (c : BitVec 32) (hc : c.toNat < 2 ^ 31) :
    IntOp.cmpi .sgt c 1#32 = Ideal.cmp .ogt (((c.toNat : ℝ)) : EReal) 1 := by
  apply bit_ext
  rw [sgt_iff_toNat hc (by decide)]
  show (1#32 : BitVec 32).toNat < c.toNat ↔ BitVec.ofBool (decide ((1 : EReal) < ((c.toNat : ℝ) : EReal))) = 1#1
  rw [ofBool_eq_one_iff, decide_eq_true_eq, ← EReal.coe_one, EReal.coe_lt_coe_iff, Nat.one_lt_cast]
  exact Iff.rfl

/-- The reference's validity bit of lane `l' + 1` in batch element `b` is the specification's. -/
theorem valid_lane (b : Fin 32) (l' : Fin 5) :
    val_main_v13 (F := Ideal) X0 (ix2 b l') = bvld (blkT X0 b) (l'.val + 1) := by
  rw [val_main_v13_apply, val_main_v12_apply, val_main_c_1_apply]
  unfold bvld
  rw [bcnt_eq_toNat, show oneC = 1 from Ideal.ofBits_one_f32]
  exact sgt_one_eq_cmp _ (count_lt X0 b l')

/-! ## The lane sums and the means -/

/-- The reference's one-hot float at a pixel is the specification's indicator. -/
theorem onehot_apply (b : Fin 32) (l' : Fin 5) (k : Fin 230400) :
    val_main_v14 (F := Ideal) X0 (ix3 b l' k)
      = oh (X0 (ix3 b ⟨k.val / 640, by have := k.isLt; omega⟩ ⟨k.val % 640, by omega⟩)) (l'.val + 1) := by
  rw [val_main_v14_apply, bit_apply]
  unfold oh
  show (((IntOp.cmpi .eq _ _).toNat : ℝ) : EReal) = _
  split
  · next hxy => rw [cmpi_eq_iff.2 hxy]; simp
  · next hxy => rw [eq_zero_of_ne_one (mt cmpi_eq_iff.1 hxy)]; simp

/-- The reshaped embedding at batch element `b`, channel `c`, flattened pixel `k`. -/
theorem emb_apply (b : Fin 32) (c : Fin 4) (k : Fin 230400) :
    val_main_v1 (F := Ideal) X1 (ix3 b c k)
      = X1 (ix4 b c ⟨k.val / 640, by have := k.isLt; omega⟩ ⟨k.val % 640, by omega⟩) := by
  rw [val_main_v1_apply]
  have hk := k.isLt
  have hb := b.isLt
  have hc := c.isLt
  refine congrArg X1 (funext fun a => ?_)
  match a with
  | ⟨0, _⟩ => exact Fin.ext (by show ((b.val * 4 + c.val) * 230400 + k.val) / 921600 = b.val; omega)
  | ⟨1, _⟩ => exact Fin.ext (by show ((b.val * 4 + c.val) * 230400 + k.val) / 230400 % 4 = c.val; omega)
  | ⟨2, _⟩ => exact Fin.ext (by show ((b.val * 4 + c.val) * 230400 + k.val) / 640 % 360 = k.val / 640; omega)
  | ⟨3, _⟩ => exact Fin.ext (by show ((b.val * 4 + c.val) * 230400 + k.val) % 640 = k.val % 640; omega)

/-- The reference's lane sum (the contraction over the flattened pixels) is the specification's. -/
theorem sum_lane (b : Fin 32) (l' : Fin 5) (c : Fin 4) :
    val_main_v15 (F := Ideal) X0 X1 (ix3 b l' c) = bsm (blkT X0 b) (blkE X1 b) c (l'.val + 1) := by
  rw [val_main_v15_apply, sum_pixels]
  unfold bsm
  refine Finset.sum_congr rfl fun h _ => Finset.sum_congr rfl fun w _ => ?_
  have hh := h.isLt
  have hw := w.isLt
  have hl : ∀ k : Fin 230400, lidx_main_v15 (ix3 b l' c) k = ix3 b l' k := fun k => by
    funext a; match a with | ⟨0, _⟩ => rfl | ⟨1, _⟩ => rfl | ⟨2, _⟩ => rfl
  have hr : ∀ k : Fin 230400, ridx_main_v15 (ix3 b l' c) k = ix3 b c k := fun k => by
    funext a; match a with | ⟨0, _⟩ => rfl | ⟨1, _⟩ => rfl | ⟨2, _⟩ => rfl
  have e1 : (⟨(h.val * 640 + w.val) / 640, by omega⟩ : Fin 360) = h := Fin.ext (by show (h.val * 640 + w.val) / 640 = h.val; omega)
  have e2 : (⟨(h.val * 640 + w.val) % 640, by omega⟩ : Fin 640) = w := Fin.ext (by show (h.val * 640 + w.val) % 640 = w.val; omega)
  rw [hl, hr, onehot_apply, emb_apply, blkT_apply, blkE_apply]
  simp only [e1, e2]

/-- The signed maximum of a small word with the word 1, converted, is the maximum of its value with 1. -/
theorem maxsi_one_cast (c : BitVec 32) (hc : c.toNat < 2 ^ 31) :
    (((IntOp.maxsi c 1#32).toInt : ℝ) : EReal) = max (((c.toNat : ℝ)) : EReal) 1 := by
  have hci : c.toInt = c.toNat := toInt_eq_toNat_of_lt hc
  have h1 : (1#32 : BitVec 32).toInt = 1 := by decide
  have hslt : (1#32 : BitVec 32).slt c = decide (1 < c.toNat) := by
    simp only [BitVec.slt, hci, h1, Nat.one_lt_cast]
  unfold IntOp.maxsi
  by_cases h : 1 < c.toNat
  · rw [hslt, if_pos (decide_eq_true h), hci, Int.cast_natCast, max_eq_left]
    rw [← EReal.coe_one, EReal.coe_le_coe_iff]
    exact_mod_cast h.le
  · rw [hslt, if_neg (by simpa using h), h1, Int.cast_one, EReal.coe_one, max_eq_right]
    rw [← EReal.coe_one, EReal.coe_le_coe_iff]
    exact_mod_cast (not_lt.1 h)

/-- The reference's divisor (the count floored at one, converted and laid along the channels) is the specification's. -/
theorem divisor_lane (b : Fin 32) (l' : Fin 5) (c : Fin 4) :
    val_main_v20 (F := Ideal) X0 (ix3 b l' c) = max (bcnt (blkT X0 b) (l'.val + 1)) oneC := by
  rw [val_main_v20_apply, val_main_v19_apply, val_main_v18_apply, val_main_v17_apply, val_main_v16_apply,
    val_main_c_2_apply]
  have hidx : idx_main_v18 (idx_main_v20 (ix3 b l' c)) = ix2 b l' := by
    funext a; match a with | ⟨0, _⟩ => rfl | ⟨1, _⟩ => rfl
  rw [hidx, bcnt_eq_toNat, show oneC = 1 from Ideal.ofBits_one_f32]
  exact maxsi_one_cast _ (count_lt X0 b l')

theorem means_eq : val_main_v21 (F := Ideal) X0 X1 = meansS X0 X1 := by
  funext i
  obtain ⟨b, l', c, rfl⟩ : ∃ (b : Fin 32) (l' : Fin 5) (c : Fin 4), i = ix3 b l' c := ⟨i 0, i 1, i 2, eq_ix3 i⟩
  rw [val_main_v21_apply]
  show Ideal.div _ _ = _
  rw [sum_lane, divisor_lane]
  rfl

theorem valid_eq : val_main_v13 (F := Ideal) X0 = validS X0 := by
  funext i
  obtain ⟨b, l', rfl⟩ : ∃ (b : Fin 32) (l' : Fin 5), i = ix2 b l' := ⟨i 0, i 1, eq_ix2 i⟩
  exact valid_lane X0 b l'

/-! ## The number of pixels in valid lanes -/

/-- The selected count of a lane, as a value: the count where the lane is valid, else zero. -/
theorem sel_toNat (b : Fin 32) (l' : Fin 5) :
    (val_main_v42 (F := Ideal) X0 (ix2 b l')).toNat
      = if bvld (blkT X0 b) (l'.val + 1) = 1#1 then (val_main_v11 (F := Ideal) X0 (ix2 b l')).toNat else 0 := by
  rw [val_main_v42_apply, valid_lane, val_main_call4_v1_apply, val_main_call4_v0_apply, val_main_c_9_apply]
  rcases BitVec.eq_zero_or_eq_one (bvld (blkT X0 b) (l'.val + 1)) with hv | hv
  · rw [hv, select_zero, if_neg (by decide)]; rfl
  · rw [hv, select_one, if_pos rfl]

/-- The selected counts summed over the 32 × 5 lanes. -/
theorem sel_sum :
    ∑ i : S32x5.Idx, (val_main_v42 (F := Ideal) X0 i).toNat
      = ∑ b : Fin 32, ∑ l' : Fin 5,
          if bvld (blkT X0 b) (l'.val + 1) = 1#1 then (val_main_v11 (F := Ideal) X0 (ix2 b l')).toNat else 0 := by
  rw [sum_idx2]
  exact Finset.sum_congr rfl fun b _ => Finset.sum_congr rfl fun l' _ => sel_toNat X0 b l'

/-- That sum is at most 160 lanes of 230400 pixels. -/
theorem sel_sum_le : ∑ i : S32x5.Idx, (val_main_v42 (F := Ideal) X0 i).toNat ≤ 36864000 := by
  rw [sel_sum]
  calc _ ≤ ∑ _b : Fin 32, ∑ _l' : Fin 5, 230400 :=
        Finset.sum_le_sum fun b _ => Finset.sum_le_sum fun l' _ => by
          split
          · exact count_le X0 b l'
          · omega
    _ = 36864000 := by simp

/-- The integer total's value: the fold over all the lanes does not wrap. -/
theorem total_toNat :
    (val_main_v43 (F := Ideal) X0 ix0).toNat = ∑ i : S32x5.Idx, (val_main_v42 (F := Ideal) X0 i).toNat := by
  classical
  unfold val_main_v43
  rw [Host.reduce_eq_fold, val_main_c_10_apply]
  have hall : (Finset.univ.filter fun i : S32x5.Idx => reducesTo_S32x5_S_d0_1.drop i = ix0) = Finset.univ :=
    Finset.filter_true_of_mem fun i _ => funext fun a => a.elim0
  rw [hall]
  exact toNat_fold_addi Finset.univ (val_main_v42 (F := Ideal) X0)
    (lt_of_le_of_lt (sel_sum_le X0) (by norm_num))

theorem pointCount_eq : val_main_v44 (F := Ideal) X0 = fun _ => pointCountS X0 := by
  funext i
  have hi := eq_ix0 i
  subst hi
  rw [val_main_v44_apply]
  show ((((val_main_v43 (F := Ideal) X0 ix0).toInt : ℝ)) : EReal) = _
  have hlt : (val_main_v43 (F := Ideal) X0 ix0).toNat < 2 ^ 31 := by
    rw [total_toNat]
    exact lt_of_le_of_lt (sel_sum_le X0) (by norm_num)
  rw [toInt_eq_toNat_of_lt hlt, Int.cast_natCast, total_toNat, sel_sum, coe_nat_sum]
  unfold pointCountS
  refine Finset.sum_congr rfl fun b _ => ?_
  rw [coe_nat_sum]
  refine Finset.sum_congr rfl fun l' _ => ?_
  rw [bcnt_eq_toNat]
  by_cases hv : bvld (blkT X0 b) (l'.val + 1) = 1#1
  · rw [if_pos hv, if_pos hv]
  · rw [if_neg hv, if_neg hv, Nat.cast_zero, EReal.coe_zero]

end Cert.ReferenceIdeal.Lanes

end
-- ==== Proof.RPixel.lean ====
/-
  The reference's pull sum at the ideal instance is the specification's, for labels in 0..5: the wrapped index is the
  label itself and is in range, so the gather of the means table extended by a zero row reads lane `t`'s mean
  (row 0 for `t = 0`), the gather of the validity bits extended by a false bit reads lane `t`'s bit (false for
  `t = 0`), the select keeps the squared hinge exactly where `bcontrib` does, and the total over batch × flattened
  pixels regroups as batch, row, column.
-/
import proofs.«402451_j17145509446225_3_alg».proof.Proof.RLanes

noncomputable section

namespace Cert.ReferenceIdeal.Pixel

open Cert.ReferenceIdeal Cert.ReferenceIdeal.Gen Cert.ReferenceIdeal.ReadP Cert.Spec Cert.ReferenceIdeal.Lanes
open Idealize.ShloMosaic Idealize.ShloMosaic.ValueIdx

variable (X0 : (⟨S32x360x640, .i32⟩ : BufTy).Contents (Elt Ideal)) (X1 : (⟨S32x4x360x640, .f32⟩ : BufTy).Contents (Elt Ideal))

/-! ## The two gathers read at an index -/

abbrev dG3 : GatherDims S32x6x4 S32x230400x1 S32x230400x4 := gather_S32x6x4_S32x230400x1_S32x230400x4_2_1_0_0_1_2_114
abbrev dG2 : GatherDims S32x6 S32x230400x1 S32x230400 := gather_S32x6_S32x230400x1_S32x230400_n_1_0_0_1_2_11

theorem g3_batch (j : S32x230400x4.Idx) : dG3.batchCoord j (0 : Fin 3) = (j 0).val := rfl
theorem g3_off (j : S32x230400x4.Idx) : dG3.offCoord j (2 : Fin 3) = (j 2).val := rfl
theorem g3_si (b : Fin 32) (p : Fin 230400) (c : Fin 4) (k : Fin dG3.startIndexMap.length) :
    dG3.siIdx (ix3 b p c) k = ix3 b p 0 := by
  funext a
  match a with
  | ⟨0, _⟩ => rfl
  | ⟨1, _⟩ => rfl
  | ⟨2, _⟩ => exact Fin.ext (by have := k.isLt; show k.val = 0; change k.val < 1 at this; omega)

/-- The gather of a [32,6,4] table along its middle axis, batched on the first, at (b, p, c): the table at
    (b, the start index of (b, p) read signed and clamped into 0..5, c). -/
theorem gather3_apply {α : Type} (x : S32x6x4.Idx → α) (idx : IVec S32x230400x1 32) (b : Fin 32) (p : Fin 230400) (c : Fin 4) :
    Host.gather dG3 x idx (ix3 b p c)
      = x (ix3 b ⟨min (idx (ix3 b p 0)).toInt.toNat 5, by omega⟩ c) := by
  unfold Host.gather
  congr 1
  funext a
  apply Fin.ext
  match a with
  | ⟨0, _⟩ =>
    show dG3.start (ix3 b p c) idx (0 : Fin 3) + dG3.batchCoord (ix3 b p c) (0 : Fin 3) + dG3.offCoord (ix3 b p c) (0 : Fin 3) = b.val
    rw [dG3.start_batching _ _ _ (List.mem_singleton.mpr rfl),
      dG3.offCoord_eq_zero _ _ (fun h => ((dG3.mem_sKept _).mp h).2 (List.mem_singleton.mpr rfl)), g3_batch]
    show 0 + b.val + 0 = b.val
    omega
  | ⟨1, _⟩ =>
    show dG3.start (ix3 b p c) idx (1 : Fin 3) + dG3.batchCoord (ix3 b p c) (1 : Fin 3) + dG3.offCoord (ix3 b p c) (1 : Fin 3)
      = min (idx (ix3 b p 0)).toInt.toNat 5
    rw [dG3.batchCoord_eq_zero _ _ (by decide),
      dG3.offCoord_eq_zero _ _ (fun h => ((dG3.mem_sKept _).mp h).1 (List.mem_singleton.mpr rfl))]
    unfold GatherDims.start
    rw [dif_pos (show (1 : Fin 3) ∈ dG3.startIndexMap from List.mem_singleton.mpr rfl), g3_si]
    rfl
  | ⟨2, _⟩ =>
    show dG3.start (ix3 b p c) idx (2 : Fin 3) + dG3.batchCoord (ix3 b p c) (2 : Fin 3) + dG3.offCoord (ix3 b p c) (2 : Fin 3) = c.val
    rw [dG3.batchCoord_eq_zero _ _ (by decide), g3_off]
    unfold GatherDims.start
    rw [dif_neg (by decide)]
    show 0 + 0 + c.val = c.val
    omega

theorem g2_batch (j : S32x230400.Idx) : dG2.batchCoord j (0 : Fin 2) = (j 0).val := rfl
theorem g2_si (b : Fin 32) (p : Fin 230400) (k : Fin dG2.startIndexMap.length) :
    dG2.siIdx (ix2 b p) k = ix3 b p 0 := by
  funext a
  match a with
  | ⟨0, _⟩ => rfl
  | ⟨1, _⟩ => rfl
  | ⟨2, _⟩ => exact Fin.ext (by have := k.isLt; show k.val = 0; change k.val < 1 at this; omega)

/-- The gather of a [32,6] table along its second axis, batched on the first, at (b, p). -/
theorem gather2_apply {α : Type} (x : S32x6.Idx → α) (idx : IVec S32x230400x1 32) (b : Fin 32) (p : Fin 230400) :
    Host.gather dG2 x idx (ix2 b p)
      = x (ix2 b ⟨min (idx (ix3 b p 0)).toInt.toNat 5, by omega⟩) := by
  unfold Host.gather
  congr 1
  funext a
  apply Fin.ext
  match a with
  | ⟨0, _⟩ =>
    show dG2.start (ix2 b p) idx (0 : Fin 2) + dG2.batchCoord (ix2 b p) (0 : Fin 2) + dG2.offCoord (ix2 b p) (0 : Fin 2) = b.val
    rw [dG2.start_batching _ _ _ (List.mem_singleton.mpr rfl),
      dG2.offCoord_eq_zero _ _ (fun h => ((dG2.mem_sKept _).mp h).2 (List.mem_singleton.mpr rfl)), g2_batch]
    show 0 + b.val + 0 = b.val
    omega
  | ⟨1, _⟩ =>
    show dG2.start (ix2 b p) idx (1 : Fin 2) + dG2.batchCoord (ix2 b p) (1 : Fin 2) + dG2.offCoord (ix2 b p) (1 : Fin 2)
      = min (idx (ix3 b p 0)).toInt.toNat 5
    rw [dG2.batchCoord_eq_zero _ _ (by decide),
      dG2.offCoord_eq_zero _ _ (fun h => ((dG2.mem_sKept _).mp h).1 (List.mem_singleton.mpr rfl))]
    unfold GatherDims.start
    rw [dif_pos (show (1 : Fin 2) ∈ dG2.startIndexMap from List.mem_singleton.mpr rfl), g2_si]
    rfl

/-! ## Words: a label in 0..5 is its own wrapped index, and is in range -/

open Idealize.ShloMosaic.StableHlo.Predicate in
theorem wrap_eq (t : BitVec 32) (ht : t.toNat ≤ 5) :
    Scalar.select (IntOp.cmpi .slt t 0#32) (IntOp.addi t 6#32) t = t := by
  have h : IntOp.cmpi .slt t 0#32 = 0#1 :=
    eq_zero_of_ne_one (fun e => by
      have := (slt_iff_toNat (a := t) (b := 0#32) (by omega) (by decide)).mp e
      simp at this)
  rw [h, select_zero]

open Idealize.ShloMosaic.StableHlo.Predicate in
theorem inRange_eq (t : BitVec 32) (ht : t.toNat ≤ 5) :
    IntOp.andi (IntOp.cmpi .sge t 0#32) (IntOp.cmpi .sle t 5#32) = 1#1 := by
  have h1 : IntOp.cmpi .sge t 0#32 = 1#1 := (sge_iff_toNat (a := t) (b := 0#32) (by omega) (by decide)).mpr (by simp)
  have h2 : IntOp.cmpi .sle t 5#32 = 1#1 := (sle_iff_toNat (a := t) (b := 5#32) (by omega) (by decide)).mpr (by simpa using ht)
  rw [h1, h2]; rfl

open Idealize.ShloMosaic.StableHlo.Predicate in
theorem clamp_eq (t : BitVec 32) (ht : t.toNat ≤ 5) : min t.toInt.toNat 5 = t.toNat := by
  rw [toInt_eq_toNat_of_lt (a := t) (by omega), Int.toNat_natCast]
  omega

/-- A left fold by `and` from 1 over ones is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from rfl]
    exact foldl_andi_ones f hf l

/-! ## The two tables extended by a first row -/

/-- Row 0 of the extended means table is the zero word. -/
theorem v23_zero (b : Fin 32) (c : Fin 4) :
    val_main_v23 (F := Ideal) X0 X1 (ix3 b (0 : Fin 6) c) = zeroC := by
  unfold val_main_v23
  generalize val_main_v21 (F := Ideal) X0 X1 = y
  rw [concatenate_pair_apply_left (1 : Fin 3) (val_main_v22 (F := Ideal)) y concatenates_S32x1x4_S32x5x4_S32x6x4_d1
    (ix3 b (0 : Fin 6) c) rfl (ix3 b (0 : Fin 1) c)
    (fun a => match a with | ⟨0, _⟩ => rfl | ⟨1, _⟩ => rfl | ⟨2, _⟩ => rfl)]
  rw [val_main_v22_apply, val_main_cst_apply]
  rfl

/-- Row `l + 1` of the extended means table is row `l` of the means. -/
theorem v23_succ (b : Fin 32) (l : Fin 5) (c : Fin 4) :
    val_main_v23 (F := Ideal) X0 X1 (ix3 b (⟨l.val + 1, by omega⟩ : Fin 6) c)
      = val_main_v21 (F := Ideal) X0 X1 (ix3 b l c) := by
  unfold val_main_v23
  generalize val_main_v21 (F := Ideal) X0 X1 = y
  exact concatenate_pair_apply_right (1 : Fin 3) (val_main_v22 (F := Ideal)) y concatenates_S32x1x4_S32x5x4_S32x6x4_d1
    (ix3 b (⟨l.val + 1, by omega⟩ : Fin 6) c) rfl rfl (ix3 b l c)
    (fun a ha => match a, ha with
      | ⟨0, _⟩, _ => rfl
      | ⟨1, _⟩, ha => absurd rfl ha
      | ⟨2, _⟩, _ => rfl) rfl

/-- Entry 0 of the extended validity table is the false bit. -/
theorem v34_zero (b : Fin 32) : val_main_v34 (F := Ideal) X0 (ix2 b (0 : Fin 6)) = 0#1 := by
  unfold val_main_v34
  generalize val_main_v13 (F := Ideal) X0 = y
  rw [concatenate_pair_apply_left (1 : Fin 2) (val_main_v33 (F := Ideal)) y concatenates_S32x1_S32x5_S32x6_d1
    (ix2 b (0 : Fin 6)) rfl (ix2 b (0 : Fin 1))
    (fun a => match a with | ⟨0, _⟩ => rfl | ⟨1, _⟩ => rfl)]
  rw [val_main_v33_apply, val_main_c_5_apply]

/-- Entry `l + 1` of the extended validity table is entry `l` of the validity bits. -/
theorem v34_succ (b : Fin 32) (l : Fin 5) :
    val_main_v34 (F := Ideal) X0 (ix2 b (⟨l.val + 1, by omega⟩ : Fin 6)) = val_main_v13 (F := Ideal) X0 (ix2 b l) := by
  unfold val_main_v34
  generalize val_main_v13 (F := Ideal) X0 = y
  exact concatenate_pair_apply_right (1 : Fin 2) (val_main_v33 (F := Ideal)) y concatenates_S32x1_S32x5_S32x6_d1
    (ix2 b (⟨l.val + 1, by omega⟩ : Fin 6)) rfl rfl (ix2 b l)
    (fun a ha => match a, ha with
      | ⟨0, _⟩, _ => rfl
      | ⟨1, _⟩, ha => absurd rfl ha) rfl

/-! ## The label word at a flattened pixel, its wrapped index and the in-range bits -/

/-- The flattened position of pixel (h, w). -/
abbrev pix (h : Fin 360) (w : Fin 640) : Fin 230400 :=
  ⟨h.val * 640 + w.val, by have := h.isLt; have := w.isLt; omega⟩

/-- The flattened labels at (b, h·640 + w) are the labels at (b, h, w). -/
theorem v0_pix (b : Fin 32) (h : Fin 360) (w : Fin 640) :
    val_main_v0 (F := Ideal) X0 (ix2 b (pix h w)) = X0 (ix3 b h w) := by
  rw [val_main_v0_apply]
  refine congrArg X0 ?_
  funext a
  have hh := h.isLt; have hw := w.isLt; have hb := b.isLt
  match a with
  | ⟨0, _⟩ => exact Fin.ext (show (b.val * 230400 + (h.val * 640 + w.val)) / 230400 = b.val by omega)
  | ⟨1, _⟩ => exact Fin.ext (show (b.val * 230400 + (h.val * 640 + w.val)) / 640 % 360 = h.val by omega)
  | ⟨2, _⟩ => exact Fin.ext (show (b.val * 230400 + (h.val * 640 + w.val)) % 640 = w.val by omega)

/-- The flattened embeddings, transposed, at (b, h·640 + w, c) are the embeddings at (b, c, h, w). -/
theorem v26_pix (b : Fin 32) (h : Fin 360) (w : Fin 640) (c : Fin 4) :
    val_main_v26 (F := Ideal) X1 (ix3 b (pix h w) c) = X1 (ix4 b c h w) := by
  rw [val_main_v26_apply, val_main_v1_apply]
  refine congrArg X1 ?_
  funext a
  have hh := h.isLt; have hw := w.isLt; have hb := b.isLt; have hc := c.isLt
  match a with
  | ⟨0, _⟩ => exact Fin.ext (show ((b.val * 4 + c.val) * 230400 + (h.val * 640 + w.val)) / 921600 = b.val by omega)
  | ⟨1, _⟩ => exact Fin.ext (show ((b.val * 4 + c.val) * 230400 + (h.val * 640 + w.val)) / 230400 % 4 = c.val by omega)
  | ⟨2, _⟩ => exact Fin.ext (show ((b.val * 4 + c.val) * 230400 + (h.val * 640 + w.val)) / 640 % 360 = h.val by omega)
  | ⟨3, _⟩ => exact Fin.ext (show ((b.val * 4 + c.val) * 230400 + (h.val * 640 + w.val)) % 640 = w.val by omega)

section Labels
variable (hT : ∀ i, (X0 i).toNat ≤ 5)
include hT

theorem v0_le (j : S32x230400.Idx) : (val_main_v0 (F := Ideal) X0 j).toNat ≤ 5 := by
  rw [val_main_v0_apply]; exact hT _

theorem v24_le (i : S32x230400x1.Idx) : (val_main_v24 (F := Ideal) X0 i).toNat ≤ 5 := by
  rw [val_main_v24_apply]; exact v0_le X0 hT _

/-- The wrapped index of the first gather is the label. -/
theorem call0_v4_eq (i : S32x230400x1.Idx) :
    val_main_call0_v4 (F := Ideal) X0 i = val_main_v24 (F := Ideal) X0 i := by
  rw [val_main_call0_v4_apply, val_main_call0_v1_apply, val_main_call0_v3_apply, val_main_call0_v0_apply,
    val_main_call0_c_apply, val_main_call0_v2_apply, val_main_call0_c_0_apply]
  exact wrap_eq _ (v24_le X0 hT i)

/-- It is in range everywhere … -/
theorem call0_v10_eq (i : S32x230400x1.Idx) : val_main_call0_v10 (F := Ideal) X0 i = 1#1 := by
  rw [val_main_call0_v10_apply, val_main_call0_v6_apply, val_main_call0_v9_apply, call0_v4_eq X0 hT i,
    val_main_call0_v5_apply, val_main_call0_c_2_apply, val_main_call0_v8_apply, val_main_call0_v7_apply,
    val_main_call0_c_1_apply]
  exact inRange_eq _ (v24_le X0 hT i)

/-- … so the conjunction over the unit axis is true everywhere. -/
theorem call0_v11_eq (j : S32x230400.Idx) : val_main_call0_v11 (F := Ideal) X0 j = 1#1 := by
  unfold val_main_call0_v11
  rw [Host.reduce_eq_foldl]
  exact foldl_andi_ones _ (call0_v10_eq X0 hT) _

/-- The wrapped index of the second gather is the label. -/
theorem call1_v4_eq (j : S32x230400.Idx) :
    val_main_call1_v4 (F := Ideal) X0 j = val_main_v0 (F := Ideal) X0 j := by
  rw [val_main_call1_v4_apply, val_main_call1_v1_apply, val_main_call1_v3_apply, val_main_call1_v0_apply,
    val_main_call1_c_apply, val_main_call1_v2_apply, val_main_call1_c_0_apply]
  exact wrap_eq _ (v0_le X0 hT j)

theorem call1_v5_eq (i : S32x230400x1.Idx) :
    val_main_call1_v5 (F := Ideal) X0 i = val_main_v0 (F := Ideal) X0 (idx_main_call1_v5 i) := by
  rw [val_main_call1_v5_apply, call1_v4_eq X0 hT]

theorem call1_v11_eq (i : S32x230400x1.Idx) : val_main_call1_v11 (F := Ideal) X0 i = 1#1 := by
  rw [val_main_call1_v11_apply, val_main_call1_v7_apply, val_main_call1_v10_apply, call1_v5_eq X0 hT i,
    val_main_call1_v6_apply, val_main_call1_c_2_apply, val_main_call1_v9_apply, val_main_call1_v8_apply,
    val_main_call1_c_1_apply]
  exact inRange_eq _ (v0_le X0 hT _)

theorem call1_v12_eq (j : S32x230400.Idx) : val_main_call1_v12 (F := Ideal) X0 j = 1#1 := by
  unfold val_main_call1_v12
  rw [Host.reduce_eq_foldl]
  exact foldl_andi_ones _ (call1_v11_eq X0 hT) _

end Labels

/-! ## One pixel -/

/-- The label column read by the first gather is the flattened labels. -/
theorem v24_pix (b : Fin 32) (p : Fin 230400) :
    val_main_v24 (F := Ideal) X0 (ix3 b p (0 : Fin 1)) = val_main_v0 (F := Ideal) X0 (ix2 b p) := by
  rw [val_main_v24_apply]
  refine congrArg _ ?_
  funext a
  match a with
  | ⟨0, _⟩ => rfl
  | ⟨1, _⟩ => rfl

/-- The squared hinge at a flattened pixel, of the squared distance there. -/
theorem v39_eq (j : S32x230400.Idx) :
    val_main_v39 (F := Ideal) X0 X1 j = hinge2 (val_main_v29 (F := Ideal) X0 X1 j) := by
  rw [val_main_v39_apply, val_main_v38_apply, val_main_v37_apply, val_main_v32_apply, val_main_v31_apply,
    val_main_v30_apply, val_main_cst_4_apply, val_main_v36_apply, val_main_cst_6_apply, val_main_call2_v0_apply,
    val_main_call2_cst_apply]
  generalize val_main_v29 (F := Ideal) X0 X1 j = y
  simp only [Ideal.mulf_def, Ideal.maximumf_def, Ideal.subf_def, Ideal.hostUnary_sqrt_def, Ideal.ofBits_def]
  rfl

section Pixel
variable (hT : ∀ i, (X0 i).toNat ≤ 5)
include hT

/-- The first gather's start index at pixel (b, h, w) is the label there. -/
theorem call0_v4_pix (b : Fin 32) (h : Fin 360) (w : Fin 640) :
    val_main_call0_v4 (F := Ideal) X0 (ix3 b (pix h w) (0 : Fin 1)) = X0 (ix3 b h w) := by
  rw [call0_v4_eq X0 hT, v24_pix, v0_pix]

/-- The second gather's start index at pixel (b, h, w) is the label there. -/
theorem call1_v5_pix (b : Fin 32) (h : Fin 360) (w : Fin 640) :
    val_main_call1_v5 (F := Ideal) X0 (ix3 b (pix h w) (0 : Fin 1)) = X0 (ix3 b h w) := by
  rw [call1_v5_eq X0 hT, ← v0_pix X0 b h w]
  refine congrArg _ ?_
  funext a
  have hh := h.isLt; have hw := w.isLt; have hb := b.isLt
  match a with
  | ⟨0, _⟩ => exact Fin.ext (show ((b.val * 230400 + (h.val * 640 + w.val)) * 1 + 0) / 230400 = b.val by omega)
  | ⟨1, _⟩ => exact Fin.ext (show ((b.val * 230400 + (h.val * 640 + w.val)) * 1 + 0) % 230400 = h.val * 640 + w.val by omega)

/-- The label at (b, h, w) as a row of the six-row tables. -/
abbrev lab (b : Fin 32) (h : Fin 360) (w : Fin 640) : Fin 6 :=
  ⟨(X0 (ix3 b h w)).toNat, by have := hT (ix3 b h w); omega⟩

/-- The mean read for pixel (b, h, w) and channel c is the extended means table's row at the label. -/
theorem v25_pix (b : Fin 32) (h : Fin 360) (w : Fin 640) (c : Fin 4) :
    val_main_v25 (F := Ideal) X0 X1 (ix3 b (pix h w) c)
      = val_main_v23 (F := Ideal) X0 X1 (ix3 b (lab X0 hT b h w) c) := by
  rw [val_main_v25_apply, val_main_call0_v13_apply, call0_v11_eq X0 hT, select_one]
  unfold val_main_call0_v12
  rw [gather3_apply]
  have hq : (⟨min (val_main_call0_v4 (F := Ideal) X0 (ix3 b (pix h w) (0 : Fin 1))).toInt.toNat 5, by omega⟩ : Fin 6)
      = lab X0 hT b h w := Fin.ext (by
    show min (val_main_call0_v4 (F := Ideal) X0 (ix3 b (pix h w) (0 : Fin 1))).toInt.toNat 5 = (X0 (ix3 b h w)).toNat
    rw [call0_v4_pix X0 hT, clamp_eq _ (hT _)])
  rw [hq]

/-- The validity bit read for pixel (b, h, w) is the extended validity table's entry at the label. -/
theorem v35_pix (b : Fin 32) (h : Fin 360) (w : Fin 640) :
    val_main_v35 (F := Ideal) X0 (ix2 b (pix h w)) = val_main_v34 (F := Ideal) X0 (ix2 b (lab X0 hT b h w)) := by
  rw [val_main_v35_apply, call1_v12_eq X0 hT, select_one]
  unfold val_main_call1_v13
  rw [gather2_apply]
  have hq : (⟨min (val_main_call1_v5 (F := Ideal) X0 (ix3 b (pix h w) (0 : Fin 1))).toInt.toNat 5, by omega⟩ : Fin 6)
      = lab X0 hT b h w := Fin.ext (by
    show min (val_main_call1_v5 (F := Ideal) X0 (ix3 b (pix h w) (0 : Fin 1))).toInt.toNat 5 = (X0 (ix3 b h w)).toNat
    rw [call1_v5_pix X0 hT, clamp_eq _ (hT _)])
  rw [hq]

/-- The squared distance of pixel (b, h, w) to the mean row read at its label. -/
theorem v29_pix (b : Fin 32) (h : Fin 360) (w : Fin 640) :
    val_main_v29 (F := Ideal) X0 X1 (ix2 b (pix h w))
      = zeroC + ∑ c : Fin 4, (X1 (ix4 b c h w) - val_main_v23 (F := Ideal) X0 X1 (ix3 b (lab X0 hT b h w) c))
          * (X1 (ix4 b c h w) - val_main_v23 (F := Ideal) X0 X1 (ix3 b (lab X0 hT b h w) c)) := by
  rw [val_main_v29_apply, val_main_cst_3_apply]
  refine congrArg (zeroC + ·) (Finset.sum_congr rfl fun c _ => ?_)
  have hi : idx_main_v29 (ix2 b (pix h w)) c = ix3 b (pix h w) c := by
    funext a
    match a with
    | ⟨0, _⟩ => rfl
    | ⟨1, _⟩ => rfl
    | ⟨2, _⟩ => rfl
  rw [hi, val_main_v28_apply, val_main_v27_apply, v26_pix, v25_pix X0 X1 hT]
  rfl

end Pixel

/-! ## The contribution of one pixel, and the total -/

section Final
variable (hT : ∀ i, (X0 i).toNat ≤ 5)
include hT

/-- Pixel (b, h, w) adds what the specification says: nothing at label 0 (the false bit is read), and at a label
    `l + 1` the squared hinge of its distance to lane `l + 1`'s mean when that lane is valid. -/
theorem v40_pix (b : Fin 32) (h : Fin 360) (w : Fin 640) :
    val_main_v40 (F := Ideal) X0 X1 (ix2 b (pix h w)) = bcontrib (blkT X0 b) (blkE X1 b) h w := by
  have hz : val_main_call3_v1 (F := Ideal) (ix2 b (pix h w)) = 0 := by
    rw [val_main_call3_v1_apply, val_main_call3_v0_apply, val_main_cst_7_apply]; exact zeroC_eq
  rw [val_main_v40_apply, hz, v35_pix X0 hT, v39_eq, v29_pix X0 X1 hT]
  unfold bcontrib
  rw [blkT_apply]
  by_cases h0 : (X0 (ix3 b h w)).toNat = 0
  · have hq : lab X0 hT b h w = (0 : Fin 6) := Fin.ext h0
    rw [hq, v34_zero, select_zero, if_neg (fun hc => by omega)]
  · obtain ⟨l, hl⟩ : ∃ l : Fin 5, (X0 (ix3 b h w)).toNat = l.val + 1 :=
      ⟨⟨(X0 (ix3 b h w)).toNat - 1, by have := hT (ix3 b h w); omega⟩, by show _ = _ - 1 + 1; omega⟩
    have hq : lab X0 hT b h w = (⟨l.val + 1, by omega⟩ : Fin 6) := Fin.ext hl
    have hd : zeroC + ∑ c : Fin 4,
          (X1 (ix4 b c h w) - val_main_v23 (F := Ideal) X0 X1 (ix3 b (⟨l.val + 1, by omega⟩ : Fin 6) c))
            * (X1 (ix4 b c h w) - val_main_v23 (F := Ideal) X0 X1 (ix3 b (⟨l.val + 1, by omega⟩ : Fin 6) c))
        = bdist2 (blkT X0 b) (blkE X1 b) h w (l.val + 1) := by
      rw [zeroC_eq, zero_add]
      unfold bdist2
      refine Finset.sum_congr rfl fun c _ => ?_
      rw [v23_succ, means_eq]
      rfl
    have hv : val_main_v34 (F := Ideal) X0 (ix2 b (⟨l.val + 1, by omega⟩ : Fin 6)) = bvld (blkT X0 b) (l.val + 1) := by
      rw [v34_succ, valid_eq]
      rfl
    rw [hq, hd, hv, hl]
    by_cases hb : bvld (blkT X0 b) (l.val + 1) = 1#1
    · rw [hb, select_one, if_pos ⟨by omega, rfl⟩]
    · rw [eq_zero_of_ne_one hb, select_zero, if_neg (fun hc => absurd hc.2 (by decide))]

/-- Flattened positions are (row, column) pairs. -/
def pixEquiv : Fin 360 × Fin 640 ≃ Fin 230400 where
  toFun q := pix q.1 q.2
  invFun p := (⟨p.val / 640, by have := p.isLt; omega⟩, ⟨p.val % 640, by omega⟩)
  left_inv q := by
    have h1 := q.1.isLt; have h2 := q.2.isLt
    refine Prod.ext (Fin.ext ?_) (Fin.ext ?_)
    · show (q.1.val * 640 + q.2.val) / 640 = q.1.val; omega
    · show (q.1.val * 640 + q.2.val) % 640 = q.2.val; omega
  right_inv p := Fin.ext (by show p.val / 640 * 640 + p.val % 640 = p.val; omega)

end Final
theorem distSum_eq (hT : ∀ i, (X0 i).toNat ≤ 5) : val_main_v41 (F := Ideal) X0 X1 = fun _ => distSumS X0 X1 := by
  funext i
  rw [val_main_v41_apply, val_main_cst_8_apply]
  show zeroC + _ = _
  rw [zeroC_eq, zero_add, sum_idx2]
  unfold distSumS
  refine Finset.sum_congr rfl fun b _ => ?_
  rw [← Equiv.sum_comp pixEquiv, Fintype.sum_prod_type]
  refine Finset.sum_congr rfl fun h _ => Finset.sum_congr rfl fun w _ => ?_
  exact v40_pix X0 X1 hT b h w

end Cert.ReferenceIdeal.Pixel

end
-- ==== Proof.Bridge.lean ====
/-
  The two programs end with the same result. After the region the kernel's program applies 98 host operations to its
  three result arrays; read off the run, the result is a tree of host operations whose only inputs are four
  quantities: the lane means, the validity bits, the pull sum and the point count, each a short term over the result
  arrays that the specification names (`meansS`, `validS`, `distSumS`, `pointCountS`). The reference's last stage
  function unfolds, through the stages of its final stretch, to the SAME tree over its own four quantities, which
  are the specification's too (for labels in 0..5). So the two results are one term.
-/
import proofs.«402451_j17145509446225_3_alg».proof.Proof.KLeaves
import proofs.«402451_j17145509446225_3_alg».proof.Proof.RPixel
import Idealize.ShloMosaic.Lib.StableHlo.Run

noncomputable section

namespace Cert.Bridge

open Cert.KernelIdeal Cert.KernelIdeal.Gen Cert.KernelIdeal.Fr Cert.Spec Cert.KernelIdeal.Arr Cert.KernelIdeal.Leaves
open Cert.ReferenceIdeal.ReadP
open Idealize.ShloMosaic Idealize.ShloMosaic.TcCoe Idealize.ShloMosaic.StableHlo
open Idealize.SL Idealize.SL.Sem

variable (m : (ℓ : Loc nD τ sig) → Buf (Elt Ideal) ℓ)

set_option maxRecDepth 32768 in
set_option maxHeartbeats 16000000 in
/-- The kernel's result after its host tail is the reference's last stage function of the same argument arrays. -/
theorem result_eq (c : Dev nD) (hT : ∀ i, (argT m c i).toNat ≤ 5) :
    Pipeline.afterTail₀ cfgs (dats m) 0 (V0 m) ([hostOps1, hostOps1_1, hostOps1_2, hostOps1_3, hostOps1_4, hostOps1_5, hostOps1_6, hostOps1_7, hostOps1_8, hostOps1_9, hostOps1_10] : List (List (HloOp τ sig (Elt Ideal)))) c main_v67
      = val_main_v96 (F := Ideal) (argT m c) (argE m c) := by
  have a0 : Pipeline.withArrays (cfgs 0).spec c (V0 m c) (fun w => (dats m 0 c).arrAt w (cfgs 0).N) (Proc.devRef .tc main_v0_0) = GC (argT m c) :=
    (Pipeline.withArrays_arr spec0 launch0.win.arr_inj c _ _ 2).trans (final2 m c)
  have a1 : Pipeline.withArrays (cfgs 0).spec c (V0 m c) (fun w => (dats m 0 c).arrAt w (cfgs 0).N) (Proc.devRef .tc main_v0_1) = GS (argT m c) (argE m c) :=
    (Pipeline.withArrays_arr spec0 launch0.win.arr_inj c _ _ 3).trans (final3 m c)
  have a2 : Pipeline.withArrays (cfgs 0).spec c (V0 m c) (fun w => (dats m 0 c).arrAt w (cfgs 0).N) (Proc.devRef .tc main_v0_2) = GD (argT m c) (argE m c) :=
    (Pipeline.withArrays_arr spec0 launch0.win.arr_inj c _ _ 4).trans (final4 m c hT)
  have hc : (fun i => shapeCast main_v1.ty.shape (GC (argT m c)) shapeCasts_S32x1x5_S32x5 i) = cntR (argT m c) := cnt_reshape _
  have hd : Host.reduceAdd (F := Ideal)
      (fun i => shapeCast main_v4.ty.shape (extractStridedSlice S32x1x1 ![0, 0, 0] (GD (argT m c) (argE m c)) slices_S32x1x128_S32x1x1_0_0_0) shapeCasts_S32x1x1_S32 i)
      (constant S_ .f32 0#32) reducesTo_S32_S_d0 h_S_ = fun _ => distSumS (argT m c) (argE m c) := kdist _ _
  unfold Pipeline.afterTail₀
  simp only [hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  after_results_simp
  simp only [TRef.ofBuf, TRef.toBuf, cast_eq]
  rw [a0, a1, a2, hc, hd, kvalid, kmeans, kpoints]
  simp only [val_main_cst_11, val_main_v45, val_main_cst_12, val_main_v46, val_main_v47, val_main_cst_13, val_main_call5_v0, val_main_v48, val_main_v49, val_main_v50, val_main_v51, val_main_v52, val_main_v53, val_main_v54, val_main_cst_14, val_main_v55, val_main_cst_15, val_main_v56, val_main_v57, val_main_v58, val_main_v59, val_main_v60, val_main_v61, val_main_v62, val_main_v63, val_main_v64, val_main_v65, val_main_v66, val_main_v67, val_main_v68, val_main_v69, val_main_v70, val_main_v71, val_main_v72, val_main_cst_16, val_main_v73, val_main_v74, val_main_call6_cst, val_main_call6_v0, val_main_v75, val_main_v76, val_main_cst_17, val_main_call7_v0, val_main_call7_v1, val_main_v77, val_main_cst_18, val_main_v78, val_main_v79, val_main_c_19, val_main_v80, val_main_v81, val_main_cst_20, val_main_v82, val_main_v83, val_main_cst_21, val_main_v84, val_main_v85, val_main_v86, val_main_cst_22, val_main_call8_v0, val_main_call8_v1, val_main_v87, val_main_v88, val_main_c_23, val_main_v89, val_main_v90, val_main_cst_24, val_main_v91, val_main_cst_25, val_main_v92, val_main_cst_26, val_main_v93, val_main_v94, val_main_cst_27, val_main_call9_v0, val_main_v95, val_main_v96]
  rw [Cert.ReferenceIdeal.Lanes.pointCount_eq, Cert.ReferenceIdeal.Pixel.distSum_eq _ _ hT, Cert.ReferenceIdeal.Lanes.means_eq,
    Cert.ReferenceIdeal.Lanes.valid_eq]

end Cert.Bridge

end
-- ==== Proof.lean ====
/-
  The certificate of a fused lane-clustering loss against its jnp reference, over the extended reals.

  The kernel's program runs ONE pipelined region (one grid point per batch element: from the point's label block and
  embedding block it stores the five lane pixel counts, the 4×5 lane sums and the point's pull sum) and then computes
  the loss from those three small arrays on the host: lane means, validity bits, the pull term (pull sum over point
  count) and the push term over pairs of valid lanes' means. The reference computes the same from flattened arrays:
  integer counts, a contraction for the sums, two gathers for each pixel's lane mean and validity.

  Frames: each program runs to the end and leaves its two argument arrays as launched (`Fr.frame` for the two
  kernel programs, at the word-level and the ideal instance; the reference's staged run for the reference).
  Nothing was rewritten by the ideal pass, so `preserves` is `True`. Equal results: under the precondition every
  label is one of the six lanes 0..5 (`PreDecode.labels_le`); then the kernel's result after its host tail is the
  reference's last stage function of the same arrays (`Bridge.result_eq`), which is what the reference's run ends at.
-/
import proofs.«402451_j17145509446225_3_alg».proof.Defs
import proofs.«402451_j17145509446225_3_alg».proof.Proof.Gen.Kernel
import proofs.«402451_j17145509446225_3_alg».proof.Proof.Gen.KernelIdeal
import proofs.«402451_j17145509446225_3_alg».proof.Proof.Gen.ReferenceIdeal
import proofs.«402451_j17145509446225_3_alg».proof.Proof.Gen.Pre_finite_inputs
import proofs.«402451_j17145509446225_3_alg».proof.Proof.KFrame
import proofs.«402451_j17145509446225_3_alg».proof.Proof.KIFrame
import proofs.«402451_j17145509446225_3_alg».proof.Proof.RefStages
import proofs.«402451_j17145509446225_3_alg».proof.Proof.PreDecode
import proofs.«402451_j17145509446225_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Stages.run (F := Ideal) m ρ)

/-- The ideal pass rewrote no operation. -/
theorem preserves : Cert.preserves_Kernel_KernelIdeal := trivial

/-- Both idealized programs, from memories agreeing on the arguments, end with the reference's last stage function of
    the argument arrays in their result buffers, and with the arguments unchanged. -/
theorem algebraic : Cert.algebraic_KernelIdeal_ReferenceIdeal := by
  intro m ρ m' ρ' hpre hagree
  refine ⟨fun c => Cert.ReferenceIdeal.ReadP.val_main_v96 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Fr.run_main m ρ)
    · exact ((h c).2 Cert.KernelIdeal.main_v67 (Pipeline.mem_restRefs_of Cert.KernelIdeal.main_v67 (by decide) (by decide))).trans
        (Cert.Bridge.result_eq m c (fun i => Cert.PreDecode.labels_le _ _ (hpre c) i))
    · exact ((h c).1 0).trans (Cert.KernelIdeal.Fr.kept_main_arg0 m c)
    · exact ((h c).1 1).trans (Cert.KernelIdeal.Fr.kept_main_arg1 m c)
  · refine (θ_run Cert.ReferenceIdeal.defs _ _).mono (fun r h c => ⟨?_, (h c).2.1, (h c).2.2⟩)
      (Cert.ReferenceIdeal.Stages.run (F := Ideal) m' ρ')
    rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
